-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v71)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v71) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v145) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S131072x256 : Shape := ⟨2, ![131072, 256]⟩
abbrev S256x256 : Shape := ⟨2, ![256, 256]⟩
abbrev S_ : Shape := ⟨0, ![]⟩

class Facts : Prop where
  bcast_S_S131072x256 : S_.BroadcastsInDim S131072x256 (![] : Fin 0 → Fin S131072x256.rank)
  reducesTo_S131072x256_S_d0_1 : S131072x256.ReducesTo [0, 1] S_
  h_S_ : 0 < S_.numel
  bcast_S_S256x256 : S_.BroadcastsInDim S256x256 (![] : Fin 0 → Fin S256x256.rank)
  reducesTo_S256x256_S_d0_1 : S256x256.ReducesTo [0, 1] S_

variable [Facts]

def fn_part1 {F : FTy → Type} [FloatOps F] (main_v13 : IVec S_ 1) (main_v16 : IVec S256x256 1) : IVec S_ 1 :=
  let main_c_5 : IVec S_ 1 := constantI S_ 1 1#1
  let main_v17 : IVec S_ 1 := (fun x v => Host.reduce IntOp.andi x v reducesTo_S256x256_S_d0_1 h_S_) main_v16 main_c_5
  let main_v18 : IVec S_ 1 := andi main_v13 main_v17
  main_v18

def fn {F : FTy → Type} [FloatOps F] (main_arg0 : FVec F S131072x256 .f32) (main_arg1 : FVec F S256x256 .f32) (main_arg2 : FVec F S256x256 .f32) (main_arg3 : FVec F S256x256 .f32) : IVec S_ 1 :=
  let main_v0 : FVec F S131072x256 .f32 := Host.absf main_arg0
  let main_cst : FVec F S_ .f32 := constant S_ .f32 0x7F800000#32
  let main_v1 : FVec F S131072x256 .f32 := broadcastInDim S131072x256 ![] bcast_S_S131072x256 main_cst
  let main_v2 : IVec S131072x256 1 := cmpf .olt main_v0 main_v1
  let main_c : IVec S_ 1 := constantI S_ 1 1#1
  let main_v3 : IVec S_ 1 := (fun x v => Host.reduce IntOp.andi x v reducesTo_S131072x256_S_d0_1 h_S_) main_v2 main_c
  let main_v4 : FVec F S256x256 .f32 := Host.absf main_arg1
  let main_cst_0 : FVec F S_ .f32 := constant S_ .f32 0x7F800000#32
  let main_v5 : FVec F S256x256 .f32 := broadcastInDim S256x256 ![] bcast_S_S256x256 main_cst_0
  let main_v6 : IVec S256x256 1 := cmpf .olt main_v4 main_v5
  let main_c_1 : IVec S_ 1 := constantI S_ 1 1#1
  let main_v7 : IVec S_ 1 := (fun x v => Host.reduce IntOp.andi x v reducesTo_S256x256_S_d0_1 h_S_) main_v6 main_c_1
  let main_v8 : IVec S_ 1 := andi main_v3 main_v7
  let main_v9 : FVec F S256x256 .f32 := Host.absf main_arg2
  let main_cst_2 : FVec F S_ .f32 := constant S_ .f32 0x7F800000#32
  let main_v10 : FVec F S256x256 .f32 := broadcastInDim S256x256 ![] bcast_S_S256x256 main_cst_2
  let main_v11 : IVec S256x256 1 := cmpf .olt main_v9 main_v10
  let main_c_3 : IVec S_ 1 := constantI S_ 1 1#1
  let main_v12 : IVec S_ 1 := (fun x v => Host.reduce IntOp.andi x v reducesTo_S256x256_S_d0_1 h_S_) main_v11 main_c_3
  let main_v13 : IVec S_ 1 := andi main_v8 main_v12
  let main_v14 : FVec F S256x256 .f32 := Host.absf main_arg3
  let main_cst_4 : FVec F S_ .f32 := constant S_ .f32 0x7F800000#32
  let main_v15 : FVec F S256x256 .f32 := broadcastInDim S256x256 ![] bcast_S_S256x256 main_cst_4
  let main_v16 : IVec S256x256 1 := cmpf .olt main_v14 main_v15
  fn_part1 (F := F) main_v13 main_v16
-- ==== Kernel.lean ====
abbrev S131072x256 : Shape := ⟨2, ![131072, 256]⟩
abbrev S256x256 : Shape := ⟨2, ![256, 256]⟩
abbrev S1x1 : Shape := ⟨2, ![1, 1]⟩
abbrev S4096x256 : Shape := ⟨2, ![4096, 256]⟩
abbrev S4096 : Shape := ⟨1, ![4096]⟩
abbrev S4096x1 : Shape := ⟨2, ![4096, 1]⟩
abbrev S1 : Shape := ⟨1, ![1]⟩
abbrev S_ : Shape := ⟨0, ![]⟩

abbrev nBuf : Space → Nat
  | .hbm => 115
  | .vmem => 30
  | .smem => 0
  | _ => 0

abbrev bufTy : (tb : Table) → Fin (tcTables nBuf tb) → BufTy
  | .hbm, ⟨0, _⟩ => ⟨S131072x256, .f32⟩
  | .hbm, ⟨1, _⟩ => ⟨S256x256, .f32⟩
  | .hbm, ⟨2, _⟩ => ⟨S256x256, .f32⟩
  | .hbm, ⟨3, _⟩ => ⟨S256x256, .f32⟩
  | .hbm, ⟨4, _⟩ => ⟨S1x1, .f32⟩
  | .hbm, ⟨5, _⟩ => ⟨S_, .f32⟩
  | .hbm, ⟨6, _⟩ => ⟨S1x1, .f32⟩
  | .hbm, ⟨7, _⟩ => ⟨S1x1, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S256x256, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S256x256, .f32⟩
  | .hbm, ⟨20, _⟩ => ⟨S256x256, .f32⟩
  | .hbm, ⟨21, _⟩ => ⟨S_, .f32⟩
  | .hbm, ⟨22, _⟩ => ⟨S256x256, .f32⟩
  | .hbm, ⟨23, _⟩ => ⟨S256x256, .i1⟩
  | .hbm, ⟨24, _⟩ => ⟨S_, .f32⟩
  | .hbm, ⟨25, _⟩ => ⟨S_, .f32⟩
  | .hbm, ⟨26, _⟩ => ⟨S256x256, .f32⟩
  | .hbm, ⟨27, _⟩ => ⟨S256x256, .f32⟩
  | .hbm, ⟨28, _⟩ => ⟨S256x256, .f32⟩
  | .hbm, ⟨29, _⟩ => ⟨S256x256, .f32⟩
  | .hbm, ⟨30, _⟩ => ⟨S256x256, .f32⟩
  | .hbm, ⟨31, _⟩ => ⟨S256x256, .bf16⟩
  | .hbm, ⟨32, _⟩ => ⟨S_, .f32⟩
  | .hbm, ⟨33, _⟩ => ⟨S1x1, .f32⟩
  | .hbm, ⟨34, _⟩ => ⟨S1x1, .f32⟩
  | .hbm, ⟨35, _⟩ => ⟨S1x1, .f32⟩
  | .hbm, ⟨36, _⟩ => ⟨S1x1, .f32⟩
  | .hbm, ⟨37, _⟩ => ⟨S_, .f32⟩
  | .hbm, ⟨38, _⟩ => ⟨S1x1, .f32⟩
  | .hbm, ⟨39, _⟩ => ⟨S1x1, .f32⟩
  | .hbm, ⟨40, _⟩ => ⟨S131072x256, .f32⟩
  | .hbm, ⟨41, _⟩ => ⟨S1x1, .f32⟩
  | .hbm, ⟨42, _⟩ => ⟨S_, .f32⟩
  | .hbm, ⟨43, _⟩ => ⟨S1x1, .f32⟩
  | .hbm, ⟨44, _⟩ => ⟨S1x1, .f32⟩
  | .hbm, ⟨45, _⟩ => ⟨S_, .f32⟩
  | .hbm, ⟨46, _⟩ => ⟨S_, .f32⟩
  | .hbm, ⟨47, _⟩ => ⟨S_, .f32⟩
  | .hbm, ⟨48, _⟩ => ⟨S_, .f32⟩
  | .hbm, ⟨49, _⟩ => ⟨S256x256, .f32⟩
  | .hbm, ⟨50, _⟩ => ⟨S_, .f32⟩
  | .hbm, ⟨51, _⟩ => ⟨S_, .f32⟩
  | .hbm, ⟨52, _⟩ => ⟨S_, .f32⟩
  | .hbm, ⟨53, _⟩ => ⟨S_, .f32⟩
  | .hbm, ⟨54, _⟩ => ⟨S_, .f32⟩
  | .hbm, ⟨55, _⟩ => ⟨S_, .f32⟩
  | .hbm, ⟨56, _⟩ => ⟨S256x256, .f32⟩
  | .hbm, ⟨57, _⟩ => ⟨S256x256, .f32⟩
  | .hbm, ⟨58, _⟩ => ⟨S_, .f32⟩
  | .hbm, ⟨59, _⟩ => ⟨S256x256, .f32⟩
  | .hbm, ⟨60, _⟩ => ⟨S256x256, .i1⟩
  | .hbm, ⟨61, _⟩ => ⟨S_, .f32⟩
  | .hbm, ⟨62, _⟩ => ⟨S_, .f32⟩
  | .hbm, ⟨63, _⟩ => ⟨S256x256, .f32⟩
  | .hbm, ⟨64, _⟩ => ⟨S256x256, .f32⟩
  | .hbm, ⟨65, _⟩ => ⟨S256x256, .f32⟩
  | .hbm, ⟨66, _⟩ => ⟨S256x256, .f32⟩
  | .hbm, ⟨67, _⟩ => ⟨S256x256, .f32⟩
  | .hbm, ⟨68, _⟩ => ⟨S256x256, .bf16⟩
  | .hbm, ⟨69, _⟩ => ⟨S_, .f32⟩
  | .hbm, ⟨70, _⟩ => ⟨S1x1, .f32⟩
  | .hbm, ⟨71, _⟩ => ⟨S1x1, .f32⟩
  | .hbm, ⟨72, _⟩ => ⟨S1x1, .f32⟩
  | .hbm, ⟨73, _⟩ => ⟨S1x1, .f32⟩
  | .hbm, ⟨74, _⟩ => ⟨S_, .f32⟩
  | .hbm, ⟨75, _⟩ => ⟨S1x1, .f32⟩
  | .hbm, ⟨76, _⟩ => ⟨S1x1, .f32⟩
  | .hbm, ⟨77, _⟩ => ⟨S131072x256, .f32⟩
  | .hbm, ⟨78, _⟩ => ⟨S1x1, .f32⟩
  | .hbm, ⟨79, _⟩ => ⟨S_, .f32⟩
  | .hbm, ⟨80, _⟩ => ⟨S1x1, .f32⟩
  | .hbm, ⟨81, _⟩ => ⟨S1x1, .f32⟩
  | .hbm, ⟨82, _⟩ => ⟨S_, .f32⟩
  | .hbm, ⟨83, _⟩ => ⟨S_, .f32⟩
  | .hbm, ⟨84, _⟩ => ⟨S_, .f32⟩
  | .hbm, ⟨85, _⟩ => ⟨S_, .f32⟩
  | .hbm, ⟨86, _⟩ => ⟨S256x256, .f32⟩
  | .hbm, ⟨87, _⟩ => ⟨S_, .f32⟩
  | .hbm, ⟨88, _⟩ => ⟨S_, .f32⟩
  | .hbm, ⟨89, _⟩ => ⟨S_, .f32⟩
  | .hbm, ⟨90, _⟩ => ⟨S_, .f32⟩
  | .hbm, ⟨91, _⟩ => ⟨S_, .f32⟩
  | .hbm, ⟨92, _⟩ => ⟨S_, .f32⟩
  | .hbm, ⟨93, _⟩ => ⟨S256x256, .f32⟩
  | .hbm, ⟨94, _⟩ => ⟨S256x256, .f32⟩
  | .hbm, ⟨95, _⟩ => ⟨S_, .f32⟩
  | .hbm, ⟨96, _⟩ => ⟨S256x256, .f32⟩
  | .hbm, ⟨97, _⟩ => ⟨S256x256, .i1⟩
  | .hbm, ⟨98, _⟩ => ⟨S_, .f32⟩
  | .hbm, ⟨99, _⟩ => ⟨S_, .f32⟩
  | .hbm, ⟨100, _⟩ => ⟨S256x256, .f32⟩
  | .hbm, ⟨101, _⟩ => ⟨S256x256, .f32⟩
  | .hbm, ⟨102, _⟩ => ⟨S256x256, .f32⟩
  | .hbm, ⟨103, _⟩ => ⟨S256x256, .f32⟩
  | .hbm, ⟨104, _⟩ => ⟨S256x256, .f32⟩
  | .hbm, ⟨105, _⟩ => ⟨S256x256, .bf16⟩
  | .hbm, ⟨106, _⟩ => ⟨S_, .f32⟩
  | .hbm, ⟨107, _⟩ => ⟨S1x1, .f32⟩
  | .hbm, ⟨108, _⟩ => ⟨S1x1, .f32⟩
  | .hbm, ⟨109, _⟩ => ⟨S1x1, .f32⟩
  | .hbm, ⟨110, _⟩ => ⟨S1x1, .f32⟩
  | .hbm, ⟨111, _⟩ => ⟨S_, .f32⟩
  | .hbm, ⟨112, _⟩ => ⟨S1x1, .f32⟩
  | .hbm, ⟨113, _⟩ => ⟨S1x1, .f32⟩
  | .hbm, ⟨114, _⟩ => ⟨S131072x256, .f32⟩
  | .local _ .vmem, ⟨0, _⟩ => ⟨S4096x256, .f32⟩
  | .local _ .vmem, ⟨1, _⟩ => ⟨S4096x256, .f32⟩
  | .local _ .vmem, ⟨2, _⟩ => ⟨S1x1, .f32⟩
  | .local _ .vmem, ⟨3, _⟩ => ⟨S4096x256, .f32⟩
  | .local _ .vmem, ⟨4, _⟩ => ⟨S4096x256, .f32⟩
  | .local _ .vmem, ⟨5, _⟩ => ⟨S256x256, .bf16⟩
  | .local _ .vmem, ⟨6, _⟩ => ⟨S1x1, .f32⟩
  | .local _ .vmem, ⟨7, _⟩ => ⟨S1x1, .f32⟩
  | .local _ .vmem, ⟨8, _⟩ => ⟨S4096x256, .f32⟩
  | .local _ .vmem, ⟨9, _⟩ => ⟨S4096x256, .f32⟩
  | .local _ .vmem, ⟨10, _⟩ => ⟨S4096x256, .f32⟩
  | .local _ .vmem, ⟨11, _⟩ => ⟨S4096x256, .f32⟩
  | .local _ .vmem, ⟨12, _⟩ => ⟨S1x1, .f32⟩
  | .local _ .vmem, ⟨13, _⟩ => ⟨S4096x256, .f32⟩
  | .local _ .vmem, ⟨14, _⟩ => ⟨S4096x256, .f32⟩
  | .local _ .vmem, ⟨15, _⟩ => ⟨S256x256, .bf16⟩
  | .local _ .vmem, ⟨16, _⟩ => ⟨S1x1, .f32⟩
  | .local _ .vmem, ⟨17, _⟩ => ⟨S1x1, .f32⟩
  | .local _ .vmem, ⟨18, _⟩ => ⟨S4096x256, .f32⟩
  | .local _ .vmem, ⟨19, _⟩ => ⟨S4096x256, .f32⟩
  | .local _ .vmem, ⟨20, _⟩ => ⟨S4096x256, .f32⟩
  | .local _ .vmem, ⟨21, _⟩ => ⟨S4096x256, .f32⟩
  | .local _ .vmem, ⟨22, _⟩ => ⟨S1x1, .f32⟩
  | .local _ .vmem, ⟨23, _⟩ => ⟨S4096x256, .f32⟩
  | .local _ .vmem, ⟨24, _⟩ => ⟨S4096x256, .f32⟩
  | .local _ .vmem, ⟨25, _⟩ => ⟨S256x256, .bf16⟩
  | .local _ .vmem, ⟨26, _⟩ => ⟨S1x1, .f32⟩
  | .local _ .vmem, ⟨27, _⟩ => ⟨S1x1, .f32⟩
  | .local _ .vmem, ⟨28, _⟩ => ⟨S4096x256, .f32⟩
  | .local _ .vmem, ⟨29, _⟩ => ⟨S4096x256, .f32⟩
  | _, _ => ⟨S131072x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_cst_3 : Ref sig .tc := ⟨.hbm, 15, rfl⟩
abbrev main_v7 : Ref sig .tc := ⟨.hbm, 16, rfl⟩
abbrev main_cst_4 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_5 : Ref sig .tc := ⟨.hbm, 21, rfl⟩
abbrev main_v11 : Ref sig .tc := ⟨.hbm, 22, rfl⟩
abbrev main_v12 : Ref sig .tc := ⟨.hbm, 23, rfl⟩
abbrev main_cst_6 : Ref sig .tc := ⟨.hbm, 24, rfl⟩
abbrev main_cst_7 : Ref sig .tc := ⟨.hbm, 25, rfl⟩
abbrev main_call0_v0 : Ref sig .tc := ⟨.hbm, 26, rfl⟩
abbrev main_call0_v1 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_cst_8 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_cst_9 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_cst_10 : Ref sig .tc := ⟨.hbm, 42, rfl⟩
abbrev main_v25 : Ref sig .tc := ⟨.hbm, 43, rfl⟩
abbrev main_v26 : Ref sig .tc := ⟨.hbm, 44, rfl⟩
abbrev main_cst_11 : Ref sig .tc := ⟨.hbm, 45, rfl⟩
abbrev main_v27 : Ref sig .tc := ⟨.hbm, 46, rfl⟩
abbrev main_cst_12 : Ref sig .tc := ⟨.hbm, 47, rfl⟩
abbrev main_v28 : Ref sig .tc := ⟨.hbm, 48, rfl⟩
abbrev main_v29 : Ref sig .tc := ⟨.hbm, 49, rfl⟩
abbrev main_cst_13 : Ref sig .tc := ⟨.hbm, 50, rfl⟩
abbrev main_v30 : Ref sig .tc := ⟨.hbm, 51, rfl⟩
abbrev main_cst_14 : Ref sig .tc := ⟨.hbm, 52, rfl⟩
abbrev main_v31 : Ref sig .tc := ⟨.hbm, 53, rfl⟩
abbrev main_cst_15 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_cst_16 : Ref sig .tc := ⟨.hbm, 58, rfl⟩
abbrev main_v35 : Ref sig .tc := ⟨.hbm, 59, rfl⟩
abbrev main_v36 : Ref sig .tc := ⟨.hbm, 60, rfl⟩
abbrev main_cst_17 : Ref sig .tc := ⟨.hbm, 61, rfl⟩
abbrev main_cst_18 : Ref sig .tc := ⟨.hbm, 62, rfl⟩
abbrev main_call1_v0 : Ref sig .tc := ⟨.hbm, 63, rfl⟩
abbrev main_call1_v1 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_cst_19 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_cst_20 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_cst_21 : Ref sig .tc := ⟨.hbm, 79, rfl⟩
abbrev main_v49 : Ref sig .tc := ⟨.hbm, 80, rfl⟩
abbrev main_v50 : Ref sig .tc := ⟨.hbm, 81, rfl⟩
abbrev main_cst_22 : Ref sig .tc := ⟨.hbm, 82, rfl⟩
abbrev main_v51 : Ref sig .tc := ⟨.hbm, 83, rfl⟩
abbrev main_cst_23 : Ref sig .tc := ⟨.hbm, 84, rfl⟩
abbrev main_v52 : Ref sig .tc := ⟨.hbm, 85, rfl⟩
abbrev main_v53 : Ref sig .tc := ⟨.hbm, 86, rfl⟩
abbrev main_cst_24 : Ref sig .tc := ⟨.hbm, 87, rfl⟩
abbrev main_v54 : Ref sig .tc := ⟨.hbm, 88, rfl⟩
abbrev main_cst_25 : Ref sig .tc := ⟨.hbm, 89, rfl⟩
abbrev main_v55 : Ref sig .tc := ⟨.hbm, 90, rfl⟩
abbrev main_cst_26 : Ref sig .tc := ⟨.hbm, 91, rfl⟩
abbrev main_v56 : Ref sig .tc := ⟨.hbm, 92, rfl⟩
abbrev main_v57 : Ref sig .tc := ⟨.hbm, 93, rfl⟩
abbrev main_v58 : Ref sig .tc := ⟨.hbm, 94, rfl⟩
abbrev main_cst_27 : Ref sig .tc := ⟨.hbm, 95, rfl⟩
abbrev main_v59 : Ref sig .tc := ⟨.hbm, 96, rfl⟩
abbrev main_v60 : Ref sig .tc := ⟨.hbm, 97, rfl⟩
abbrev main_cst_28 : Ref sig .tc := ⟨.hbm, 98, rfl⟩
abbrev main_cst_29 : Ref sig .tc := ⟨.hbm, 99, rfl⟩
abbrev main_call2_v0 : Ref sig .tc := ⟨.hbm, 100, rfl⟩
abbrev main_call2_v1 : Ref sig .tc := ⟨.hbm, 101, rfl⟩
abbrev main_v61 : Ref sig .tc := ⟨.hbm, 102, rfl⟩
abbrev main_v62 : Ref sig .tc := ⟨.hbm, 103, rfl⟩
abbrev main_v63 : Ref sig .tc := ⟨.hbm, 104, rfl⟩
abbrev main_v64 : Ref sig .tc := ⟨.hbm, 105, rfl⟩
abbrev main_cst_30 : Ref sig .tc := ⟨.hbm, 106, rfl⟩
abbrev main_v65 : Ref sig .tc := ⟨.hbm, 107, rfl⟩
abbrev main_v66 : Ref sig .tc := ⟨.hbm, 108, rfl⟩
abbrev main_v67 : Ref sig .tc := ⟨.hbm, 109, rfl⟩
abbrev main_v68 : Ref sig .tc := ⟨.hbm, 110, rfl⟩
abbrev main_cst_31 : Ref sig .tc := ⟨.hbm, 111, rfl⟩
abbrev main_v69 : Ref sig .tc := ⟨.hbm, 112, rfl⟩
abbrev main_v70 : Ref sig .tc := ⟨.hbm, 113, rfl⟩
abbrev main_v71 : Ref sig .tc := ⟨.hbm, 114, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc1_stg0_0 : Ref sig .tc := ⟨.vmem, 3, rfl⟩
abbrev cc1_stg0_1 : Ref sig .tc := ⟨.vmem, 4, rfl⟩
abbrev cc1_stg1_0 : Ref sig .tc := ⟨.vmem, 5, rfl⟩
abbrev cc1_stg2_0 : Ref sig .tc := ⟨.vmem, 6, rfl⟩
abbrev cc1_stg3_0 : Ref sig .tc := ⟨.vmem, 7, rfl⟩
abbrev cc1_stg4_0 : Ref sig .tc := ⟨.vmem, 8, rfl⟩
abbrev cc1_stg4_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc3_stg0_0 : Ref sig .tc := ⟨.vmem, 13, rfl⟩
abbrev cc3_stg0_1 : Ref sig .tc := ⟨.vmem, 14, rfl⟩
abbrev cc3_stg1_0 : Ref sig .tc := ⟨.vmem, 15, rfl⟩
abbrev cc3_stg2_0 : Ref sig .tc := ⟨.vmem, 16, rfl⟩
abbrev cc3_stg3_0 : Ref sig .tc := ⟨.vmem, 17, rfl⟩
abbrev cc3_stg4_0 : Ref sig .tc := ⟨.vmem, 18, rfl⟩
abbrev cc3_stg4_1 : Ref sig .tc := ⟨.vmem, 19, rfl⟩
abbrev cc4_stg0_0 : Ref sig .tc := ⟨.vmem, 20, rfl⟩
abbrev cc4_stg0_1 : Ref sig .tc := ⟨.vmem, 21, rfl⟩
abbrev cc4_stg1_0 : Ref sig .tc := ⟨.vmem, 22, rfl⟩
abbrev cc5_stg0_0 : Ref sig .tc := ⟨.vmem, 23, rfl⟩
abbrev cc5_stg0_1 : Ref sig .tc := ⟨.vmem, 24, rfl⟩
abbrev cc5_stg1_0 : Ref sig .tc := ⟨.vmem, 25, rfl⟩
abbrev cc5_stg2_0 : Ref sig .tc := ⟨.vmem, 26, rfl⟩
abbrev cc5_stg3_0 : Ref sig .tc := ⟨.vmem, 27, rfl⟩
abbrev cc5_stg4_0 : Ref sig .tc := ⟨.vmem, 28, rfl⟩
abbrev cc5_stg4_1 : Ref sig .tc := ⟨.vmem, 29, rfl⟩
abbrev cc0_sem0_0 : DmaSem sig := 0
abbrev cc0_sem0_1 : DmaSem sig := 1
abbrev cc0_sem1_0 : DmaSem sig := 2
abbrev cc1_sem0_0 : DmaSem sig := 3
abbrev cc1_sem0_1 : DmaSem sig := 4
abbrev cc1_sem1_0 : DmaSem sig := 5
abbrev cc1_sem2_0 : DmaSem sig := 6
abbrev cc1_sem3_0 : DmaSem sig := 7
abbrev cc1_sem4_0 : DmaSem sig := 8
abbrev cc1_sem4_1 : DmaSem sig := 9
abbrev cc2_sem0_0 : DmaSem sig := 10
abbrev cc2_sem0_1 : DmaSem sig := 11
abbrev cc2_sem1_0 : DmaSem sig := 12
abbrev cc3_sem0_0 : DmaSem sig := 13
abbrev cc3_sem0_1 : DmaSem sig := 14
abbrev cc3_sem1_0 : DmaSem sig := 15
abbrev cc3_sem2_0 : DmaSem sig := 16
abbrev cc3_sem3_0 : DmaSem sig := 17
abbrev cc3_sem4_0 : DmaSem sig := 18
abbrev cc3_sem4_1 : DmaSem sig := 19
abbrev cc4_sem0_0 : DmaSem sig := 20
abbrev cc4_sem0_1 : DmaSem sig := 21
abbrev cc4_sem1_0 : DmaSem sig := 22
abbrev cc5_sem0_0 : DmaSem sig := 23
abbrev cc5_sem0_1 : DmaSem sig := 24
abbrev cc5_sem1_0 : DmaSem sig := 25
abbrev cc5_sem2_0 : DmaSem sig := 26
abbrev cc5_sem3_0 : DmaSem sig := 27
abbrev cc5_sem4_0 : DmaSem sig := 28
abbrev cc5_sem4_1 : DmaSem sig := 29

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S4096x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev grid1 : Pipeline.Grid := ⟨1, ![32], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4096x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S256x256 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x1 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x1 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S4096x256 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![32], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S4096x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x1 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev grid3 : Pipeline.Grid := ⟨1, ![32], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S4096x256 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S256x256 .bf16 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x1 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x1 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S4096x256 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev grid4 : Pipeline.Grid := ⟨1, ![32], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 2 → Memref sig .tc .vmem S4096x256 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S1x1 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev grid5 : Pipeline.Grid := ⟨1, ![32], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S4096x256 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S256x256 .bf16 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x1 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S1x1 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 2 → Memref sig .tc .vmem S4096x256 .f32 := fun | 0 => Memref.whole cc5_stg4_0 | 1 => Memref.whole cc5_stg4_1 | ⟨_ + 2, h⟩ => absurd h (Nat.not_lt.2 (Nat.le_add_left _ _))
abbrev sem5_4 : Fin 2 → DmaSem sig := fun | 0 => cc5_sem4_0 | 1 => cc5_sem4_1 | ⟨_ + 2, h⟩ => absurd h (Nat.not_lt.2 (Nat.le_add_left _ _))
abbrev reads5_4 : Fin grid5.rank → Bool := ![true]

class Facts₀ : Prop where
  inb_S1x1_S1x1_0_0 : ∀ a, (![0, 0] : Fin 2 → Nat) a + S1x1.size a ≤ S1x1.size a
  h_S1x1 : 0 < S1x1.numel
  inb_S4096x256_S4096x256_0_0 : ∀ a, (![0, 0] : Fin 2 → Nat) a + S4096x256.size a ≤ S4096x256.size a
  h_S4096x256 : 0 < S4096x256.numel
  reduces_S4096x256_S4096 : S4096x256.Reduces [1] S4096
  shapeCasts_S4096_S4096x1 : S4096.ShapeCasts S4096x1
  broadcasts_S4096x1_S4096x256 : S4096x1.Broadcasts S4096x256
  reduces_S4096x1_S1 : S4096x1.Reduces [0] S1
  shapeCasts_S1_S1x1 : S1.ShapeCasts S1x1
  shapeCasts_S1x1_S1x1 : S1x1.ShapeCasts S1x1
  bcast_S_S1x1 : S_.BroadcastsInDim S1x1 (![] : Fin 0 → Fin S1x1.rank)
  reducesTo_S256x256_S_d0_1 : S256x256.ReducesTo [0, 1] S_
  h_S_ : 0 < S_.numel
  bcast_S_S256x256 : S_.BroadcastsInDim S256x256 (![] : Fin 0 → Fin S256x256.rank)
  transposes_S256x256_S256x256_1_0 : S256x256.Transposes [1, 0] S256x256
  bitsLt_bf16_f32 : FTy.bits .bf16 < FTy.bits .f32
  inpos_S1x1_p0_0 : ∀ a, (![0, 0] : Fin 2 → Nat) a < S1x1.size a
  inb_S256x256_S256x256_0_0 : ∀ a, (![0, 0] : Fin 2 → Nat) a + S256x256.size a ≤ S256x256.size a
  h_S256x256 : 0 < S256x256.numel
  shapeCasts_S256x256_S256x256 : S256x256.ShapeCasts S256x256
  shapeCasts_S4096x256_S4096x256 : S4096x256.ShapeCasts S4096x256
  dot_S4096x256_S256x256_S4096x256_1_0_0_1_n_n_wf : DotDims.WF S4096x256 S256x256 S4096x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x256.size a ≤ S131072x256.size a
  hwx0_0 : ∀ i : grid0.Coords, EltTy.bits .f32 = 32 ∨ (Rect.block (s := S131072x256) S4096x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x1.size a ≤ S1x1.size a
  hwx0_1 : ∀ i : grid0.Coords, EltTy.bits .f32 = 32 ∨ (Rect.block (s := S1x1) S1x1.size (cc0_transform_1 i) (hinb0_1 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4096x256.size a ≤ S131072x256.size a
  hwx1_0 : ∀ i : grid1.Coords, EltTy.bits .f32 = 32 ∨ (Rect.block (s := S131072x256) S4096x256.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S256x256.size a ≤ S256x256.size a
  hwx1_1 : ∀ i : grid1.Coords, EltTy.bits .bf16 = 32 ∨ (Rect.block (s := S256x256) S256x256.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x1.size a ≤ S1x1.size a
  hwx1_2 : ∀ i : grid1.Coords, EltTy.bits .f32 = 32 ∨ (Rect.block (s := S1x1) S1x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x1.size a ≤ S1x1.size a
  hwx1_3 : ∀ i : grid1.Coords, EltTy.bits .f32 = 32 ∨ (Rect.block (s := S1x1) S1x1.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S4096x256.size a ≤ S131072x256.size a
  hwx1_4 : ∀ i : grid1.Coords, EltTy.bits .f32 = 32 ∨ (Rect.block (s := S131072x256) S4096x256.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S4096x256.size a ≤ S131072x256.size a
  hwx2_0 : ∀ i : grid2.Coords, EltTy.bits .f32 = 32 ∨ (Rect.block (s := S131072x256) S4096x256.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x1.size a ≤ S1x1.size a
  hwx2_1 : ∀ i : grid2.Coords, EltTy.bits .f32 = 32 ∨ (Rect.block (s := S1x1) S1x1.size (cc2_transform_1 i) (hinb2_1 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S4096x256.size a ≤ S131072x256.size a
  hwx3_0 : ∀ i : grid3.Coords, EltTy.bits .f32 = 32 ∨ (Rect.block (s := S131072x256) S4096x256.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S256x256.size a ≤ S256x256.size a
  hwx3_1 : ∀ i : grid3.Coords, EltTy.bits .bf16 = 32 ∨ (Rect.block (s := S256x256) S256x256.size (cc3_transform_1 i) (hinb3_1 i)).WholeWords (EltTy.packing .bf16)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x1.size a ≤ S1x1.size a
  hwx3_2 : ∀ i : grid3.Coords, EltTy.bits .f32 = 32 ∨ (Rect.block (s := S1x1) S1x1.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x1.size a ≤ S1x1.size a
  hwx3_3 : ∀ i : grid3.Coords, EltTy.bits .f32 = 32 ∨ (Rect.block (s := S1x1) S1x1.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S4096x256.size a ≤ S131072x256.size a
  hwx3_4 : ∀ i : grid3.Coords, EltTy.bits .f32 = 32 ∨ (Rect.block (s := S131072x256) S4096x256.size (cc3_transform_4 i) (hinb3_4 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S4096x256.size a ≤ S131072x256.size a
  hwx4_0 : ∀ i : grid4.Coords, EltTy.bits .f32 = 32 ∨ (Rect.block (s := S131072x256) S4096x256.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S1x1.size a ≤ S1x1.size a
  hwx4_1 : ∀ i : grid4.Coords, EltTy.bits .f32 = 32 ∨ (Rect.block (s := S1x1) S1x1.size (cc4_transform_1 i) (hinb4_1 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S4096x256.size a ≤ S131072x256.size a
  hwx5_0 : ∀ i : grid5.Coords, EltTy.bits .f32 = 32 ∨ (Rect.block (s := S131072x256) S4096x256.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S256x256.size a ≤ S256x256.size a
  hwx5_1 : ∀ i : grid5.Coords, EltTy.bits .bf16 = 32 ∨ (Rect.block (s := S256x256) S256x256.size (cc5_transform_1 i) (hinb5_1 i)).WholeWords (EltTy.packing .bf16)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x1.size a ≤ S1x1.size a
  hwx5_2 : ∀ i : grid5.Coords, EltTy.bits .f32 = 32 ∨ (Rect.block (s := S1x1) S1x1.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x1.size a ≤ S1x1.size a
  hwx5_3 : ∀ i : grid5.Coords, EltTy.bits .f32 = 32 ∨ (Rect.block (s := S1x1) S1x1.size (cc5_transform_3 i) (hinb5_3 i)).WholeWords (EltTy.packing .f32)
  hstage5_4 : ∀ j, (stage5_4 j).IsWhole
  nbuf5_4 : grid5.bufCount reads5_4 false = 2
  hreads5_4 : ∀ i i' : grid5.Coords, (∀ a, reads5_4 a = true → i a = i' a) → cc5_transform_4 i = cc5_transform_4 i'
  hinb5_4 : ∀ (i : grid5.Coords) a, (cc5_transform_4 i a + 1) * S4096x256.size a ≤ S131072x256.size a
  hwx5_4 : ∀ i : grid5.Coords, EltTy.bits .f32 = 32 ∨ (Rect.block (s := S131072x256) S4096x256.size (cc5_transform_4 i) (hinb5_4 i)).WholeWords (EltTy.packing .f32)

variable [Facts₀]

def dot_S4096x256_S256x256_S4096x256_1_0_0_1_n_n : DotDims S4096x256 S256x256 S4096x256 where
  lhsContracting := [1]
  rhsContracting := [0]
  lhsNonContracting := [0]
  rhsNonContracting := [1]
  lhsBatch := []
  rhsBatch := []
  wf := dot_S4096x256_S256x256_S4096x256_1_0_0_1_n_n_wf

abbrev win0_0 : Pipeline.Window sig grid0 :=
  Pipeline.Window.ofSpec (Memref.whole main_arg0) S4096x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x1.size cc0_transform_1 reads0_1 true true 1 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev win1_0 : Pipeline.Window sig grid1 :=
  Pipeline.Window.ofSpec (Memref.whole main_arg0) S4096x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v16) S256x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v18) S1x1.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v22) S1x1.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v23) S4096x256.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v23) S4096x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v24) S1x1.size cc2_transform_1 reads2_1 true true 1 stage2_1 sem2_1
    hrank2 hreads2_1 hinb2_1 nbuf2_1 (Memref.isWhole_whole _) hwx2_1 hstage2_1

abbrev win2 : Fin 2 → Pipeline.Window sig grid2 := fun | 0 => win2_0 | 1 => win2_1 | ⟨_ + 2, h⟩ => absurd h (Nat.not_lt.2 (Nat.le_add_left _ _))
abbrev spec2 : Fin 2 → Pipeline.WinSpec sig grid2.rank := fun w => (win2 w).toWinSpec

abbrev win3_0 : Pipeline.Window sig grid3 :=
  Pipeline.Window.ofSpec (Memref.whole main_v23) S4096x256.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v40) S256x256.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v42) S1x1.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v46) S1x1.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v47) S4096x256.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

abbrev win4_0 : Pipeline.Window sig grid4 :=
  Pipeline.Window.ofSpec (Memref.whole main_v47) S4096x256.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v48) S1x1.size cc4_transform_1 reads4_1 true true 1 stage4_1 sem4_1
    hrank4 hreads4_1 hinb4_1 nbuf4_1 (Memref.isWhole_whole _) hwx4_1 hstage4_1

abbrev win4 : Fin 2 → Pipeline.Window sig grid4 := fun | 0 => win4_0 | 1 => win4_1 | ⟨_ + 2, h⟩ => absurd h (Nat.not_lt.2 (Nat.le_add_left _ _))
abbrev spec4 : Fin 2 → Pipeline.WinSpec sig grid4.rank := fun w => (win4 w).toWinSpec

abbrev win5_0 : Pipeline.Window sig grid5 :=
  Pipeline.Window.ofSpec (Memref.whole main_v47) S4096x256.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v64) S256x256.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v66) S1x1.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v70) S1x1.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v71) S4096x256.size cc5_transform_4 reads5_4 true false 2 stage5_4 sem5_4
    hrank5 hreads5_4 hinb5_4 nbuf5_4 (Memref.isWhole_whole _) hwx5_4 hstage5_4

abbrev win5 : Fin 5 → Pipeline.Window sig grid5 := fun | 0 => win5_0 | 1 => win5_1 | 2 => win5_2 | 3 => win5_3 | 4 => win5_4 | ⟨_ + 5, h⟩ => absurd h (Nat.not_lt.2 (Nat.le_add_left _ _))
abbrev spec5 : Fin 5 → Pipeline.WinSpec sig grid5.rank := fun w => (win5 w).toWinSpec

class Facts : Prop extends Facts₀ where

variable [Facts]
-- ==== ReferenceIdeal.lean ====
abbrev S131072x256 : Shape := ⟨2, ![131072, 256]⟩
abbrev S256x256 : Shape := ⟨2, ![256, 256]⟩
abbrev S_ : Shape := ⟨0, ![]⟩
abbrev S131072 : Shape := ⟨1, ![131072]⟩
abbrev S131072x1 : Shape := ⟨2, ![131072, 1]⟩

abbrev nBuf : Space → Nat
  | .hbm => 226
  | .vmem => 0
  | .smem => 0
  | _ => 0

abbrev hbmTy0_0 (i : Nat) : BufTy := match i % 128 with
  | 0 => ⟨S131072x256, .f32⟩
  | 1 => ⟨S256x256, .f32⟩
  | 2 => ⟨S256x256, .f32⟩
  | 3 => ⟨S256x256, .f32⟩
  | 4 => ⟨S_, .f32⟩
  | 5 => ⟨S131072, .f32⟩
  | 6 => ⟨S131072x1, .f32⟩
  | 7 => ⟨S_, .f32⟩
  | 8 => ⟨S131072x1, .f32⟩
  | 9 => ⟨S131072x1, .f32⟩
  | 10 => ⟨S131072x256, .f32⟩
  | 11 => ⟨S131072x256, .f32⟩
  | 12 => ⟨S131072x256, .f32⟩
  | 13 => ⟨S_, .f32⟩
  | 14 => ⟨S131072, .f32⟩
  | 15 => ⟨S131072x1, .f32⟩
  | 16 => ⟨S_, .f32⟩
  | 17 => ⟨S131072x1, .f32⟩
  | 18 => ⟨S131072x1, .f32⟩
  | 19 => ⟨S131072x256, .f32⟩
  | 20 => ⟨S131072x256, .f32⟩
  | 21 => ⟨S_, .f32⟩
  | 22 => ⟨S131072x1, .f32⟩
  | 23 => ⟨S131072x1, .f32⟩
  | 24 => ⟨S131072x1, .f32⟩
  | 25 => ⟨S131072x256, .f32⟩
  | 26 => ⟨S131072x256, .f32⟩
  | 27 => ⟨S131072x256, .f32⟩
  | 28 => ⟨S_, .f32⟩
  | 29 => ⟨S_, .f32⟩
  | 30 => ⟨S_, .f32⟩
  | 31 => ⟨S_, .f32⟩
  | 32 => ⟨S_, .f32⟩
  | 33 => ⟨S_, .f32⟩
  | 34 => ⟨S131072x256, .f32⟩
  | 35 => ⟨S131072x256, .f32⟩
  | 36 => ⟨S_, .f32⟩
  | 37 => ⟨S_, .f32⟩
  | 38 => ⟨S131072x256, .f32⟩
  | 39 => ⟨S131072x256, .f32⟩
  | 40 => ⟨S131072x256, .f32⟩
  | 41 => ⟨S131072x256, .f32⟩
  | 42 => ⟨S131072x256, .f32⟩
  | 43 => ⟨S131072x256, .f32⟩
  | 44 => ⟨S131072x256, .f32⟩
  | 45 => ⟨S_, .f32⟩
  | 46 => ⟨S_, .f32⟩
  | 47 => ⟨S_, .f32⟩
  | 48 => ⟨S_, .f32⟩
  | 49 => ⟨S256x256, .f32⟩
  | 50 => ⟨S_, .f32⟩
  | 51 => ⟨S_, .f32⟩
  | 52 => ⟨S_, .f32⟩
  | 53 => ⟨S_, .f32⟩
  | 54 => ⟨S_, .f32⟩
  | 55 => ⟨S_, .f32⟩
  | 56 => ⟨S256x256, .f32⟩
  | 57 => ⟨S256x256, .f32⟩
  | 58 => ⟨S_, .f32⟩
  | 59 => ⟨S256x256, .f32⟩
  | 60 => ⟨S256x256, .i1⟩
  | 61 => ⟨S_, .f32⟩
  | 62 => ⟨S_, .f32⟩
  | 63 => ⟨S256x256, .f32⟩
  | 64 => ⟨S256x256, .f32⟩
  | 65 => ⟨S256x256, .f32⟩
  | 66 => ⟨S256x256, .f32⟩
  | 67 => ⟨S256x256, .f32⟩
  | 68 => ⟨S256x256, .f32⟩
  | 69 => ⟨S256x256, .f32⟩
  | 70 => ⟨S131072x256, .f32⟩
  | 71 => ⟨S_, .f32⟩
  | 72 => ⟨S_, .f32⟩
  | 73 => ⟨S_, .f32⟩
  | 74 => ⟨S131072x256, .f32⟩
  | 75 => ⟨S131072x256, .f32⟩
  | 76 => ⟨S_, .f32⟩
  | 77 => ⟨S131072x256, .f32⟩
  | 78 => ⟨S131072x256, .f32⟩
  | 79 => ⟨S_, .f32⟩
  | 80 => ⟨S131072, .f32⟩
  | 81 => ⟨S131072x1, .f32⟩
  | 82 => ⟨S_, .f32⟩
  | 83 => ⟨S131072x1, .f32⟩
  | 84 => ⟨S131072x1, .f32⟩
  | 85 => ⟨S131072x256, .f32⟩
  | 86 => ⟨S131072x256, .f32⟩
  | 87 => ⟨S131072x256, .f32⟩
  | 88 => ⟨S_, .f32⟩
  | 89 => ⟨S131072, .f32⟩
  | 90 => ⟨S131072x1, .f32⟩
  | 91 => ⟨S_, .f32⟩
  | 92 => ⟨S131072x1, .f32⟩
  | 93 => ⟨S131072x1, .f32⟩
  | 94 => ⟨S131072x256, .f32⟩
  | 95 => ⟨S131072x256, .f32⟩
  | 96 => ⟨S_, .f32⟩
  | 97 => ⟨S131072x1, .f32⟩
  | 98 => ⟨S131072x1, .f32⟩
  | 99 => ⟨S131072x1, .f32⟩
  | 100 => ⟨S131072x256, .f32⟩
  | 101 => ⟨S131072x256, .f32⟩
  | 102 => ⟨S131072x256, .f32⟩
  | 103 => ⟨S_, .f32⟩
  | 104 => ⟨S_, .f32⟩
  | 105 => ⟨S_, .f32⟩
  | 106 => ⟨S_, .f32⟩
  | 107 => ⟨S_, .f32⟩
  | 108 => ⟨S_, .f32⟩
  | 109 => ⟨S131072x256, .f32⟩
  | 110 => ⟨S131072x256, .f32⟩
  | 111 => ⟨S_, .f32⟩
  | 112 => ⟨S_, .f32⟩
  | 113 => ⟨S131072x256, .f32⟩
  | 114 => ⟨S131072x256, .f32⟩
  | 115 => ⟨S131072x256, .f32⟩
  | 116 => ⟨S131072x256, .f32⟩
  | 117 => ⟨S131072x256, .f32⟩
  | 118 => ⟨S131072x256, .f32⟩
  | 119 => ⟨S131072x256, .f32⟩
  | 120 => ⟨S_, .f32⟩
  | 121 => ⟨S_, .f32⟩
  | 122 => ⟨S_, .f32⟩
  | 123 => ⟨S_, .f32⟩
  | 124 => ⟨S256x256, .f32⟩
  | 125 => ⟨S_, .f32⟩
  | 126 => ⟨S_, .f32⟩
  | 127 => ⟨S_, .f32⟩
  | _ => ⟨S131072x256, .f32⟩

abbrev hbmTy0_1 (i : Nat) : BufTy := match i % 128 with
  | 0 => ⟨S_, .f32⟩
  | 1 => ⟨S_, .f32⟩
  | 2 => ⟨S_, .f32⟩
  | 3 => ⟨S256x256, .f32⟩
  | 4 => ⟨S256x256, .f32⟩
  | 5 => ⟨S_, .f32⟩
  | 6 => ⟨S256x256, .f32⟩
  | 7 => ⟨S256x256, .i1⟩
  | 8 => ⟨S_, .f32⟩
  | 9 => ⟨S_, .f32⟩
  | 10 => ⟨S256x256, .f32⟩
  | 11 => ⟨S256x256, .f32⟩
  | 12 => ⟨S256x256, .f32⟩
  | 13 => ⟨S256x256, .f32⟩
  | 14 => ⟨S256x256, .f32⟩
  | 15 => ⟨S256x256, .f32⟩
  | 16 => ⟨S256x256, .f32⟩
  | 17 => ⟨S131072x256, .f32⟩
  | 18 => ⟨S_, .f32⟩
  | 19 => ⟨S_, .f32⟩
  | 20 => ⟨S_, .f32⟩
  | 21 => ⟨S131072x256, .f32⟩
  | 22 => ⟨S131072x256, .f32⟩
  | 23 => ⟨S_, .f32⟩
  | 24 => ⟨S131072x256, .f32⟩
  | 25 => ⟨S131072x256, .f32⟩
  | 26 => ⟨S_, .f32⟩
  | 27 => ⟨S131072, .f32⟩
  | 28 => ⟨S131072x1, .f32⟩
  | 29 => ⟨S_, .f32⟩
  | 30 => ⟨S131072x1, .f32⟩
  | 31 => ⟨S131072x1, .f32⟩
  | 32 => ⟨S131072x256, .f32⟩
  | 33 => ⟨S131072x256, .f32⟩
  | 34 => ⟨S131072x256, .f32⟩
  | 35 => ⟨S_, .f32⟩
  | 36 => ⟨S131072, .f32⟩
  | 37 => ⟨S131072x1, .f32⟩
  | 38 => ⟨S_, .f32⟩
  | 39 => ⟨S131072x1, .f32⟩
  | 40 => ⟨S131072x1, .f32⟩
  | 41 => ⟨S131072x256, .f32⟩
  | 42 => ⟨S131072x256, .f32⟩
  | 43 => ⟨S_, .f32⟩
  | 44 => ⟨S131072x1, .f32⟩
  | 45 => ⟨S131072x1, .f32⟩
  | 46 => ⟨S131072x1, .f32⟩
  | 47 => ⟨S131072x256, .f32⟩
  | 48 => ⟨S131072x256, .f32⟩
  | 49 => ⟨S131072x256, .f32⟩
  | 50 => ⟨S_, .f32⟩
  | 51 => ⟨S_, .f32⟩
  | 52 => ⟨S_, .f32⟩
  | 53 => ⟨S_, .f32⟩
  | 54 => ⟨S_, .f32⟩
  | 55 => ⟨S_, .f32⟩
  | 56 => ⟨S131072x256, .f32⟩
  | 57 => ⟨S131072x256, .f32⟩
  | 58 => ⟨S_, .f32⟩
  | 59 => ⟨S_, .f32⟩
  | 60 => ⟨S131072x256, .f32⟩
  | 61 => ⟨S131072x256, .f32⟩
  | 62 => ⟨S131072x256, .f32⟩
  | 63 => ⟨S131072x256, .f32⟩
  | 64 => ⟨S131072x256, .f32⟩
  | 65 => ⟨S131072x256, .f32⟩
  | 66 => ⟨S131072x256, .f32⟩
  | 67 => ⟨S_, .f32⟩
  | 68 => ⟨S_, .f32⟩
  | 69 => ⟨S_, .f32⟩
  | 70 => ⟨S_, .f32⟩
  | 71 => ⟨S256x256, .f32⟩
  | 72 => ⟨S_, .f32⟩
  | 73 => ⟨S_, .f32⟩
  | 74 => ⟨S_, .f32⟩
  | 75 => ⟨S_, .f32⟩
  | 76 => ⟨S_, .f32⟩
  | 77 => ⟨S_, .f32⟩
  | 78 => ⟨S256x256, .f32⟩
  | 79 => ⟨S256x256, .f32⟩
  | 80 => ⟨S_, .f32⟩
  | 81 => ⟨S256x256, .f32⟩
  | 82 => ⟨S256x256, .i1⟩
  | 83 => ⟨S_, .f32⟩
  | 84 => ⟨S_, .f32⟩
  | 85 => ⟨S256x256, .f32⟩
  | 86 => ⟨S256x256, .f32⟩
  | 87 => ⟨S256x256, .f32⟩
  | 88 => ⟨S256x256, .f32⟩
  | 89 => ⟨S256x256, .f32⟩
  | 90 => ⟨S256x256, .f32⟩
  | 91 => ⟨S256x256, .f32⟩
  | 92 => ⟨S131072x256, .f32⟩
  | 93 => ⟨S_, .f32⟩
  | 94 => ⟨S_, .f32⟩
  | 95 => ⟨S_, .f32⟩
  | 96 => ⟨S131072x256, .f32⟩
  | 97 => ⟨S131072x256, .f32⟩
  | _ => ⟨S131072x256, .f32⟩

abbrev hbmTy (i : Nat) : BufTy := match i / 128 with
  | 0 => hbmTy0_0 i
  | 1 => hbmTy0_1 i
  | _ => ⟨S131072x256, .f32⟩

abbrev bufTy : (tb : Table) → Fin (tcTables nBuf tb) → BufTy
  | .hbm, ⟨i, _⟩ => hbmTy i
  | _, _ => ⟨S131072x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_3 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_4 : Ref sig .tc := ⟨.hbm, 28, rfl⟩
abbrev main_v19 : Ref sig .tc := ⟨.hbm, 29, rfl⟩
abbrev main_cst_5 : Ref sig .tc := ⟨.hbm, 30, rfl⟩
abbrev main_v20 : Ref sig .tc := ⟨.hbm, 31, rfl⟩
abbrev main_cst_6 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_cst_7 : Ref sig .tc := ⟨.hbm, 36, rfl⟩
abbrev main_cst_8 : Ref sig .tc := ⟨.hbm, 37, rfl⟩
abbrev main_call0_v0 : Ref sig .tc := ⟨.hbm, 38, rfl⟩
abbrev main_call0_v1 : Ref sig .tc := ⟨.hbm, 39, rfl⟩
abbrev main_call0_v2 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_cst_9 : Ref sig .tc := ⟨.hbm, 45, rfl⟩
abbrev main_v28 : Ref sig .tc := ⟨.hbm, 46, rfl⟩
abbrev main_cst_10 : Ref sig .tc := ⟨.hbm, 47, rfl⟩
abbrev main_v29 : Ref sig .tc := ⟨.hbm, 48, rfl⟩
abbrev main_v30 : Ref sig .tc := ⟨.hbm, 49, rfl⟩
abbrev main_cst_11 : Ref sig .tc := ⟨.hbm, 50, rfl⟩
abbrev main_v31 : Ref sig .tc := ⟨.hbm, 51, rfl⟩
abbrev main_cst_12 : Ref sig .tc := ⟨.hbm, 52, rfl⟩
abbrev main_v32 : Ref sig .tc := ⟨.hbm, 53, rfl⟩
abbrev main_cst_13 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_cst_14 : Ref sig .tc := ⟨.hbm, 58, rfl⟩
abbrev main_v36 : Ref sig .tc := ⟨.hbm, 59, rfl⟩
abbrev main_v37 : Ref sig .tc := ⟨.hbm, 60, rfl⟩
abbrev main_cst_15 : Ref sig .tc := ⟨.hbm, 61, rfl⟩
abbrev main_cst_16 : Ref sig .tc := ⟨.hbm, 62, rfl⟩
abbrev main_call2_v0 : Ref sig .tc := ⟨.hbm, 63, rfl⟩
abbrev main_call2_v1 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_cst_17 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_call3_cst : Ref sig .tc := ⟨.hbm, 76, rfl⟩
abbrev main_call3_v0 : Ref sig .tc := ⟨.hbm, 77, rfl⟩
abbrev main_v48 : Ref sig .tc := ⟨.hbm, 78, rfl⟩
abbrev main_cst_18 : Ref sig .tc := ⟨.hbm, 79, rfl⟩
abbrev main_v49 : Ref sig .tc := ⟨.hbm, 80, rfl⟩
abbrev main_v50 : Ref sig .tc := ⟨.hbm, 81, rfl⟩
abbrev main_cst_19 : Ref sig .tc := ⟨.hbm, 82, rfl⟩
abbrev main_v51 : Ref sig .tc := ⟨.hbm, 83, rfl⟩
abbrev main_v52 : Ref sig .tc := ⟨.hbm, 84, rfl⟩
abbrev main_v53 : Ref sig .tc := ⟨.hbm, 85, rfl⟩
abbrev main_v54 : Ref sig .tc := ⟨.hbm, 86, rfl⟩
abbrev main_v55 : Ref sig .tc := ⟨.hbm, 87, rfl⟩
abbrev main_cst_20 : Ref sig .tc := ⟨.hbm, 88, rfl⟩
abbrev main_v56 : Ref sig .tc := ⟨.hbm, 89, rfl⟩
abbrev main_v57 : Ref sig .tc := ⟨.hbm, 90, rfl⟩
abbrev main_cst_21 : Ref sig .tc := ⟨.hbm, 91, rfl⟩
abbrev main_v58 : Ref sig .tc := ⟨.hbm, 92, rfl⟩
abbrev main_v59 : Ref sig .tc := ⟨.hbm, 93, rfl⟩
abbrev main_v60 : Ref sig .tc := ⟨.hbm, 94, rfl⟩
abbrev main_v61 : Ref sig .tc := ⟨.hbm, 95, rfl⟩
abbrev main_cst_22 : Ref sig .tc := ⟨.hbm, 96, rfl⟩
abbrev main_v62 : Ref sig .tc := ⟨.hbm, 97, rfl⟩
abbrev main_v63 : Ref sig .tc := ⟨.hbm, 98, rfl⟩
abbrev main_v64 : Ref sig .tc := ⟨.hbm, 99, rfl⟩
abbrev main_v65 : Ref sig .tc := ⟨.hbm, 100, rfl⟩
abbrev main_v66 : Ref sig .tc := ⟨.hbm, 101, rfl⟩
abbrev main_v67 : Ref sig .tc := ⟨.hbm, 102, rfl⟩
abbrev main_cst_23 : Ref sig .tc := ⟨.hbm, 103, rfl⟩
abbrev main_v68 : Ref sig .tc := ⟨.hbm, 104, rfl⟩
abbrev main_cst_24 : Ref sig .tc := ⟨.hbm, 105, rfl⟩
abbrev main_v69 : Ref sig .tc := ⟨.hbm, 106, rfl⟩
abbrev main_cst_25 : Ref sig .tc := ⟨.hbm, 107, rfl⟩
abbrev main_v70 : Ref sig .tc := ⟨.hbm, 108, rfl⟩
abbrev main_v71 : Ref sig .tc := ⟨.hbm, 109, rfl⟩
abbrev main_v72 : Ref sig .tc := ⟨.hbm, 110, rfl⟩
abbrev main_cst_26 : Ref sig .tc := ⟨.hbm, 111, rfl⟩
abbrev main_cst_27 : Ref sig .tc := ⟨.hbm, 112, rfl⟩
abbrev main_call4_v0 : Ref sig .tc := ⟨.hbm, 113, rfl⟩
abbrev main_call4_v1 : Ref sig .tc := ⟨.hbm, 114, rfl⟩
abbrev main_call4_v2 : Ref sig .tc := ⟨.hbm, 115, rfl⟩
abbrev main_v73 : Ref sig .tc := ⟨.hbm, 116, rfl⟩
abbrev main_v74 : Ref sig .tc := ⟨.hbm, 117, rfl⟩
abbrev main_v75 : Ref sig .tc := ⟨.hbm, 118, rfl⟩
abbrev main_v76 : Ref sig .tc := ⟨.hbm, 119, rfl⟩
abbrev main_cst_28 : Ref sig .tc := ⟨.hbm, 120, rfl⟩
abbrev main_v77 : Ref sig .tc := ⟨.hbm, 121, rfl⟩
abbrev main_cst_29 : Ref sig .tc := ⟨.hbm, 122, rfl⟩
abbrev main_v78 : Ref sig .tc := ⟨.hbm, 123, rfl⟩
abbrev main_v79 : Ref sig .tc := ⟨.hbm, 124, rfl⟩
abbrev main_cst_30 : Ref sig .tc := ⟨.hbm, 125, rfl⟩
abbrev main_v80 : Ref sig .tc := ⟨.hbm, 126, rfl⟩
abbrev main_cst_31 : Ref sig .tc := ⟨.hbm, 127, rfl⟩
abbrev main_v81 : Ref sig .tc := ⟨.hbm, 128, rfl⟩
abbrev main_cst_32 : Ref sig .tc := ⟨.hbm, 129, rfl⟩
abbrev main_v82 : Ref sig .tc := ⟨.hbm, 130, rfl⟩
abbrev main_v83 : Ref sig .tc := ⟨.hbm, 131, rfl⟩
abbrev main_v84 : Ref sig .tc := ⟨.hbm, 132, rfl⟩
abbrev main_cst_33 : Ref sig .tc := ⟨.hbm, 133, rfl⟩
abbrev main_v85 : Ref sig .tc := ⟨.hbm, 134, rfl⟩
abbrev main_v86 : Ref sig .tc := ⟨.hbm, 135, rfl⟩
abbrev main_cst_34 : Ref sig .tc := ⟨.hbm, 136, rfl⟩
abbrev main_cst_35 : Ref sig .tc := ⟨.hbm, 137, rfl⟩
abbrev main_call6_v0 : Ref sig .tc := ⟨.hbm, 138, rfl⟩
abbrev main_call6_v1 : Ref sig .tc := ⟨.hbm, 139, rfl⟩
abbrev main_v87 : Ref sig .tc := ⟨.hbm, 140, rfl⟩
abbrev main_v88 : Ref sig .tc := ⟨.hbm, 141, rfl⟩
abbrev main_v89 : Ref sig .tc := ⟨.hbm, 142, rfl⟩
abbrev main_v90 : Ref sig .tc := ⟨.hbm, 143, rfl⟩
abbrev main_v91 : Ref sig .tc := ⟨.hbm, 144, rfl⟩
abbrev main_v92 : Ref sig .tc := ⟨.hbm, 145, rfl⟩
abbrev main_v93 : Ref sig .tc := ⟨.hbm, 146, rfl⟩
abbrev main_cst_36 : Ref sig .tc := ⟨.hbm, 147, rfl⟩
abbrev main_v94 : Ref sig .tc := ⟨.hbm, 148, rfl⟩
abbrev main_v95 : Ref sig .tc := ⟨.hbm, 149, rfl⟩
abbrev main_v96 : Ref sig .tc := ⟨.hbm, 150, rfl⟩
abbrev main_call7_cst : Ref sig .tc := ⟨.hbm, 151, rfl⟩
abbrev main_call7_v0 : Ref sig .tc := ⟨.hbm, 152, rfl⟩
abbrev main_v97 : Ref sig .tc := ⟨.hbm, 153, rfl⟩
abbrev main_cst_37 : Ref sig .tc := ⟨.hbm, 154, rfl⟩
abbrev main_v98 : Ref sig .tc := ⟨.hbm, 155, rfl⟩
abbrev main_v99 : Ref sig .tc := ⟨.hbm, 156, rfl⟩
abbrev main_cst_38 : Ref sig .tc := ⟨.hbm, 157, rfl⟩
abbrev main_v100 : Ref sig .tc := ⟨.hbm, 158, rfl⟩
abbrev main_v101 : Ref sig .tc := ⟨.hbm, 159, rfl⟩
abbrev main_v102 : Ref sig .tc := ⟨.hbm, 160, rfl⟩
abbrev main_v103 : Ref sig .tc := ⟨.hbm, 161, rfl⟩
abbrev main_v104 : Ref sig .tc := ⟨.hbm, 162, rfl⟩
abbrev main_cst_39 : Ref sig .tc := ⟨.hbm, 163, rfl⟩
abbrev main_v105 : Ref sig .tc := ⟨.hbm, 164, rfl⟩
abbrev main_v106 : Ref sig .tc := ⟨.hbm, 165, rfl⟩
abbrev main_cst_40 : Ref sig .tc := ⟨.hbm, 166, rfl⟩
abbrev main_v107 : Ref sig .tc := ⟨.hbm, 167, rfl⟩
abbrev main_v108 : Ref sig .tc := ⟨.hbm, 168, rfl⟩
abbrev main_v109 : Ref sig .tc := ⟨.hbm, 169, rfl⟩
abbrev main_v110 : Ref sig .tc := ⟨.hbm, 170, rfl⟩
abbrev main_cst_41 : Ref sig .tc := ⟨.hbm, 171, rfl⟩
abbrev main_v111 : Ref sig .tc := ⟨.hbm, 172, rfl⟩
abbrev main_v112 : Ref sig .tc := ⟨.hbm, 173, rfl⟩
abbrev main_v113 : Ref sig .tc := ⟨.hbm, 174, rfl⟩
abbrev main_v114 : Ref sig .tc := ⟨.hbm, 175, rfl⟩
abbrev main_v115 : Ref sig .tc := ⟨.hbm, 176, rfl⟩
abbrev main_v116 : Ref sig .tc := ⟨.hbm, 177, rfl⟩
abbrev main_cst_42 : Ref sig .tc := ⟨.hbm, 178, rfl⟩
abbrev main_v117 : Ref sig .tc := ⟨.hbm, 179, rfl⟩
abbrev main_cst_43 : Ref sig .tc := ⟨.hbm, 180, rfl⟩
abbrev main_v118 : Ref sig .tc := ⟨.hbm, 181, rfl⟩
abbrev main_cst_44 : Ref sig .tc := ⟨.hbm, 182, rfl⟩
abbrev main_v119 : Ref sig .tc := ⟨.hbm, 183, rfl⟩
abbrev main_v120 : Ref sig .tc := ⟨.hbm, 184, rfl⟩
abbrev main_v121 : Ref sig .tc := ⟨.hbm, 185, rfl⟩
abbrev main_cst_45 : Ref sig .tc := ⟨.hbm, 186, rfl⟩
abbrev main_cst_46 : Ref sig .tc := ⟨.hbm, 187, rfl⟩
abbrev main_call8_v0 : Ref sig .tc := ⟨.hbm, 188, rfl⟩
abbrev main_call8_v1 : Ref sig .tc := ⟨.hbm, 189, rfl⟩
abbrev main_call8_v2 : Ref sig .tc := ⟨.hbm, 190, rfl⟩
abbrev main_v122 : Ref sig .tc := ⟨.hbm, 191, rfl⟩
abbrev main_v123 : Ref sig .tc := ⟨.hbm, 192, rfl⟩
abbrev main_v124 : Ref sig .tc := ⟨.hbm, 193, rfl⟩
abbrev main_v125 : Ref sig .tc := ⟨.hbm, 194, rfl⟩
abbrev main_cst_47 : Ref sig .tc := ⟨.hbm, 195, rfl⟩
abbrev main_v126 : Ref sig .tc := ⟨.hbm, 196, rfl⟩
abbrev main_cst_48 : Ref sig .tc := ⟨.hbm, 197, rfl⟩
abbrev main_v127 : Ref sig .tc := ⟨.hbm, 198, rfl⟩
abbrev main_v128 : Ref sig .tc := ⟨.hbm, 199, rfl⟩
abbrev main_cst_49 : Ref sig .tc := ⟨.hbm, 200, rfl⟩
abbrev main_v129 : Ref sig .tc := ⟨.hbm, 201, rfl⟩
abbrev main_cst_50 : Ref sig .tc := ⟨.hbm, 202, rfl⟩
abbrev main_v130 : Ref sig .tc := ⟨.hbm, 203, rfl⟩
abbrev main_cst_51 : Ref sig .tc := ⟨.hbm, 204, rfl⟩
abbrev main_v131 : Ref sig .tc := ⟨.hbm, 205, rfl⟩
abbrev main_v132 : Ref sig .tc := ⟨.hbm, 206, rfl⟩
abbrev main_v133 : Ref sig .tc := ⟨.hbm, 207, rfl⟩
abbrev main_cst_52 : Ref sig .tc := ⟨.hbm, 208, rfl⟩
abbrev main_v134 : Ref sig .tc := ⟨.hbm, 209, rfl⟩
abbrev main_v135 : Ref sig .tc := ⟨.hbm, 210, rfl⟩
abbrev main_cst_53 : Ref sig .tc := ⟨.hbm, 211, rfl⟩
abbrev main_cst_54 : Ref sig .tc := ⟨.hbm, 212, rfl⟩
abbrev main_call10_v0 : Ref sig .tc := ⟨.hbm, 213, rfl⟩
abbrev main_call10_v1 : Ref sig .tc := ⟨.hbm, 214, rfl⟩
abbrev main_v136 : Ref sig .tc := ⟨.hbm, 215, rfl⟩
abbrev main_v137 : Ref sig .tc := ⟨.hbm, 216, rfl⟩
abbrev main_v138 : Ref sig .tc := ⟨.hbm, 217, rfl⟩
abbrev main_v139 : Ref sig .tc := ⟨.hbm, 218, rfl⟩
abbrev main_v140 : Ref sig .tc := ⟨.hbm, 219, rfl⟩
abbrev main_v141 : Ref sig .tc := ⟨.hbm, 220, rfl⟩
abbrev main_v142 : Ref sig .tc := ⟨.hbm, 221, rfl⟩
abbrev main_cst_55 : Ref sig .tc := ⟨.hbm, 222, rfl⟩
abbrev main_v143 : Ref sig .tc := ⟨.hbm, 223, rfl⟩
abbrev main_v144 : Ref sig .tc := ⟨.hbm, 224, rfl⟩
abbrev main_v145 : Ref sig .tc := ⟨.hbm, 225, rfl⟩

abbrev nD : Nat := 1
abbrev τ : Topo := Topo.v7x

variable {F : FTy → Type} [FloatOps F]

class Facts₀ : Prop where
  reducesTo_S131072x256_S131072_d1 : S131072x256.ReducesTo [1] S131072
  h_S_ : 0 < S_.numel
  bcast_S131072_S131072x1_0 : S131072.BroadcastsInDim S131072x1 (![0] : Fin 1 → Fin S131072x1.rank)
  bcast_S_S131072x1 : S_.BroadcastsInDim S131072x1 (![] : Fin 0 → Fin S131072x1.rank)
  bcast_S131072x1_S131072x256_0_1 : S131072x1.BroadcastsInDim S131072x256 (![0, 1] : Fin 2 → Fin S131072x256.rank)
  reducesTo_S131072x256_S_d0_1 : S131072x256.ReducesTo [0, 1] S_
  bcast_S_S131072x256 : S_.BroadcastsInDim S131072x256 (![] : Fin 0 → Fin S131072x256.rank)
  reducesTo_S256x256_S_d0_1 : S256x256.ReducesTo [0, 1] S_
  bcast_S_S256x256 : S_.BroadcastsInDim S256x256 (![] : Fin 0 → Fin S256x256.rank)
  transposes_S256x256_S256x256_1_0 : S256x256.Transposes [1, 0] S256x256
  dot_S131072x256_S256x256_S131072x256_1_0_0_1_n_n_wf : DotDims.WF S131072x256 S256x256 S131072x256 [1] [0] [0] [1] [] []

variable [Facts₀]

def dot_S131072x256_S256x256_S131072x256_1_0_0_1_n_n : DotDims S131072x256 S256x256 S131072x256 where
  lhsContracting := [1]
  rhsContracting := [0]
  lhsNonContracting := [0]
  rhsNonContracting := [1]
  lhsBatch := []
  rhsBatch := []
  wf := dot_S131072x256_S256x256_S131072x256_1_0_0_1_n_n_wf

class Facts : Prop extends Facts₀ where

variable [Facts]
-- ==== Proof.NetSpec.lean ====
/-
  The function both programs compute, written once on the extended reals, index by index.

  One layer, on an array `x` of 131072 rows of 256 entries and a 256 × 256 weight `W`:
  each row of `x` is centred on its mean and divided by the square root of its variance plus 1e-5 (`xn`);
  `amax` is the largest |xn| over the whole array and `gamma` is that, but at least 1e-8;
  an entry is scaled by 127 / gamma, clipped to [-127, 127] and rounded to the nearest integer, ties to even (`quant`);
  the weight is reduced to the signs of its entries about their mean (`sgn`: +1 where W exceeds its mean, else -1),
  and `beta` is the mean of |W|, at least 1e-8;
  the layer's value at (i, o) is (∑ₖ quant(xn i k) · sgn o k) · (beta · gamma / 127), followed by max(·, 0) on every
  layer but the last.  The network is three such layers.
-/
import Idealize.ShloMosaic.PureOps.Ideal
import Idealize.ShloMosaic.Lib.ValueIdx

noncomputable section

namespace Cert.Net

open Idealize.ShloMosaic Idealize.ShloMosaic.ValueIdx

/-- The activations' shape, the weights' shape and the one-entry shape the scales travel in. -/
abbrev SX : Shape := ⟨2, ![131072, 256]⟩
abbrev SW : Shape := ⟨2, ![256, 256]⟩
abbrev S11 : Shape := ⟨2, ![1, 1]⟩

/-! ## The constants, as the extended reals their words denote -/

def c256 : EReal := Ideal.ofBits .f32 0x43800000#32
def c65536 : EReal := Ideal.ofBits .f32 0x47800000#32
def cEps : EReal := Ideal.ofBits .f32 0x3727C5AC#32
def cTiny : EReal := Ideal.ofBits .f32 0x322BCC77#32
def c127 : EReal := Ideal.ofBits .f32 0x42FE0000#32
def cN127 : EReal := Ideal.ofBits .f32 0xC2FE0000#32
def cOne : EReal := Ideal.ofBits .f32 0x3F800000#32
def cNegOne : EReal := Ideal.ofBits .f32 0xBF800000#32

/-! ## Row normalisation -/

/-- The mean of a row of 256 entries. -/
def rmean (r : Fin 256 → EReal) : EReal := Ideal.div (∑ k : Fin 256, r k) c256

/-- An entry of the row less the row's mean. -/
def rcen (r : Fin 256 → EReal) (j : Fin 256) : EReal := r j - rmean r

/-- The row's variance: the mean of its squared centred entries. -/
def rvar (r : Fin 256 → EReal) : EReal := Ideal.div (∑ k : Fin 256, rcen r k * rcen r k) c256

/-- The normalised entry of a row: centred, times the reciprocal square root of variance plus 1e-5. -/
def rxn (r : Fin 256 → EReal) (j : Fin 256) : EReal := rcen r j * Ideal.rsqrt (rvar r + cEps)

/-- Row `i` of the array. -/
def row (x : SX.Idx → EReal) (i : Fin 131072) : Fin 256 → EReal := fun k => x (ix2 i k)

/-- The normalised entry (i, j) of the array: a function of row `i` alone. -/
def xn (x : SX.Idx → EReal) (i : Fin 131072) (j : Fin 256) : EReal := rxn (row x i) j

/-- |xn| as a function of the array index. -/
def absxn (x : SX.Idx → EReal) : SX.Idx → EReal := fun p => max (xn x (p 0) (p 1)) (-(xn x (p 0) (p 1)))

/-- The largest |xn| over the whole array. -/
def amax (x : SX.Idx → EReal) : EReal := (Finset.univ : Finset SX.Idx).sup (absxn x)

/-- The quantisation range: the largest |xn|, but at least 1e-8. -/
def gamma (x : SX.Idx → EReal) : EReal := max (amax x) cTiny

/-- Scale by `s`, clip to [-127, 127], round to nearest with ties to even. -/
def quant (s v : EReal) : EReal := Ideal.liftRound Ideal.roundHalfEven (min c127 (max cN127 (v * s)))

/-! ## The weight's signs and scale -/

/-- The mean of all 65536 entries of `W`. -/
def wmean (W : SW.Idx → EReal) : EReal := Ideal.div (∑ p : SW.Idx, W p) c65536

/-- The mean of |W|, at least 1e-8. -/
def beta (W : SW.Idx → EReal) : EReal := max (Ideal.div (∑ p : SW.Idx, max (W p) (-(W p))) c65536) cTiny

/-- +1 where the entry exceeds the mean of `W`, else -1. -/
def sgn (W : SW.Idx → EReal) (o k : Fin 256) : EReal :=
  Scalar.select (Ideal.cmp .ogt (W (ix2 o k) - wmean W) 0) cOne cNegOne

/-- The signs laid out input-major: entry (k, o) is the sign of W at (o, k). -/
def sgnT (W : SW.Idx → EReal) : SW.Idx → EReal := fun p => sgn W (p 1) (p 0)

/-! ## One layer and the network -/

/-- Quantise the normalised rows with the scale `sq`, contract with a 256 × 256 matrix laid out input-major, scale the
    result by `so`, and (unless it is the last layer) take the positive part. -/
def qmm (relu : Bool) (x : SX.Idx → EReal) (wT : SW.Idx → EReal) (sq so : EReal) : SX.Idx → EReal := fun p =>
  let y := (∑ k : Fin 256, quant sq (xn x (p 0) k) * wT (ix2 k (p 1))) * so
  if relu then max y 0 else y

/-- One layer: the quantisation scale 127 / gamma, the output scale beta · gamma / 127. -/
def layer (relu : Bool) (x : SX.Idx → EReal) (W : SW.Idx → EReal) : SX.Idx → EReal :=
  qmm relu x (sgnT W) (Ideal.div c127 (gamma x)) (Ideal.div (beta W * gamma x) c127)

/-- Three layers, the positive part taken after the first two. -/
def net (x : SX.Idx → EReal) (W1 W2 W3 : SW.Idx → EReal) : SX.Idx → EReal :=
  layer false (layer true (layer true x W1) W2) W3

end Cert.Net

end
-- ==== Proof.NetLaws.lean ====
/-
  Facts about the layer function on the extended reals that do not depend on either program:
  when its inputs are real numbers so is every intermediate value, a real number cancels out of a + (b - a),
  and taking the maximum with 0 first does not change a maximum with a positive constant.
-/
import proofs.«131569_j14456859918944_1_alg».proof.Proof.NetSpec

noncomputable section

namespace Cert.Net

open Idealize.ShloMosaic Idealize.ShloMosaic.ValueIdx

/-- Every entry is a real number (neither infinity). -/
def AllReal {ι : Type} (v : ι → EReal) : Prop := ∀ i, v i ≠ ⊤ ∧ v i ≠ ⊥

/-! ## The constants as real numbers -/

theorem c256_eq : c256 = ((256 : ℝ) : EReal) := by
  unfold c256; simp [Ideal.ofBits, Ideal.ieee, -EReal.coe_mul]; norm_num

theorem c65536_eq : c65536 = ((65536 : ℝ) : EReal) := by
  unfold c65536; simp [Ideal.ofBits, Ideal.ieee, -EReal.coe_mul]; norm_num

theorem c127_eq : c127 = ((127 : ℝ) : EReal) := by
  unfold c127; simp [Ideal.ofBits, Ideal.ieee, -EReal.coe_mul]; norm_num

theorem cN127_eq : cN127 = ((-127 : ℝ) : EReal) := by
  unfold cN127; simp [Ideal.ofBits, Ideal.ieee, -EReal.coe_mul]; norm_num

theorem cOne_eq : cOne = ((1 : ℝ) : EReal) := by
  unfold cOne; simp [Ideal.ofBits, Ideal.ieee, -EReal.coe_mul]; norm_num

theorem cNegOne_eq : cNegOne = ((-1 : ℝ) : EReal) := by
  unfold cNegOne; simp [Ideal.ofBits, Ideal.ieee, -EReal.coe_mul]; norm_num

theorem cEps_eq : cEps = ((10995116 / 2 ^ 40 : ℝ) : EReal) := by
  unfold cEps; simp [Ideal.ofBits, Ideal.ieee, -EReal.coe_mul]; norm_num

theorem cTiny_eq : cTiny = ((11258999 / 2 ^ 50 : ℝ) : EReal) := by
  unfold cTiny; simp [Ideal.ofBits, Ideal.ieee, -EReal.coe_mul]; norm_num

/-! ## Real numbers among the extended reals -/

/-- A real number among the extended reals. -/
def IsR (a : EReal) : Prop := ∃ r : ℝ, a = (r : EReal)

theorem isR_iff {a : EReal} : IsR a ↔ a ≠ ⊤ ∧ a ≠ ⊥ := by
  constructor
  · rintro ⟨r, rfl⟩; exact ⟨EReal.coe_ne_top r, EReal.coe_ne_bot r⟩
  · rintro ⟨h1, h2⟩; exact ⟨a.toReal, (EReal.coe_toReal h1 h2).symm⟩

theorem isR_coe (r : ℝ) : IsR (r : EReal) := ⟨r, rfl⟩

theorem IsR.add {a b : EReal} (ha : IsR a) (hb : IsR b) : IsR (a + b) := by
  obtain ⟨r, rfl⟩ := ha; obtain ⟨s, rfl⟩ := hb; exact ⟨r + s, (EReal.coe_add r s).symm⟩

theorem IsR.sub {a b : EReal} (ha : IsR a) (hb : IsR b) : IsR (a - b) := by
  obtain ⟨r, rfl⟩ := ha; obtain ⟨s, rfl⟩ := hb; exact ⟨r - s, (EReal.coe_sub r s).symm⟩

theorem IsR.mul {a b : EReal} (ha : IsR a) (hb : IsR b) : IsR (a * b) := by
  obtain ⟨r, rfl⟩ := ha; obtain ⟨s, rfl⟩ := hb; exact ⟨r * s, (EReal.coe_mul r s).symm⟩

theorem IsR.neg {a : EReal} (ha : IsR a) : IsR (-a) := by
  obtain ⟨r, rfl⟩ := ha; exact ⟨-r, (EReal.coe_neg r).symm⟩

/-- A maximum is one of its two arguments. -/
theorem IsR.max {a b : EReal} (ha : IsR a) (hb : IsR b) : IsR (max a b) := by
  rcases max_choice a b with h | h <;> rw [h] <;> assumption

theorem IsR.min {a b : EReal} (ha : IsR a) (hb : IsR b) : IsR (min a b) := by
  rcases min_choice a b with h | h <;> rw [h] <;> assumption

/-- The quotient of two reals, the divisor not zero, is their real quotient. -/
theorem div_coe_coe (a : ℝ) {y : ℝ} (hy : y ≠ 0) : Ideal.div (a : EReal) (y : EReal) = ((a / y : ℝ) : EReal) := by
  rw [Ideal.div_coe hy, ← EReal.coe_mul, mul_one_div]

theorem IsR.div_coe {a : EReal} (ha : IsR a) {y : ℝ} (hy : y ≠ 0) : IsR (Ideal.div a (y : EReal)) := by
  obtain ⟨r, rfl⟩ := ha; exact ⟨r / y, div_coe_coe r hy⟩

/-- A finite sum of coerced reals is the coerced real sum. -/
theorem coe_sum {ι : Type} (s : Finset ι) (f : ι → ℝ) :
    ∑ i ∈ s, (f i : EReal) = ((∑ i ∈ s, f i : ℝ) : EReal) := by
  classical
  induction s using Finset.induction_on with
  | empty => simp
  | insert a s ha ih => rw [Finset.sum_insert ha, Finset.sum_insert ha, ih, EReal.coe_add]

/-- A finite sum of reals is real. -/
theorem IsR.sum {ι : Type} (s : Finset ι) (f : ι → EReal) (h : ∀ i ∈ s, IsR (f i)) : IsR (∑ i ∈ s, f i) := by
  classical
  induction s using Finset.induction_on with
  | empty => exact ⟨0, by simp⟩
  | insert a s ha ih =>
    rw [Finset.sum_insert ha]
    exact (h a (Finset.mem_insert_self a s)).add (ih fun i hi => h i (Finset.mem_insert_of_mem hi))

/-- A rounding sends a real to an integer, which is a real. -/
theorem IsR.liftRound (f : ℝ → ℤ) {a : EReal} (ha : IsR a) : IsR (Ideal.liftRound f a) := by
  obtain ⟨r, rfl⟩ := ha; exact ⟨(f r : ℝ), rfl⟩

/-- The reciprocal square root of a positive real is a real. -/
theorem rsqrt_coe_pos {r : ℝ} (hr : 0 < r) : Ideal.rsqrt (r : EReal) = (((Real.sqrt r)⁻¹ : ℝ) : EReal) := by
  rw [Ideal.rsqrt_coe, if_neg (not_lt.mpr hr.le), if_neg hr.ne']

/-- A real array is the coercion of a real-valued one. -/
theorem AllReal.eq_coe {ι : Type} {v : ι → EReal} (hv : AllReal v) : ∃ f : ι → ℝ, v = fun i => (f i : EReal) :=
  ⟨fun i => (v i).toReal, funext fun i => (EReal.coe_toReal (hv i).1 (hv i).2).symm⟩

theorem AllReal.isR {ι : Type} {v : ι → EReal} (hv : AllReal v) (i : ι) : IsR (v i) := isR_iff.mpr (hv i)

/-! ## The statements -/

/-- A real number cancels: a + (b - a) = b, whatever b is. -/
theorem add_sub_cancel_of_real {a : EReal} (ha : a ≠ ⊤ ∧ a ≠ ⊥) (b : EReal) : a + (b - a) = b := by
  obtain ⟨r, rfl⟩ := isR_iff.mpr ha
  induction b using EReal.rec with
  | bot => rw [EReal.bot_sub, EReal.add_bot]
  | top => rw [EReal.top_sub_coe, EReal.add_top_of_ne_bot (EReal.coe_ne_bot r)]
  | coe s => rw [← EReal.coe_sub, ← EReal.coe_add]; congr 1; ring

/-! ### Row normalisation of a real row -/

/-- The mean of a real row. -/
theorem rmean_coe (f : Fin 256 → ℝ) : rmean (fun k => (f k : EReal)) = (((∑ k, f k) / 256 : ℝ) : EReal) := by
  unfold rmean; rw [coe_sum, c256_eq, div_coe_coe _ (by norm_num)]

/-- A centred entry of a real row. -/
theorem rcen_coe (f : Fin 256 → ℝ) (j : Fin 256) :
    rcen (fun k => (f k : EReal)) j = ((f j - (∑ k, f k) / 256 : ℝ) : EReal) := by
  unfold rcen; rw [rmean_coe, ← EReal.coe_sub]

/-- The variance of a real row is a nonnegative real. -/
theorem rvar_coe (f : Fin 256 → ℝ) : ∃ v : ℝ, 0 ≤ v ∧ rvar (fun k => (f k : EReal)) = (v : EReal) := by
  refine ⟨(∑ k, (f k - (∑ k, f k) / 256) * (f k - (∑ k, f k) / 256)) / 256, ?_, ?_⟩
  · exact div_nonneg (Finset.sum_nonneg fun k _ => mul_self_nonneg _) (by norm_num)
  · unfold rvar
    simp only [rcen_coe, ← EReal.coe_mul]
    rw [coe_sum, c256_eq, div_coe_coe _ (by norm_num)]

/-- 1e-5 is a positive real. -/
theorem cEps_pos : ∃ e : ℝ, 0 < e ∧ cEps = (e : EReal) := ⟨_, by norm_num, cEps_eq⟩

/-- 1e-8 is a positive real. -/
theorem cTiny_pos : ∃ t : ℝ, 0 < t ∧ cTiny = (t : EReal) := ⟨_, by norm_num, cTiny_eq⟩

/-- A normalised entry of a real row is real. -/
theorem rxn_coe (f : Fin 256 → ℝ) (j : Fin 256) : IsR (rxn (fun k => (f k : EReal)) j) := by
  obtain ⟨v, hv, hvar⟩ := rvar_coe f
  obtain ⟨e, he, heps⟩ := cEps_pos
  unfold rxn
  rw [hvar, heps, ← EReal.coe_add, rsqrt_coe_pos (add_pos_of_nonneg_of_pos hv he), rcen_coe]
  exact (isR_coe _).mul (isR_coe _)

theorem row_allReal {x : SX.Idx → EReal} (hx : AllReal x) (i : Fin 131072) : AllReal (row x i) :=
  fun k => hx (ix2 i k)

theorem xn_isR {x : SX.Idx → EReal} (hx : AllReal x) (i : Fin 131072) (j : Fin 256) : IsR (xn x i j) := by
  obtain ⟨f, hf⟩ := (row_allReal hx i).eq_coe
  unfold xn; rw [hf]; exact rxn_coe f j

/-- The normalised entries of a real array are real: the variance is nonnegative, so variance plus 1e-5 is positive. -/
theorem xn_real {x : SX.Idx → EReal} (hx : AllReal x) (i : Fin 131072) (j : Fin 256) :
    xn x i j ≠ ⊤ ∧ xn x i j ≠ ⊥ := isR_iff.mp (xn_isR hx i j)

/-! ### The weight -/

theorem wmean_isR {W : SW.Idx → EReal} (hW : AllReal W) : IsR (wmean W) := by
  unfold wmean; rw [c65536_eq]
  exact (IsR.sum _ _ fun p _ => hW.isR p).div_coe (by norm_num)

/-- A real weight less its mean is real. -/
theorem wcen_real {W : SW.Idx → EReal} (hW : AllReal W) (p : SW.Idx) :
    W p - wmean W ≠ ⊤ ∧ W p - wmean W ≠ ⊥ := isR_iff.mp ((hW.isR p).sub (wmean_isR hW))

theorem cTiny_isR : IsR cTiny := ⟨_, cTiny_eq⟩

theorem beta_isR {W : SW.Idx → EReal} (hW : AllReal W) : IsR (beta W) := by
  unfold beta; rw [c65536_eq]
  exact ((IsR.sum _ _ fun p _ => (hW.isR p).max (hW.isR p).neg).div_coe (by norm_num)).max cTiny_isR

/-- A sign is one of the two reals 1 and -1. -/
theorem sgn_isR (W : SW.Idx → EReal) (o k : Fin 256) : IsR (sgn W o k) := by
  unfold sgn Scalar.select
  split_ifs
  · exact ⟨_, cOne_eq⟩
  · exact ⟨_, cNegOne_eq⟩

/-! ### The quantisation range -/

theorem absxn_isR {x : SX.Idx → EReal} (hx : AllReal x) (p : SX.Idx) : IsR (absxn x p) := by
  unfold absxn; exact (xn_isR hx _ _).max (xn_isR hx _ _).neg

/-- The largest |xn| of a real array is below ⊤: a finite supremum of reals. -/
theorem amax_lt_top {x : SX.Idx → EReal} (hx : AllReal x) : amax x < ⊤ := by
  unfold amax
  refine (Finset.sup_lt_iff bot_lt_top).mpr fun p _ => ?_
  obtain ⟨r, hr⟩ := absxn_isR hx p
  rw [hr]; exact EReal.coe_lt_top r

/-- The quantisation range of a real array is a positive real. -/
theorem gamma_pos {x : SX.Idx → EReal} (hx : AllReal x) : ∃ g : ℝ, 0 < g ∧ gamma x = (g : EReal) := by
  obtain ⟨t, ht, htiny⟩ := cTiny_pos
  have hlt : gamma x < ⊤ := by
    unfold gamma; exact max_lt (amax_lt_top hx) (htiny ▸ EReal.coe_lt_top t)
  have hpos : (0 : EReal) < gamma x := by
    unfold gamma; exact lt_of_lt_of_le (htiny ▸ EReal.coe_pos.mpr ht) (le_max_right _ _)
  have hbot : gamma x ≠ ⊥ := (lt_trans EReal.bot_lt_zero hpos).ne'
  refine ⟨(gamma x).toReal, ?_, (EReal.coe_toReal hlt.ne hbot).symm⟩
  rw [← EReal.coe_pos, EReal.coe_toReal hlt.ne hbot]; exact hpos

/-- A quantised value lies in [-127, 127] whatever is quantised, and is an integer: a real. -/
theorem quant_isR (s v : EReal) : IsR (quant s v) := by
  unfold quant
  refine IsR.liftRound _ (isR_iff.mpr ⟨?_, ?_⟩)
  · exact (lt_of_le_of_lt (min_le_left _ _) (c127_eq ▸ EReal.coe_lt_top _)).ne
  · refine (lt_min ?_ (lt_of_lt_of_le ?_ (le_max_left _ _))).ne'
    · exact c127_eq ▸ EReal.bot_lt_coe _
    · exact cN127_eq ▸ EReal.bot_lt_coe _

/-! ### One layer -/

/-- A layer maps real arrays to a real array. -/
theorem layer_real (relu : Bool) {x : SX.Idx → EReal} {W : SW.Idx → EReal} (hx : AllReal x) (hW : AllReal W) :
    AllReal (layer relu x W) := by
  intro p
  obtain ⟨g, _, hg⟩ := gamma_pos hx
  have hso : IsR (Ideal.div (beta W * gamma x) c127) := by
    rw [c127_eq]; exact ((beta_isR hW).mul ⟨g, hg⟩).div_coe (by norm_num)
  have hsum : IsR (∑ k : Fin 256, quant (Ideal.div c127 (gamma x)) (xn x (p 0) k) * sgnT W (ix2 k (p 1))) :=
    IsR.sum _ _ fun k _ => (quant_isR _ _).mul (sgn_isR W _ _)
  have hy := hsum.mul hso
  rw [← isR_iff]
  unfold layer qmm
  cases relu
  · exact hy
  · exact hy.max ⟨0, rfl⟩

/-- 1e-8 is positive, so a maximum taken from 0 first gives the same maximum with 1e-8. -/
theorem max_zero_max_tiny (a : EReal) : max (max 0 a) cTiny = max a cTiny := by
  obtain ⟨t, ht, htiny⟩ := cTiny_pos
  have h0 : (0 : EReal) ≤ max a cTiny := le_trans (htiny ▸ EReal.coe_nonneg.mpr ht.le) (le_max_right _ _)
  rw [max_assoc, max_eq_right h0]

end Cert.Net

end
-- ==== Proof.KAbsMax0.lean ====
/-
  The first region (the running maximum of |xn| over the 32 row blocks of its input), read as a value.
  At the first grid point the (1,1) output block is reset to 0; at every point it becomes the maximum of what it held
  and the block's largest |xn|.  The block's index never moves and it is written back after the last point, so the
  (1,1) array ends at the maximum of 0 and every |xn| of the input array, whatever the region found in its buffers.
-/
import proofs.«131569_j14456859918944_1_alg».proof.Proof.Gen.KernelIdeal.Frame
import proofs.«131569_j14456859918944_1_alg».proof.Proof.NetSpec
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

noncomputable section

namespace Cert.KernelIdeal.AbsMax0

open Idealize.ShloMosaic Idealize.ShloMosaic.TcCoe Idealize.ShloMosaic.ValueIdx Idealize.SL.Sem
open Idealize.ShloMosaic.Pipeline (Dat)
open Cert.KernelIdeal Cert.KernelIdeal.Gen

/-! ## What each control case leaves in the output block, for any float values -/

section Pieces
variable {F : FTy → Type} [FloatOps F]

theorem hz : (![0, 0] : Fin 2 → Nat) = fun _ => 0 := funext fun a => by fin_cases a <;> rfl

/-- At a point other than the first the body stores once: the update of what the block held by the input block. -/
theorem out_B (c : Dev nD) (i : grid0.Coords) (a1 : Memref sig .tc .vmem S4096x256 .f32) (h1 : a1.IsWhole)
    (a2 : Memref sig .tc .vmem S1x1 .f32) (h2 : a2.IsWhole) (hc : ¬cond0_0 i) (x : Vec F S4096x256 .f32) (xo : Vec F S1x1 .f32) :
    out0_B_1 c i a1 h1 a2 h2 hc x xo = k0_pay2 x xo := by
  unfold out0_B_1
  rw [View.read_writes_eq_canon _ _ _ (cover0_B_1 c i a1 h1 a2 h2 hc x xo)]
  unfold kernelRun0_B
  dsimp only
  rw [View.canon_unit_zero hz]
  simp only [View.readAt_eq_ld, h1.read_unread, h2.read_unread, View.ld_unit_zero (S := S4096x256) hz,
    View.ld_unit_zero (S := S1x1) hz, shapeCast_self]

/-- At the first point the body stores the zero block, reads it back and stores the update of it by the input block. -/
theorem out_A (c : Dev nD) (i : grid0.Coords) (a1 : Memref sig .tc .vmem S4096x256 .f32) (h1 : a1.IsWhole)
    (a2 : Memref sig .tc .vmem S1x1 .f32) (h2 : a2.IsWhole) (hc : cond0_0 i) (x : Vec F S4096x256 .f32) :
    out0_A_1 c i a1 h1 a2 h2 hc x = k0_pay2 x (k0_pay1 (F := F)) := by
  unfold out0_A_1
  rw [View.read_writes_eq_canon _ _ _ (cover0_A_1 c i a1 h1 a2 h2 hc x)]
  unfold kernelRun0_A
  dsimp only
  sl_unfold_words
  rw [View.canon_cons_unit_zero (S := S1x1) hz, View.readCov_unit_zero (S := S1x1) _ hz]
  simp only [View.readAt_eq_ld, h1.read_unread, View.ld_unit_zero (S := S4096x256) hz, shapeCast_self]

end Pieces

/-! ## The keepdims layout forms read at an index -/

section Layout
variable {α : Type}

/-- An `[a]` array cast to the column `[a, 1]` reads, at `(i, u)`, the operand at `i`, whatever the unit coordinate. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Layout

/-! ## The body's reductions read at an index, on the extended reals -/

section Reductions

/-- The word of minus infinity denotes the least extended real. -/
theorem ofBits_neg_inf : Ideal.ofBits .f32 0xFF800000#32 = (⊥ : EReal) := by
  simp [Ideal.ofBits, Ideal.ieee]

/-- The word of zero denotes zero. -/
theorem ofBits_zero : Ideal.ofBits .f32 0x00000000#32 = (0 : EReal) := by
  simp [Ideal.ofBits, Ideal.ieee]

/-- A fold of `max` from the least element is the supremum. -/
theorem fold_max_bot {ι : Type} (s : Finset ι) (f : ι → EReal) : s.fold max ⊥ f = s.sup f := by
  classical
  refine Finset.induction_on s ?_ fun a s ha ih => ?_
  · rw [Finset.fold_empty, Finset.sup_empty]
  · rw [Finset.fold_insert ha, Finset.sup_insert, ih]

/-- A lane sum kept as a column: at `(r, u)` the sum of row `r`. -/
theorem sumCol_apply (y : FVec Ideal S4096x256 .f32) (r : Fin 4096) (u : Fin 1) :
    shapeCast S4096x1 (multiReduction (F := Ideal) .add [1] S4096 y 0x00000000#32 reduces_S4096x256_S4096 (.inl rfl) rfl)
        shapeCasts_S4096_S4096x1 (ix2 r u)
      = ∑ k : Fin 256, y (ix2 r k) := by
  refine (shapeCast_a_a1_apply _ shapeCasts_S4096_S4096x1 r u).trans ?_
  refine (Ideal.multiReduction_add_single y 0x00000000#32 reduces_S4096x256_S4096 (.inl rfl) rfl (ix1 r)).trans ?_
  exact Finset.sum_congr rfl fun k _ => congrArg y (funext fun ax => by match ax with | ⟨0, _⟩ => rfl | ⟨1, _⟩ => rfl)

/-- A lane maximum kept as a column: at `(r, u)` the supremum of row `r`. -/
theorem maxCol_apply (y : FVec Ideal S4096x256 .f32) (r : Fin 4096) (u : Fin 1) :
    shapeCast S4096x1 (multiReduction (F := Ideal) .maximumf [1] S4096 y 0xFF800000#32 reduces_S4096x256_S4096 (.inl rfl) rfl)
        shapeCasts_S4096_S4096x1 (ix2 r u)
      = (Finset.univ : Finset (Fin 256)).sup fun k => y (ix2 r k) := by
  refine (shapeCast_a_a1_apply _ shapeCasts_S4096_S4096x1 r u).trans ?_
  refine (Ideal.multiReduction_maximumf_single y 0xFF800000#32 reduces_S4096x256_S4096 (.inl rfl) rfl (ix1 r)).trans ?_
  refine (congrArg (fun b => (Finset.univ : Finset (Fin 256)).fold max b _) ofBits_neg_inf).trans ?_
  refine (fold_max_bot _ _).trans ?_
  exact Finset.sup_congr rfl fun k _ => congrArg y (funext fun ax => by match ax with | ⟨0, _⟩ => rfl | ⟨1, _⟩ => rfl)

/-- The maximum down a column, kept as a `(1,1)` block: the supremum of the column. -/
theorem maxRows_apply (z : FVec Ideal S4096x1 .f32) (u v : Fin 1) :
    shapeCast S1x1 (multiReduction (F := Ideal) .maximumf [0] S1 z 0xFF800000#32 reduces_S4096x1_S1 (.inl rfl) rfl)
        shapeCasts_S1_S1x1 (ix2 u v)
      = (Finset.univ : Finset (Fin 4096)).sup fun r => z (ix2 r (0 : Fin 1)) := by
  refine (shapeCast_a_1a_apply _ shapeCasts_S1_S1x1 u v).trans ?_
  refine (Ideal.multiReduction_maximumf_single z 0xFF800000#32 reduces_S4096x1_S1 (.inl rfl) rfl (ix1 v)).trans ?_
  refine (congrArg (fun b => (Finset.univ : Finset (Fin 4096)).fold max b _) ofBits_neg_inf).trans ?_
  refine (fold_max_bot _ _).trans ?_
  exact Finset.sup_congr rfl fun r _ => congrArg z (funext fun ax => by
    match ax with
    | ⟨0, _⟩ => rfl
    | ⟨1, _⟩ => exact Fin.ext (by have := v.isLt; show v.val = 0; omega))

end Reductions

/-! ## The body's arithmetic at an index: a block's largest |xn| -/

section Payload

/-- Row `r` of a block. -/
def brow (x : FVec Ideal S4096x256 .f32) (r : Fin 4096) : Fin 256 → EReal := fun k => x (ix2 r k)

/-- The largest |xn| of a block: over its rows, over each row's entries. -/
def blockSup (x : FVec Ideal S4096x256 .f32) : EReal :=
  (Finset.univ : Finset (Fin 4096)).sup fun r => (Finset.univ : Finset (Fin 256)).sup fun k =>
    max (Net.rxn (brow x r) k) (-(Net.rxn (brow x r) k))

/-- The column of row sums divided by 256, as the body writes it. -/
abbrev meanCol (y : FVec Ideal S4096x256 .f32) : FVec Ideal S4096x1 .f32 :=
  divf (shapeCast S4096x1 (multiReduction (F := Ideal) .add [1] S4096 y 0x00000000#32 reduces_S4096x256_S4096 (.inl rfl) rfl)
      shapeCasts_S4096_S4096x1)
    (broadcast S4096x1 (FloatOps.ofBits .f32 0x43800000#32))

/-- The block less its rows' means. -/
abbrev cen (x : FVec Ideal S4096x256 .f32) : FVec Ideal S4096x256 .f32 :=
  subf x (broadcastTo S4096x256 (meanCol x) broadcasts_S4096x1_S4096x256)

/-- The column of row variances. -/
abbrev varCol (x : FVec Ideal S4096x256 .f32) : FVec Ideal S4096x1 .f32 := meanCol (mulf (cen x) (cen x))

/-- The normalised block. -/
abbrev xnBlock (x : FVec Ideal S4096x256 .f32) : FVec Ideal S4096x256 .f32 :=
  mulf (cen x) (broadcastTo S4096x256
    (rsqrt (addf (varCol x) (broadcast S4096x1 (FloatOps.ofBits .f32 0x3727C5AC#32)))) broadcasts_S4096x1_S4096x256)

theorem meanCol_apply (y : FVec Ideal S4096x256 .f32) (r : Fin 4096) (u : Fin 1) :
    meanCol y (ix2 r u) = Ideal.div (∑ k : Fin 256, y (ix2 r k)) Net.c256 :=
  congrArg (fun s => Ideal.div s Net.c256) (sumCol_apply y r u)

theorem cen_apply (x : FVec Ideal S4096x256 .f32) (r : Fin 4096) (k : Fin 256) :
    cen x (ix2 r k) = Net.rcen (brow x r) k :=
  congrArg (fun m => x (ix2 r k) - m) ((broadcastTo_a1_ab_apply _ _ r k).trans (meanCol_apply x r 0))

theorem varCol_apply (x : FVec Ideal S4096x256 .f32) (r : Fin 4096) (u : Fin 1) :
    varCol x (ix2 r u) = Net.rvar (brow x r) := by
  refine (meanCol_apply _ r u).trans ?_
  unfold Net.rvar
  refine congrArg (fun s => Ideal.div s Net.c256) (Finset.sum_congr rfl fun k _ => ?_)
  show cen x (ix2 r k) * cen x (ix2 r k) = _
  rw [cen_apply]

theorem xnBlock_apply (x : FVec Ideal S4096x256 .f32) (r : Fin 4096) (k : Fin 256) :
    xnBlock x (ix2 r k) = Net.rxn (brow x r) k := by
  show cen x (ix2 r k) * broadcastTo S4096x256
      (rsqrt (addf (varCol x) (broadcast S4096x1 (FloatOps.ofBits .f32 0x3727C5AC#32)))) broadcasts_S4096x1_S4096x256 (ix2 r k)
    = Net.rcen (brow x r) k * Ideal.rsqrt (Net.rvar (brow x r) + Net.cEps)
  rw [cen_apply]
  refine congrArg (fun m => Net.rcen (brow x r) k * m) ?_
  refine (broadcastTo_a1_ab_apply _ _ r k).trans ?_
  show Ideal.rsqrt (varCol x (ix2 r 0) + Net.cEps) = _
  rw [varCol_apply]

/-- The zero block the reset stores. -/
theorem pay1_apply (j : S1x1.Idx) : k0_pay1 (F := Ideal) j = 0 := ofBits_zero

/-- The update: the maximum of what the block held and the input block's largest |xn|. -/
theorem pay2_apply (x : FVec Ideal S4096x256 .f32) (p : FVec Ideal S1x1 .f32) (u v : Fin 1) :
    k0_pay2 (F := Ideal) x p (ix2 u v) = max (p (ix2 u v)) (blockSup x) := by
  unfold k0_pay2
  show max (shapeCast S1x1 p shapeCasts_S1x1_S1x1 (ix2 u v))
      (shapeCast S1x1 (multiReduction (F := Ideal) .maximumf [0] S1
        (shapeCast S4096x1 (multiReduction (F := Ideal) .maximumf [1] S4096 (absf (xnBlock x)) 0xFF800000#32
          reduces_S4096x256_S4096 (.inl rfl) rfl) shapeCasts_S4096_S4096x1)
        0xFF800000#32 reduces_S4096x1_S1 (.inl rfl) rfl) shapeCasts_S1_S1x1 (ix2 u v)) = _
  refine congrArg₂ max (congrFun (shapeCast_self p _) _) ?_
  refine (maxRows_apply _ u v).trans ?_
  unfold blockSup
  refine Finset.sup_congr rfl fun r _ => ?_
  refine (maxCol_apply _ r 0).trans ?_
  refine Finset.sup_congr rfl fun k _ => ?_
  show max (xnBlock x (ix2 r k)) (-(xnBlock x (ix2 r k))) = _
  rw [xnBlock_apply]

end Payload

/-! ## The blocks of the input array, and the running maximum over the grid -/

section Blocks
variable (V : (c : Dev nD) → (b : Ref sig .tc) → Buf (Elt Ideal) ((c : Thread nD τ).loc b))

/-- The input array as the region finds it, and its block at a point, at their literal types. -/
abbrev xarr (c : Dev nD) : FVec Ideal S131072x256 .f32 := V c (Pipeline.arrRef spec0 0)
abbrev xblk (c : Dev nD) (t : Fin cfg0.N) : FVec Ideal S4096x256 .f32 := iblk0 V c 0 t

/-- The input window's block index at point `t` is `(t, 0)`. -/
theorem idx0 : ∀ t : Fin cfg0.N, win0_0.index t 0 = t.val ∧ win0_0.index t 1 = 0 :=
  (by decide +kernel : ∀ t : Fin grid0.N, win0_0.index t 0 = t.val ∧ win0_0.index t 1 = 0)

/-- Row `r` of the block at point `t` is row `4096 t + r` of the array. -/
theorem xblk_apply (c : Dev nD) (t : Fin cfg0.N) (r : Fin 4096) (k : Fin 256) (h : 4096 * t.val + r.val < 131072) :
    xblk V c t (ix2 r k) = xarr V c (ix2 ⟨4096 * t.val + r.val, h⟩ k) := by
  have hi := idx0 t
  show iblk0 V c 0 t (ix2 r k) = V c (Pipeline.arrRef spec0 0) _
  unfold iblk0
  rw [View.read_apply]
  show V c (Pipeline.arrRef spec0 0) _ = V c (Pipeline.arrRef spec0 0) _
  congr 1
  funext a
  apply Fin.ext
  match a with
  | ⟨0, _⟩ => show win0_0.index t 0 * 4096 + 1 * r.val = 4096 * t.val + r.val; rw [hi.1]; omega
  | ⟨1, _⟩ => show win0_0.index t 1 * 256 + 1 * k.val = k.val; rw [hi.2]; omega

theorem brow_eq (c : Dev nD) (t : Fin cfg0.N) (r : Fin 4096) (i : Fin 131072) (hi : i.val = 4096 * t.val + r.val) :
    brow (xblk V c t) r = Net.row (xarr V c) i := by
  funext k
  show xblk V c t (ix2 r k) = xarr V c (ix2 i k)
  rw [xblk_apply V c t r k (hi ▸ i.isLt)]
  exact congrArg (fun q => xarr V c (ix2 q k)) (Fin.ext hi.symm)

/-- The running maximum after point `n`: 0, then each block's largest |xn| in turn. -/
def runMax (c : Dev nD) : (n : ℕ) → n < cfg0.N → EReal
  | 0, h => max 0 (blockSup (xblk V c ⟨0, h⟩))
  | n + 1, h => max (runMax c n (Nat.lt_of_succ_lt h)) (blockSup (xblk V c ⟨n + 1, h⟩))

end Blocks

/-! ## The output block after each point is the running maximum -/

section Induction
variable (V : (c : Dev nD) → (b : Ref sig .tc) → Buf (Elt Ideal) ((c : Thread nD τ).loc b))

theorem outsAt_eq (c : Dev nD) : ∀ (n : ℕ) (h : n < cfg0.N), outsAt0 V c n h = fun _ => runMax V c n h
  | 0, h => by
    refine (outsAt0_A V c ⟨0, h⟩ rfl).trans ?_
    refine (out_A (F := Ideal) c (grid0.coords ⟨0, h⟩) (ms0_0 ⟨0, h⟩) (hs0_0 ⟨0, h⟩) (ms0_1 ⟨0, h⟩) (hs0_1 ⟨0, h⟩)
      ((hcond0_0 ⟨0, h⟩).mpr rfl) (xblk V c ⟨0, h⟩)).trans ?_
    funext j
    obtain ⟨u, v, rfl⟩ : ∃ u v : Fin 1, j = ix2 u v := ⟨j 0, j 1, eq_ix2 j⟩
    refine (pay2_apply (xblk V c ⟨0, h⟩) (k0_pay1 (F := Ideal)) u v).trans ?_
    rw [pay1_apply, runMax]
  | n + 1, h => by
    have hN : cfg0.N = 32 := N_0
    have hB : ¬(⟨n + 1, h⟩ : Fin cfg0.N).val % 32 = 0 := by dsimp only; omega
    refine (outsAt0_B V c ⟨n + 1, h⟩ hB).trans ?_
    refine (out_B (F := Ideal) c (grid0.coords ⟨n + 1, h⟩) (ms0_0 ⟨n + 1, h⟩) (hs0_0 ⟨n + 1, h⟩) (ms0_1 ⟨n + 1, h⟩) (hs0_1 ⟨n + 1, h⟩)
      (fun hh => hB ((hcond0_0 ⟨n + 1, h⟩).mp hh)) (xblk V c ⟨n + 1, h⟩) (outsAt0 V c n (Nat.lt_of_succ_lt h))).trans ?_
    funext j
    obtain ⟨u, v, rfl⟩ : ∃ u v : Fin 1, j = ix2 u v := ⟨j 0, j 1, eq_ix2 j⟩
    refine (pay2_apply (xblk V c ⟨n + 1, h⟩) (outsAt0 V c n (Nat.lt_of_succ_lt h)) u v).trans ?_
    rw [outsAt_eq c n (Nat.lt_of_succ_lt h), runMax]

end Induction

/-! ## The running maximum after the last point is the maximum of 0 and the array's largest |xn| -/

section Total
variable (V : (c : Dev nD) → (b : Ref sig .tc) → Buf (Elt Ideal) ((c : Thread nD τ).loc b))

/-- A block's largest |xn| is at most the array's: every block entry is an array entry. -/
theorem blockSup_le_amax (c : Dev nD) (t : Fin cfg0.N) : blockSup (xblk V c t) ≤ Net.amax (xarr V c) := by
  have hN : t.val < 32 := lt_of_lt_of_eq t.isLt (show cfg0.N = 32 from N_0)
  unfold blockSup
  refine Finset.sup_le fun r _ => Finset.sup_le fun k _ => ?_
  have hi : 4096 * t.val + r.val < 131072 := by have := r.isLt; omega
  rw [brow_eq V c t r ⟨4096 * t.val + r.val, hi⟩ rfl]
  exact Finset.le_sup (f := Net.absxn (xarr V c)) (Finset.mem_univ (ix2 (⟨4096 * t.val + r.val, hi⟩ : Fin 131072) k))

/-- The running maximum never falls below 0, -/
theorem zero_le_runMax (c : Dev nD) : ∀ (n : ℕ) (h : n < cfg0.N), 0 ≤ runMax V c n h
  | 0, h => by rw [runMax]; exact le_max_left _ _
  | n + 1, h => by rw [runMax]; exact le_trans (zero_le_runMax c n (Nat.lt_of_succ_lt h)) (le_max_left _ _)

/-- holds every earlier block's largest |xn|, -/
theorem blockSup_le_runMax (c : Dev nD) : ∀ (n : ℕ) (h : n < cfg0.N) (t : ℕ) (ht : t ≤ n),
    blockSup (xblk V c ⟨t, lt_of_le_of_lt ht h⟩) ≤ runMax V c n h
  | 0, h, t, ht => by
    obtain rfl : t = 0 := Nat.le_zero.mp ht
    rw [runMax]; exact le_max_right _ _
  | n + 1, h, t, ht => by
    rw [runMax]
    rcases Nat.lt_or_ge t (n + 1) with hlt | hge
    · exact le_trans (blockSup_le_runMax c n (Nat.lt_of_succ_lt h) t (Nat.le_of_lt_succ hlt)) (le_max_left _ _)
    · obtain rfl : t = n + 1 := le_antisymm ht hge
      exact le_max_right _ _

/-- and never exceeds the maximum of 0 and the array's largest |xn|. -/
theorem runMax_le (c : Dev nD) : ∀ (n : ℕ) (h : n < cfg0.N), runMax V c n h ≤ max 0 (Net.amax (xarr V c))
  | 0, h => by
    rw [runMax]; exact max_le_max le_rfl (blockSup_le_amax V c ⟨0, h⟩)
  | n + 1, h => by
    rw [runMax]
    exact max_le (runMax_le c n (Nat.lt_of_succ_lt h)) (le_trans (blockSup_le_amax V c ⟨n + 1, h⟩) (le_max_right _ _))

/-- Every array entry lies in a block: row `i` is row `i % 4096` of block `i / 4096`. -/
theorem amax_le_runMax (c : Dev nD) (h31 : 31 < cfg0.N) : Net.amax (xarr V c) ≤ runMax V c 31 h31 := by
  unfold Net.amax
  refine Finset.sup_le fun p _ => ?_
  obtain ⟨i, j, rfl⟩ : ∃ (i : Fin 131072) (j : Fin 256), p = ix2 i j := ⟨p 0, p 1, eq_ix2 p⟩
  have ht : i.val / 4096 ≤ 31 := by have := i.isLt; omega
  have hr : i.val % 4096 < 4096 := Nat.mod_lt _ (by decide)
  refine le_trans ?_ (blockSup_le_runMax V c 31 h31 (i.val / 4096) ht)
  show max (Net.rxn (Net.row (xarr V c) i) j) (-(Net.rxn (Net.row (xarr V c) i) j)) ≤ _
  rw [← brow_eq V c ⟨i.val / 4096, lt_of_le_of_lt ht h31⟩ ⟨i.val % 4096, hr⟩ i
    (by show i.val = 4096 * (i.val / 4096) + i.val % 4096; omega)]
  unfold blockSup
  exact Finset.le_sup_of_le (Finset.mem_univ (⟨i.val % 4096, hr⟩ : Fin 4096)) (Finset.le_sup_of_le (Finset.mem_univ j) le_rfl)

theorem runMax_last (c : Dev nD) (h31 : 31 < cfg0.N) : runMax V c 31 h31 = max 0 (Net.amax (xarr V c)) :=
  le_antisymm (runMax_le V c 31 h31) (max_le (zero_le_runMax V c 31 h31) (amax_le_runMax V c h31))

end Total

/-! ## The one write-back -/

variable (V : (c : Dev nD) → (b : Ref sig .tc) → Buf (Elt Ideal) ((c : Thread nD τ).loc b))

/-- The result: every entry of the (1,1) array at the maximum of 0 and the input array's largest |xn|. -/
abbrev resultBlk (c : Dev nD) : FVec Ideal S1x1 .f32 := fun _ => max 0 (Net.amax (xarr V c))
abbrev result (c : Dev nD) : Buf (Elt Ideal) ((cfg0.win 1).arr.view.loc (c.tc : Thread nD τ)) := resultBlk V c

/-- At a point that writes back — the last — the output block holds the result. -/
theorem outsAt_last (c : Dev nD) (t : Fin cfg0.N) (ht : t.val % 32 = 31) :
    outsAt0 V c t.val t.isLt = resultBlk V c := by
  obtain ⟨n, hn⟩ := t
  have h32 : n < 32 := lt_of_lt_of_eq hn (show cfg0.N = 32 from N_0)
  obtain rfl : n = 31 := by dsimp only at ht; omega
  rw [outsAt_eq, runMax_last]

/-- What a write-back writes is the result read through its block: a constant read through any block is that constant. -/
theorem flushed_eq (c : Dev nD) (t : Fin cfg0.N) (hf : (cfg0.win 1).flush t = true) :
    (dat0 (F := Ideal) V c).flushed 1 t = ((cfg0.win 1).blk t).view.read (Elt Ideal) (result V c) := by
  show (cfg0.win 1).cut (grid0.coords t) ((dat0 (F := Ideal) V c).after 1 t) = _
  rw [after0_1, outsAt_last V c t ((flush0_1 t).mp hf)]
  funext y
  rfl

/-- The (1,1) array has one index. -/
theorem idx11_eq (i j : S1x1.Idx) : i = j :=
  Shape.idx_ext₂ (by have := idx2_lt0 i; have := idx2_lt0 j; omega) (by have := idx2_lt1 i; have := idx2_lt1 j; omega)

/-- The last point. -/
abbrev tLast : Fin cfg0.N := ⟨31, by rw [show cfg0.N = 32 from N_0]; decide⟩

/-- So the (1,1) array ends holding the result: the last point writes back, and its block, holding some index of a
    one-index array, holds every index. -/
theorem final_eq (c : Dev nD) : (dat0 (F := Ideal) V c).arrAt 1 cfg0.N = result V c :=
  (dat0 (F := Ideal) V c).arrAt_eq_of_cover 1 (result V c) (flushed_eq V c) fun i =>
    ⟨tLast, (flush0_1 tLast).mpr rfl, by
      have hy := View.emb_mem_set ((cfg0.win 1).blk tLast).view (ix2 (0 : Fin 1) (0 : Fin 1))
      exact (idx11_eq (((cfg0.win 1).blk tLast).view.emb (ix2 (0 : Fin 1) (0 : Fin 1))) i) ▸ hy⟩

/-- The (1,1) output array after the region: the maximum of 0 and the largest |xn| of the input array. -/
theorem final (c : Dev nD) :
    (dat0 (F := Ideal) V c).arrAt 1 cfg0.N = fun _ => max 0 (Net.amax (V c (Pipeline.arrRef spec0 0))) :=
  final_eq V c

end Cert.KernelIdeal.AbsMax0

end
-- ==== Proof.KQuant1.lean ====
/-
  The second region (quantise the normalised rows, contract with the sign matrix, rescale, positive part), read as a
  value: block t of the output is a function of block t of the input rows alone, the blocks tile the array, so the
  output array ends at the layer's quantised product of the region's four operand arrays.
-/
import proofs.«131569_j14456859918944_1_alg».proof.Proof.Gen.KernelIdeal.Frame
import proofs.«131569_j14456859918944_1_alg».proof.Proof.NetSpec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Quant1

open Idealize.ShloMosaic Idealize.ShloMosaic.TcCoe Idealize.ShloMosaic.ValueIdx Idealize.SL.Sem
open Idealize.ShloMosaic.Pipeline (Dat)
open Cert.KernelIdeal Cert.KernelIdeal.Gen

variable (V : (c : Dev nD) → (b : Ref sig .tc) → Buf (Elt Ideal) ((c : Thread nD τ).loc b))

/-! ## The body's arithmetic, read at an index

The body works on a block x of 4096 rows of 256 entries, the one-entry blocks s and q, and the 256 × 256 block w.
Every step but three acts entry by entry; the three are the sum along a row, the broadcast of a per-row number
along its row, and the matrix product. -/

/-- The zero offsets of a whole-block access. -/
theorem hz : (![0, 0] : Fin 2 → Nat) = fun _ => 0 := funext fun a => by fin_cases a <;> rfl

/-- The sum along the second axis, at row r, is the sum of the row's 256 entries. -/
theorem rowsum_apply (v : FVec Ideal S4096x256 .f32) (h : S4096x256.Reduces [1] S4096) (hφ : FKind.Formats .f32)
    (hacc : (0x00000000#32 : BitVec 32) = FKind.add.neutral .f32 hφ) (r : Fin 4096) :
    multiReduction .add [1] S4096 v 0x00000000#32 h hφ hacc (ix1 r) = ∑ k : Fin 256, v (ix2 r k) := by
  refine (Ideal.multiReduction_add_single v 0x00000000#32 h hφ hacc (ix1 r)).trans ?_
  exact Finset.sum_congr rfl fun k _ => congrArg v (funext fun a => Fin.ext (match a with | ⟨0, _⟩ => rfl | ⟨1, _⟩ => rfl))

/-- A vector of 4096 numbers viewed as a column: entry (r, 0) is entry r. -/
theorem col_apply (u : FVec Ideal S4096 .f32) (h : S4096.ShapeCasts S4096x1) (r : Fin 4096) (z : Fin 1) :
    shapeCast S4096x1 u h (ix2 r z) = u (ix1 r) := by
  refine shapeCast_apply u h (ix2 r z) (ix1 r) ?_
  rw [Shape.rowMajor_val_one, Shape.rowMajor_val_two]
  show r.val = r.val * 1 + z.val
  omega

/-- A column broadcast along the rows: entry (r, o) is the column's entry (r, 0). -/
theorem bcol_apply (u : FVec Ideal S4096x1 .f32) (h : S4096x1.Broadcasts S4096x256) (r : Fin 4096) (o : Fin 256) :
    broadcastTo S4096x256 u h (ix2 r o) = u (ix2 r (0 : Fin 1)) := by
  refine broadcastTo_apply u h (ix2 r o) (ix2 r (0 : Fin 1)) fun ax => ?_
  match ax with
  | ⟨0, _⟩ => rfl
  | ⟨1, _⟩ => rfl

/-- The one entry of a (1,1) block. -/
theorem one_apply (u : FVec Ideal S1x1 .f32) (h : ∀ a, (![0, 0] : Fin 2 → Nat) a < S1x1.size a) :
    extractAt ![0, 0] u h = u (ix2 0 0) :=
  congrArg u (funext fun a => Fin.ext (match a with | ⟨0, _⟩ => rfl | ⟨1, _⟩ => rfl))

/-- The per-row mean of a block, as a column: the row sums divided by 256. -/
def meanCol (v : FVec Ideal S4096x256 .f32) : FVec Ideal S4096x1 .f32 :=
  divf (shapeCast S4096x1 (multiReduction .add [1] S4096 v 0x00000000#32 Facts₀.reduces_S4096x256_S4096 (.inl rfl) rfl) Facts₀.shapeCasts_S4096_S4096x1)
    (broadcast S4096x1 (Scalar.ofBits .f32 0x43800000#32))

theorem meanCol_apply (v : FVec Ideal S4096x256 .f32) (r : Fin 4096) (z : Fin 1) :
    meanCol v (ix2 r z) = Ideal.div (∑ k : Fin 256, v (ix2 r k)) Net.c256 := by
  unfold meanCol
  show Ideal.div (shapeCast S4096x1 _ _ (ix2 r z)) _ = _
  exact congrArg (fun y => Ideal.div y Net.c256) ((col_apply _ _ r z).trans (rowsum_apply v _ _ _ r))

/-- The block with each row's mean taken off. -/
def centred (x : FVec Ideal S4096x256 .f32) : FVec Ideal S4096x256 .f32 :=
  subf x (broadcastTo S4096x256 (meanCol x) Facts₀.broadcasts_S4096x1_S4096x256)

theorem centred_apply (x : FVec Ideal S4096x256 .f32) (r : Fin 4096) (k : Fin 256) :
    centred x (ix2 r k) = Net.rcen (fun k' => x (ix2 r k')) k := by
  unfold centred
  show x (ix2 r k) - broadcastTo S4096x256 _ _ (ix2 r k) = _
  rw [bcol_apply, meanCol_apply]
  rfl

/-- The normalised block: centred, times the reciprocal square root of the row's variance plus 1e-5. -/
def normed (x : FVec Ideal S4096x256 .f32) : FVec Ideal S4096x256 .f32 :=
  mulf (centred x) (broadcastTo S4096x256
    (rsqrt (addf (meanCol (mulf (centred x) (centred x))) (broadcast S4096x1 (Scalar.ofBits .f32 0x3727C5AC#32))))
    Facts₀.broadcasts_S4096x1_S4096x256)

theorem normed_apply (x : FVec Ideal S4096x256 .f32) (r : Fin 4096) (k : Fin 256) :
    normed x (ix2 r k) = Net.rxn (fun k' => x (ix2 r k')) k := by
  unfold normed
  show centred x (ix2 r k) * broadcastTo S4096x256 _ _ (ix2 r k) = _
  rw [bcol_apply]
  show centred x (ix2 r k) * Ideal.rsqrt (meanCol (mulf (centred x) (centred x)) (ix2 r 0) + _) = _
  rw [meanCol_apply, centred_apply]
  show _ * Ideal.rsqrt (Ideal.div (∑ k' : Fin 256, centred x (ix2 r k') * centred x (ix2 r k')) Net.c256 + _) = _
  simp only [centred_apply]
  rfl

/-! The matrix product: the contraction runs over the block's second axis and the matrix's first. -/

theorem lhs_mm_0 (i : S4096x256.Idx) (q : dot_S4096x256_S256x256_S4096x256_1_0_0_1_n_n.contr.Idx) :
    (dot_S4096x256_S256x256_S4096x256_1_0_0_1_n_n.lhsIdx i q 0).val = (i 0).val := by
  unfold DotDims.lhsIdx
  rw [dif_neg (show ¬(0 : Fin S4096x256.rank) ∈ dot_S4096x256_S256x256_S4096x256_1_0_0_1_n_n.lhsBatch by decide), dif_pos (show (0 : Fin S4096x256.rank) ∈ dot_S4096x256_S256x256_S4096x256_1_0_0_1_n_n.lhsNonContracting by decide)]
  rfl
theorem lhs_mm_1 (i : S4096x256.Idx) (q : dot_S4096x256_S256x256_S4096x256_1_0_0_1_n_n.contr.Idx) :
    (dot_S4096x256_S256x256_S4096x256_1_0_0_1_n_n.lhsIdx i q 1).val = (q ⟨0, by decide⟩).val :=
  dot_S4096x256_S256x256_S4096x256_1_0_0_1_n_n.lhsIdx_val_of_single rfl i q
theorem rhs_mm_0 (i : S4096x256.Idx) (q : dot_S4096x256_S256x256_S4096x256_1_0_0_1_n_n.contr.Idx) :
    (dot_S4096x256_S256x256_S4096x256_1_0_0_1_n_n.rhsIdx i q 0).val = (q ⟨0, by decide⟩).val :=
  dot_S4096x256_S256x256_S4096x256_1_0_0_1_n_n.rhsIdx_val_of_single rfl i q
theorem rhs_mm_1 (i : S4096x256.Idx) (q : dot_S4096x256_S256x256_S4096x256_1_0_0_1_n_n.contr.Idx) :
    (dot_S4096x256_S256x256_S4096x256_1_0_0_1_n_n.rhsIdx i q 1).val = (i 1).val := by
  unfold DotDims.rhsIdx
  rw [dif_neg (show ¬(1 : Fin S256x256.rank) ∈ dot_S4096x256_S256x256_S4096x256_1_0_0_1_n_n.rhsBatch by decide), dif_pos (show (1 : Fin S256x256.rank) ∈ dot_S4096x256_S256x256_S4096x256_1_0_0_1_n_n.rhsNonContracting by decide)]
  rfl

/-- The product into a zero accumulator, at (r, o): the sum over k of the left block's (r, k) times the matrix's (k, o). -/
theorem mm_apply (l : FVec Ideal S4096x256 .bf16) (w : FVec Ideal S256x256 .bf16) (r : Fin 4096) (o : Fin 256) :
    matmul dot_S4096x256_S256x256_S4096x256_1_0_0_1_n_n none l w (constant S4096x256 .f32 0x00000000#32) (ix2 r o)
      = ∑ k : Fin 256, l (ix2 r k) * w (ix2 k o) := by
  simp only [matmul]
  rw [Ideal.matmul_constant_zero_apply, ← Equiv.sum_comp (ValueIdx.contrEquiv1 dot_S4096x256_S256x256_S4096x256_1_0_0_1_n_n 256 rfl rfl).symm]
  refine Finset.sum_congr rfl fun k _ => ?_
  have hk := ValueIdx.contrEquiv1_symm_val dot_S4096x256_S256x256_S4096x256_1_0_0_1_n_n 256 rfl rfl k
  have el : dot_S4096x256_S256x256_S4096x256_1_0_0_1_n_n.lhsIdx (ix2 r o) ((ValueIdx.contrEquiv1 dot_S4096x256_S256x256_S4096x256_1_0_0_1_n_n 256 rfl rfl).symm k) = ix2 r k := funext fun a => Fin.ext (by
    match a with
    | ⟨0, _⟩ => exact lhs_mm_0 _ _
    | ⟨1, _⟩ => exact (lhs_mm_1 _ _).trans hk)
  have er : dot_S4096x256_S256x256_S4096x256_1_0_0_1_n_n.rhsIdx (ix2 r o) ((ValueIdx.contrEquiv1 dot_S4096x256_S256x256_S4096x256_1_0_0_1_n_n 256 rfl rfl).symm k) = ix2 k o := funext fun a => Fin.ext (by
    match a with
    | ⟨0, _⟩ => exact (rhs_mm_0 _ _).trans hk
    | ⟨1, _⟩ => exact rhs_mm_1 _ _)
  rw [el, er]

/-! The whole body. -/

/-- The quantised block: the normalised block times the first scale, clipped to [-127, 127], rounded to the nearest
    integer (ties to even); the change of format is the identity on the extended reals. -/
def quantised (x : FVec Ideal S4096x256 .f32) (s : FVec Ideal S1x1 .f32) : FVec Ideal S4096x256 .bf16 :=
  truncf .bf16 (roundeven (minimumf (broadcast S4096x256 (Scalar.ofBits .f32 0x42FE0000#32))
    (maximumf (broadcast S4096x256 (Scalar.ofBits .f32 0xC2FE0000#32))
      (mulf (normed x) (broadcast S4096x256 (extractAt ![0, 0] s Facts₀.inpos_S1x1_p0_0)))))) Facts₀.bitsLt_bf16_f32

theorem quantised_apply (x : FVec Ideal S4096x256 .f32) (s : FVec Ideal S1x1 .f32) (r : Fin 4096) (k : Fin 256) :
    quantised x s (ix2 r k) = Net.quant (s (ix2 0 0)) (Net.rxn (fun k' => x (ix2 r k')) k) := by
  unfold quantised
  show Ideal.liftRound Ideal.roundHalfEven (min Net.c127 (max Net.cN127 (normed x (ix2 r k) * extractAt ![0, 0] s _))) = _
  rw [normed_apply, one_apply]
  rfl

/-- What the body computes before the positive part: the quantised block times the matrix, times the second scale. -/
def scaledProduct (x : FVec Ideal S4096x256 .f32) (s : FVec Ideal S1x1 .f32) (w : FVec Ideal S256x256 .bf16) (q : FVec Ideal S1x1 .f32) :
    FVec Ideal S4096x256 .f32 :=
  mulf (matmul dot_S4096x256_S256x256_S4096x256_1_0_0_1_n_n none (quantised x s)
      (shapeCast S256x256 w Facts₀.shapeCasts_S256x256_S256x256) (constant S4096x256 .f32 0x00000000#32))
    (broadcast S4096x256 (extractAt ![0, 0] q Facts₀.inpos_S1x1_p0_0))

theorem scaledProduct_apply (x : FVec Ideal S4096x256 .f32) (s : FVec Ideal S1x1 .f32) (w : FVec Ideal S256x256 .bf16) (q : FVec Ideal S1x1 .f32)
    (r : Fin 4096) (o : Fin 256) :
    scaledProduct x s w q (ix2 r o)
      = (∑ k : Fin 256, Net.quant (s (ix2 0 0)) (Net.rxn (fun k' => x (ix2 r k')) k) * w (ix2 k o)) * q (ix2 0 0) := by
  unfold scaledProduct
  show matmul _ none _ _ _ (ix2 r o) * extractAt ![0, 0] q _ = _
  rw [shapeCast_self, mm_apply, one_apply]
  simp only [quantised_apply]

/-- The positive part, entry by entry: the larger of the entry and zero. -/
theorem positive_apply (y : FVec Ideal S4096x256 .f32) (p : S4096x256.Idx) :
    maximumf y (broadcast S4096x256 (Scalar.ofBits .f32 0x00000000#32)) p = max (y p) 0 := by
  show max (y p) (Ideal.ofBits .f32 0x00000000#32) = _
  rw [Ideal.ofBits_zero_f32]

/-- The body's stored value is the positive part of that product. -/
theorem pay_eq (x : FVec Ideal S4096x256 .f32) (s : FVec Ideal S1x1 .f32) (w : FVec Ideal S256x256 .bf16) (q : FVec Ideal S1x1 .f32) :
    k1_pay1 (F := Ideal) x s w q = maximumf (scaledProduct x s w q) (broadcast S4096x256 (Scalar.ofBits .f32 0x00000000#32)) := rfl

/-- The body's stored value at (r, o). -/
theorem pay_apply (x : FVec Ideal S4096x256 .f32) (s : FVec Ideal S1x1 .f32) (w : FVec Ideal S256x256 .bf16) (q : FVec Ideal S1x1 .f32)
    (r : Fin 4096) (o : Fin 256) :
    k1_pay1 (F := Ideal) x s w q (ix2 r o)
      = max ((∑ k : Fin 256, Net.quant (s (ix2 0 0)) (Net.rxn (fun k' => x (ix2 r k')) k) * w (ix2 k o)) * q (ix2 0 0)) 0 := by
  rw [pay_eq, positive_apply, scaledProduct_apply]

/-! ## From the blocks to the array

Point t of the grid reads rows 4096·t … 4096·t + 4095 of the rows' array, the whole matrix and the two one-entry
arrays, and writes rows 4096·t … 4096·t + 4095 of the output. -/

/-- A block whose row r is row i of the array X, against a block that is the matrix W and one-entry blocks holding
    sq and so: the body's value at (r, o) is the layer's product at (i, o). -/
theorem block_value (x : FVec Ideal S4096x256 .f32) (s : FVec Ideal S1x1 .f32) (w : FVec Ideal S256x256 .bf16) (q : FVec Ideal S1x1 .f32)
    (X : Net.SX.Idx → EReal) (W : Net.SW.Idx → EReal) (sq so : EReal) (r : Fin 4096) (o : Fin 256) (i : Fin 131072)
    (hx : ∀ k : Fin 256, x (ix2 r k) = X (ix2 i k)) (hw : ∀ k : Fin 256, w (ix2 k o) = W (ix2 k o))
    (hs : s (ix2 0 0) = sq) (hq : q (ix2 0 0) = so) :
    k1_pay1 (F := Ideal) x s w q (ix2 r o) = Net.qmm true X W sq so (ix2 i o) := by
  rw [pay_apply, hs, hq]
  have hrow : (fun k' => x (ix2 r k')) = Net.row X i := funext hx
  rw [hrow]
  simp only [hw]
  rfl

/-- The printed index maps over the grid: the rows' window and the output's sit at block row t, the other three
    windows at their one block. -/
theorem idx_facts : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- What point t writes back is block t of the layer's product of the four arrays as the region found them. -/
theorem flushed_eq (c : Dev nD) (t : Fin cfg1.N) :
    (dat1 (F := Ideal) V c).flushed 4 t = ((cfg1.win 4).blk t).view.read (Elt Ideal)
      (Net.qmm true (V c (Pipeline.arrRef spec1 0)) (V c (Pipeline.arrRef spec1 1))
        ((V c (Pipeline.arrRef spec1 2) : Net.S11.Idx → EReal) (ix2 0 0)) ((V c (Pipeline.arrRef spec1 3) : Net.S11.Idx → EReal) (ix2 0 0))) := by
  show (cfg1.win 4).cut (grid1.coords t) ((dat1 V c).after 4 t) = _
  rw [after1_4]
  unfold out1_4
  rw [View.canon_unit_zero hz]
  simp only [View.ld_unit_zero (S := S4096x256) hz, View.ld_unit_zero (S := S1x1) hz, View.ld_unit_zero (S := S256x256) hz]
  obtain ⟨e00, e01, e10, e11, e20, e21, e30, e31, e40, e41⟩ := idx_facts t
  have hN : cfg1.N = 32 := N_1
  have ht : t.val < 32 := hN ▸ t.isLt
  funext j
  obtain ⟨r, o, rfl⟩ : ∃ (r : Fin 4096) (o : Fin 256), j = ix2 r o := ⟨j 0, j 1, eq_ix2 j⟩
  refine (block_value (iblk1 V c 0 t) (iblk1 V c 2 t) (iblk1 V c 1 t) (iblk1 V c 3 t)
    (V c (Pipeline.arrRef spec1 0)) (V c (Pipeline.arrRef spec1 1))
    ((V c (Pipeline.arrRef spec1 2) : Net.S11.Idx → EReal) (ix2 0 0)) ((V c (Pipeline.arrRef spec1 3) : Net.S11.Idx → EReal) (ix2 0 0))
    r o ⟨t.val * 4096 + r.val, by omega⟩ ?_ ?_ ?_ ?_).trans ?_
  · intro k
    show V c (Pipeline.arrRef spec1 0) (((cfg1.win 0).blk t).view.emb (ix2 r k)) = _
    refine congrArg _ (funext fun a => Fin.ext ?_)
    match a with
    | ⟨0, _⟩ => show win1_0.index t (0 : Fin 2) * 4096 + 1 * r.val = t.val * 4096 + r.val; omega
    | ⟨1, _⟩ => show win1_0.index t (1 : Fin 2) * 256 + 1 * k.val = k.val; omega
  · intro k
    show V c (Pipeline.arrRef spec1 1) (((cfg1.win 1).blk t).view.emb (ix2 k o)) = _
    refine congrArg _ (funext fun a => Fin.ext ?_)
    match a with
    | ⟨0, _⟩ => show win1_1.index t (0 : Fin 2) * 256 + 1 * k.val = k.val; omega
    | ⟨1, _⟩ => show win1_1.index t (1 : Fin 2) * 256 + 1 * o.val = o.val; omega
  · show V c (Pipeline.arrRef spec1 2) (((cfg1.win 2).blk t).view.emb (ix2 0 0)) = _
    refine congrArg _ (funext fun a => Fin.ext ?_)
    match a with
    | ⟨0, _⟩ => show win1_2.index t (0 : Fin 2) * 1 + 1 * 0 = 0; omega
    | ⟨1, _⟩ => show win1_2.index t (1 : Fin 2) * 1 + 1 * 0 = 0; omega
  · show V c (Pipeline.arrRef spec1 3) (((cfg1.win 3).blk t).view.emb (ix2 0 0)) = _
    refine congrArg _ (funext fun a => Fin.ext ?_)
    match a with
    | ⟨0, _⟩ => show win1_3.index t (0 : Fin 2) * 1 + 1 * 0 = 0; omega
    | ⟨1, _⟩ => show win1_3.index t (1 : Fin 2) * 1 + 1 * 0 = 0; omega
  · show _ = Net.qmm true _ _ _ _ (((cfg1.win 4).blk t).view.emb (ix2 r o))
    refine congrArg _ (funext fun a => Fin.ext ?_)
    match a with
    | ⟨0, _⟩ => show t.val * 4096 + r.val = win1_4.index t (0 : Fin 2) * 4096 + 1 * r.val; omega
    | ⟨1, _⟩ => show o.val = win1_4.index t (1 : Fin 2) * 256 + 1 * o.val; omega

/-- An index of the output array is in point t's block iff each coordinate is in the block's range on its axis. -/
theorem mem_blk (t : Fin cfg1.N) (i : S131072x256.Idx) :
    i ∈ ((cfg1.win 4).blk t).view.set ↔ ∀ a : Fin 2, win1_4.index t a * S4096x256.size a ≤ (i a).val ∧ (i a).val < win1_4.index t a * S4096x256.size a + S4096x256.size a := by
  show i ∈ ((View.whole (Pipeline.arrRef spec1 4)).slice (win1_4.rect t)).set ↔ _
  rw [View.set_slice_whole, Rect.mem_set_unit]
  exact Iff.rfl

/-- Row i of the output lies in the block of point i / 4096. -/
theorem cover (i : S131072x256.Idx) : ∃ t : Fin cfg1.N, (cfg1.win 4).flush t = true ∧ i ∈ ((cfg1.win 4).blk t).view.set := by
  have hN : cfg1.N = 32 := N_1
  have hi0 : (i 0).val < 131072 := (i 0).isLt
  have hi1 : (i 1).val < 256 := (i 1).isLt
  let t : Fin cfg1.N := ⟨(i 0).val / 4096, by rw [hN]; omega⟩
  have htv : t.val = (i 0).val / 4096 := rfl
  obtain ⟨-, -, -, -, -, -, -, -, e40, e41⟩ := idx_facts t
  refine ⟨t, flush1_4 t, ?_⟩
  rw [mem_blk]
  intro a
  match a with
  | ⟨0, _⟩ => show win1_4.index t (0 : Fin 2) * 4096 ≤ (i 0).val ∧ (i 0).val < win1_4.index t (0 : Fin 2) * 4096 + 4096; omega
  | ⟨1, _⟩ => show win1_4.index t (1 : Fin 2) * 256 ≤ (i 1).val ∧ (i 1).val < win1_4.index t (1 : Fin 2) * 256 + 256; omega

/-- The output array after the region, from the four operand arrays as the region found them: the rows, the sign
    matrix laid out input-major, the quantisation scale and the output scale (each a (1,1) array). -/
theorem final (c : Dev nD) :
    (dat1 (F := Ideal) V c).arrAt 4 cfg1.N
      = Net.qmm true (V c (Pipeline.arrRef spec1 0)) (V c (Pipeline.arrRef spec1 1))
          ((V c (Pipeline.arrRef spec1 2) : Net.S11.Idx → EReal) (ix2 0 0)) ((V c (Pipeline.arrRef spec1 3) : Net.S11.Idx → EReal) (ix2 0 0)) :=
  (dat1 (F := Ideal) V c).arrAt_eq_of_cover 4 _ (fun t _ => flushed_eq V c t) cover

end Cert.KernelIdeal.Quant1

end
-- ==== Proof.KHost1.lean ====
/-
  The host operations between the first two regions, read as values of the buffers the second region takes:
  the sign matrix of the weight laid out input-major, 127 over the clamped maximum, and the weight's mean
  magnitude times the clamped maximum over 127; the arguments are not written.
-/
import proofs.«131569_j14456859918944_1_alg».proof.Proof.Gen.KernelIdeal.Launch
import proofs.«131569_j14456859918944_1_alg».proof.Proof.NetSpec
import Idealize.ShloMosaic.Lib.StableHlo.Run
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Host1

open Idealize.ShloMosaic Idealize.ShloMosaic.TcCoe Idealize.ShloMosaic.ValueIdx Idealize.SL.Sem
open Cert.KernelIdeal Cert.KernelIdeal.Gen

variable (Wi : Valuation τ sig (Elt Ideal))

/-- The buffers after the three stretches of host operations, from the buffers `Wi` before them. -/
abbrev after : Valuation τ sig (Elt Ideal) :=
  StableHlo.after hostOps1_2 (StableHlo.after hostOps1_1 (StableHlo.after hostOps1 Wi))

/-! ## What is not written

Each operation writes its one result reference; a reference that is none of these holds, after the three stretches,
what it held before them. -/

/-- Every reference the three stretches write, in order. -/
abbrev written : List (Ref sig .tc) :=
  [
   main_cst, main_v1, main_v2, main_cst_0, main_v3, main_cst_1, main_v4, main_v5, main_cst_2, main_v6, main_cst_3, main_v7, main_cst_4, main_v8, main_v9, main_v10, main_cst_5, main_v11, main_v12, main_cst_6, main_cst_7,
   main_call0_v0, main_call0_v1, main_v13,
   main_v14, main_v15, main_v16, main_cst_8, main_v17, main_v18, main_v19, main_v20, main_cst_9, main_v21, main_v22 ]

theorem writes0 : (hostOps1 : List (HloOp τ sig (Elt Ideal))).Forall fun op =>
    op.writes ⊆ (written.map (Proc.devRef (τ := τ) .tc)).toFinset := by
  simp only [hostOps1, List.Forall, StableHlo.nullary_writes, StableHlo.unary_writes, StableHlo.binary_writes,
    StableHlo.ternary_writes, Finset.singleton_subset_iff, List.mem_toFinset]
  repeat' apply And.intro
  all_goals exact List.mem_map_of_mem (by decide)

theorem writes1 : (hostOps1_1 : List (HloOp τ sig (Elt Ideal))).Forall fun op =>
    op.writes ⊆ (written.map (Proc.devRef (τ := τ) .tc)).toFinset := by
  simp only [hostOps1_1, List.Forall, StableHlo.nullary_writes, StableHlo.unary_writes, StableHlo.binary_writes,
    StableHlo.ternary_writes, Finset.singleton_subset_iff, List.mem_toFinset]
  repeat' apply And.intro
  all_goals exact List.mem_map_of_mem (by decide)

theorem writes2 : (hostOps1_2 : List (HloOp τ sig (Elt Ideal))).Forall fun op =>
    op.writes ⊆ (written.map (Proc.devRef (τ := τ) .tc)).toFinset := by
  simp only [hostOps1_2, List.Forall, StableHlo.nullary_writes, StableHlo.unary_writes, StableHlo.binary_writes,
    StableHlo.ternary_writes, Finset.singleton_subset_iff, List.mem_toFinset]
  repeat' apply And.intro
  all_goals exact List.mem_map_of_mem (by decide)

/-- A reference none of the three stretches writes holds what it held before them. -/
theorem kept {r : Ref sig .tc} (hr : r ∉ written) : after Wi (Proc.devRef .tc r) = Wi (Proc.devRef .tc r) := by
  show StableHlo.after hostOps1_2 (StableHlo.after hostOps1_1 (StableHlo.after hostOps1 Wi)) _ = _
  rw [StableHlo.after_of_writes_sub hostOps1_2 _ writes2 hr, StableHlo.after_of_writes_sub hostOps1_1 _ writes1 hr,
    StableHlo.after_of_writes_sub hostOps1 _ writes0 hr]

theorem kept_arg0 : after Wi (Proc.devRef .tc main_arg0) = Wi (Proc.devRef .tc main_arg0) := kept Wi (by decide)
theorem kept_arg1 : after Wi (Proc.devRef .tc main_arg1) = Wi (Proc.devRef .tc main_arg1) := kept Wi (by decide)
theorem kept_arg2 : after Wi (Proc.devRef .tc main_arg2) = Wi (Proc.devRef .tc main_arg2) := kept Wi (by decide)
theorem kept_arg3 : after Wi (Proc.devRef .tc main_arg3) = Wi (Proc.devRef .tc main_arg3) := kept Wi (by decide)

/-! ## The weight's statistics as the host operations compute them

The sum over both axes starts from the zero word, so it is the sum of all 65536 entries; the mean divides it by
65536. |w| is max(w, -w). -/

/-- The host's sum of a 256 × 256 array over both axes, started from the zero word: the sum of all its entries. -/
theorem total_apply (x : FVec Ideal S256x256 .f32) (k : S_.Idx) :
    Host.reduceAdd (F := Ideal) x (constant S_ .f32 0x00000000#32) reducesTo_S256x256_S_d0_1 h_S_ k = ∑ p : S256x256.Idx, x p := by
  show Ideal.hostReduceAdd reducesTo_S256x256_S_d0_1 x (Ideal.ofBits .f32 0x00000000#32) k = _
  rw [Ideal.hostReduceAdd_total reducesTo_S256x256_S_d0_1 (fun b => b.elim0) x _ k, Ideal.ofBits_zero_f32, zero_add]

/-- The mean magnitude of a 256 × 256 array, clamped below at 1e-8, as the host operations compute it. -/
def betaArr (W : FVec Ideal S256x256 .f32) : FVec Ideal S_ .f32 :=
  maximumf (Host.divf (Host.reduceAdd (Host.absf W) (constant S_ .f32 0x00000000#32) reducesTo_S256x256_S_d0_1 h_S_)
    (constant S_ .f32 0x47800000#32)) (constant S_ .f32 0x322BCC77#32)

theorem betaArr_apply (W : FVec Ideal S256x256 .f32) (k : S_.Idx) : betaArr W k = Net.beta W := by
  show max (Ideal.div (Host.reduceAdd (F := Ideal) (Host.absf W) (constant S_ .f32 0x00000000#32) reducesTo_S256x256_S_d0_1 h_S_ k)
    (Ideal.ofBits .f32 0x47800000#32)) (Ideal.ofBits .f32 0x322BCC77#32) = _
  rw [total_apply]
  rfl

/-- The signs of a 256 × 256 array about its mean, as the host operations compute them (output-major): the entry
    less the mean compared with zero selects +1 or -1. -/
def sgnArr (W : FVec Ideal S256x256 .f32) : FVec Ideal S256x256 .f32 :=
  select
    (cmpf .ogt
      (subf W (broadcastInDim S256x256 ![] bcast_S_S256x256
        (Host.divf (Host.reduceAdd W (constant S_ .f32 0x00000000#32) reducesTo_S256x256_S_d0_1 h_S_) (constant S_ .f32 0x47800000#32))))
      (broadcastInDim S256x256 ![] bcast_S_S256x256 (constant S_ .f32 0x00000000#32)))
    (broadcastInDim S256x256 ![] bcast_S_S256x256 (constant S_ .f32 0x3F800000#32))
    (broadcastInDim S256x256 ![] bcast_S_S256x256 (constant S_ .f32 0xBF800000#32))

theorem sgnArr_apply (W : FVec Ideal S256x256 .f32) (o k : Fin 256) : sgnArr W (ix2 o k) = Net.sgn W o k := by
  show Scalar.select (Ideal.cmp .ogt (W (ix2 o k)
      - Ideal.div (Host.reduceAdd (F := Ideal) W (constant S_ .f32 0x00000000#32) reducesTo_S256x256_S_d0_1 h_S_ _) (Ideal.ofBits .f32 0x47800000#32))
      (Ideal.ofBits .f32 0x00000000#32)) (Ideal.ofBits .f32 0x3F800000#32) (Ideal.ofBits .f32 0xBF800000#32) = _
  rw [total_apply, Ideal.ofBits_zero_f32]
  rfl

/-! ## The three values the next region takes -/

/-- The sign matrix, input-major: the transpose reads the output-major signs at the swapped index; the two
    conversions change nothing at the extended reals. -/
theorem wT_eq : (after Wi (Proc.devRef .tc main_v16) : Net.SW.Idx → EReal) = Net.sgnT (Wi (Proc.devRef .tc main_arg1)) := by
  show StableHlo.after hostOps1_2 (StableHlo.after hostOps1_1 (StableHlo.after hostOps1 Wi)) (Proc.devRef .tc main_v16) = _
  after_results_simp
  funext p
  show transpose S256x256 [1, 0] (sgnArr (Wi (Proc.devRef .tc main_arg1))) transposes_S256x256_S256x256_1_0 p = _
  rw [transpose_apply [1, 0] _ transposes_S256x256_S256x256_1_0 p (ix2 (p 1) (p 0)) (fun b => match b with
    | ⟨0, _⟩ => rfl
    | ⟨1, _⟩ => rfl)]
  exact sgnArr_apply _ _ _

/-- The quantisation scale: 127 over the previous region's maximum clamped below at 1e-8. -/
theorem sq_eq : (after Wi (Proc.devRef .tc main_v18) : Net.S11.Idx → EReal) (ix2 0 0)
    = Ideal.div Net.c127 (max ((Wi (Proc.devRef .tc main_v0) : Net.S11.Idx → EReal) (ix2 0 0)) Net.cTiny) := by
  show StableHlo.after hostOps1_2 (StableHlo.after hostOps1_1 (StableHlo.after hostOps1 Wi)) (Proc.devRef .tc main_v18) (ix2 0 0) = _
  after_results_simp
  rfl

/-- The output scale: mean |W| (at least 1e-8) times the clamped maximum, over 127. -/
theorem so_eq : (after Wi (Proc.devRef .tc main_v22) : Net.S11.Idx → EReal) (ix2 0 0)
    = Ideal.div (Net.beta (Wi (Proc.devRef .tc main_arg1)) * (max ((Wi (Proc.devRef .tc main_v0) : Net.S11.Idx → EReal) (ix2 0 0)) Net.cTiny : EReal)) Net.c127 := by
  show StableHlo.after hostOps1_2 (StableHlo.after hostOps1_1 (StableHlo.after hostOps1 Wi)) (Proc.devRef .tc main_v22) (ix2 0 0) = _
  after_results_simp
  show Ideal.div (betaArr (Wi (Proc.devRef .tc main_arg1)) _
      * (max ((Wi (Proc.devRef .tc main_v0) : Net.S11.Idx → EReal) (ix2 0 0)) (Ideal.ofBits .f32 0x322BCC77#32) : EReal))
      (Ideal.ofBits .f32 0x42FE0000#32) = _
  rw [betaArr_apply]
  rfl

end Cert.KernelIdeal.Host1

end
-- ==== Proof.KAbsMax2.lean ====
/-
  The third region (the running maximum of |xn| over the 32 row blocks of its input), read as a value.
  At the first grid point the (1,1) output block is reset to 0; at every point it becomes the maximum of what it held
  and the block's largest |xn|.  The block's index never moves and it is written back after the last point, so the
  (1,1) array ends at the maximum of 0 and every |xn| of the input array, whatever the region found in its buffers.
-/
import proofs.«131569_j14456859918944_1_alg».proof.Proof.Gen.KernelIdeal.Frame
import proofs.«131569_j14456859918944_1_alg».proof.Proof.NetSpec
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

noncomputable section

namespace Cert.KernelIdeal.AbsMax2

open Idealize.ShloMosaic Idealize.ShloMosaic.TcCoe Idealize.ShloMosaic.ValueIdx Idealize.SL.Sem
open Idealize.ShloMosaic.Pipeline (Dat)
open Cert.KernelIdeal Cert.KernelIdeal.Gen

/-! ## What each control case leaves in the output block, for any float values -/

section Pieces
variable {F : FTy → Type} [FloatOps F]

theorem hz : (![0, 0] : Fin 2 → Nat) = fun _ => 0 := funext fun a => by fin_cases a <;> rfl

/-- At a point other than the first the body stores once: the update of what the block held by the input block. -/
theorem out_B (c : Dev nD) (i : grid2.Coords) (a1 : Memref sig .tc .vmem S4096x256 .f32) (h1 : a1.IsWhole)
    (a2 : Memref sig .tc .vmem S1x1 .f32) (h2 : a2.IsWhole) (hc : ¬cond2_0 i) (x : Vec F S4096x256 .f32) (xo : Vec F S1x1 .f32) :
    out2_B_1 c i a1 h1 a2 h2 hc x xo = k2_pay2 x xo := by
  unfold out2_B_1
  rw [View.read_writes_eq_canon _ _ _ (cover2_B_1 c i a1 h1 a2 h2 hc x xo)]
  unfold kernelRun2_B
  dsimp only
  rw [View.canon_unit_zero hz]
  simp only [View.readAt_eq_ld, h1.read_unread, h2.read_unread, View.ld_unit_zero (S := S4096x256) hz,
    View.ld_unit_zero (S := S1x1) hz, shapeCast_self]

/-- At the first point the body stores the zero block, reads it back and stores the update of it by the input block. -/
theorem out_A (c : Dev nD) (i : grid2.Coords) (a1 : Memref sig .tc .vmem S4096x256 .f32) (h1 : a1.IsWhole)
    (a2 : Memref sig .tc .vmem S1x1 .f32) (h2 : a2.IsWhole) (hc : cond2_0 i) (x : Vec F S4096x256 .f32) :
    out2_A_1 c i a1 h1 a2 h2 hc x = k2_pay2 x (k2_pay1 (F := F)) := by
  unfold out2_A_1
  rw [View.read_writes_eq_canon _ _ _ (cover2_A_1 c i a1 h1 a2 h2 hc x)]
  unfold kernelRun2_A
  dsimp only
  sl_unfold_words
  rw [View.canon_cons_unit_zero (S := S1x1) hz, View.readCov_unit_zero (S := S1x1) _ hz]
  simp only [View.readAt_eq_ld, h1.read_unread, View.ld_unit_zero (S := S4096x256) hz, shapeCast_self]

end Pieces

/-! ## The keepdims layout forms read at an index -/

section Layout
variable {α : Type}

/-- An `[a]` array cast to the column `[a, 1]` reads, at `(i, u)`, the operand at `i`, whatever the unit coordinate. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Layout

/-! ## The body's reductions read at an index, on the extended reals -/

section Reductions

/-- The word of minus infinity denotes the least extended real. -/
theorem ofBits_neg_inf : Ideal.ofBits .f32 0xFF800000#32 = (⊥ : EReal) := by
  simp [Ideal.ofBits, Ideal.ieee]

/-- The word of zero denotes zero. -/
theorem ofBits_zero : Ideal.ofBits .f32 0x00000000#32 = (0 : EReal) := by
  simp [Ideal.ofBits, Ideal.ieee]

/-- A fold of `max` from the least element is the supremum. -/
theorem fold_max_bot {ι : Type} (s : Finset ι) (f : ι → EReal) : s.fold max ⊥ f = s.sup f := by
  classical
  refine Finset.induction_on s ?_ fun a s ha ih => ?_
  · rw [Finset.fold_empty, Finset.sup_empty]
  · rw [Finset.fold_insert ha, Finset.sup_insert, ih]

/-- A lane sum kept as a column: at `(r, u)` the sum of row `r`. -/
theorem sumCol_apply (y : FVec Ideal S4096x256 .f32) (r : Fin 4096) (u : Fin 1) :
    shapeCast S4096x1 (multiReduction (F := Ideal) .add [1] S4096 y 0x00000000#32 reduces_S4096x256_S4096 (.inl rfl) rfl)
        shapeCasts_S4096_S4096x1 (ix2 r u)
      = ∑ k : Fin 256, y (ix2 r k) := by
  refine (shapeCast_a_a1_apply _ shapeCasts_S4096_S4096x1 r u).trans ?_
  refine (Ideal.multiReduction_add_single y 0x00000000#32 reduces_S4096x256_S4096 (.inl rfl) rfl (ix1 r)).trans ?_
  exact Finset.sum_congr rfl fun k _ => congrArg y (funext fun ax => by match ax with | ⟨0, _⟩ => rfl | ⟨1, _⟩ => rfl)

/-- A lane maximum kept as a column: at `(r, u)` the supremum of row `r`. -/
theorem maxCol_apply (y : FVec Ideal S4096x256 .f32) (r : Fin 4096) (u : Fin 1) :
    shapeCast S4096x1 (multiReduction (F := Ideal) .maximumf [1] S4096 y 0xFF800000#32 reduces_S4096x256_S4096 (.inl rfl) rfl)
        shapeCasts_S4096_S4096x1 (ix2 r u)
      = (Finset.univ : Finset (Fin 256)).sup fun k => y (ix2 r k) := by
  refine (shapeCast_a_a1_apply _ shapeCasts_S4096_S4096x1 r u).trans ?_
  refine (Ideal.multiReduction_maximumf_single y 0xFF800000#32 reduces_S4096x256_S4096 (.inl rfl) rfl (ix1 r)).trans ?_
  refine (congrArg (fun b => (Finset.univ : Finset (Fin 256)).fold max b _) ofBits_neg_inf).trans ?_
  refine (fold_max_bot _ _).trans ?_
  exact Finset.sup_congr rfl fun k _ => congrArg y (funext fun ax => by match ax with | ⟨0, _⟩ => rfl | ⟨1, _⟩ => rfl)

/-- The maximum down a column, kept as a `(1,1)` block: the supremum of the column. -/
theorem maxRows_apply (z : FVec Ideal S4096x1 .f32) (u v : Fin 1) :
    shapeCast S1x1 (multiReduction (F := Ideal) .maximumf [0] S1 z 0xFF800000#32 reduces_S4096x1_S1 (.inl rfl) rfl)
        shapeCasts_S1_S1x1 (ix2 u v)
      = (Finset.univ : Finset (Fin 4096)).sup fun r => z (ix2 r (0 : Fin 1)) := by
  refine (shapeCast_a_1a_apply _ shapeCasts_S1_S1x1 u v).trans ?_
  refine (Ideal.multiReduction_maximumf_single z 0xFF800000#32 reduces_S4096x1_S1 (.inl rfl) rfl (ix1 v)).trans ?_
  refine (congrArg (fun b => (Finset.univ : Finset (Fin 4096)).fold max b _) ofBits_neg_inf).trans ?_
  refine (fold_max_bot _ _).trans ?_
  exact Finset.sup_congr rfl fun r _ => congrArg z (funext fun ax => by
    match ax with
    | ⟨0, _⟩ => rfl
    | ⟨1, _⟩ => exact Fin.ext (by have := v.isLt; show v.val = 0; omega))

end Reductions

/-! ## The body's arithmetic at an index: a block's largest |xn| -/

section Payload

/-- Row `r` of a block. -/
def brow (x : FVec Ideal S4096x256 .f32) (r : Fin 4096) : Fin 256 → EReal := fun k => x (ix2 r k)

/-- The largest |xn| of a block: over its rows, over each row's entries. -/
def blockSup (x : FVec Ideal S4096x256 .f32) : EReal :=
  (Finset.univ : Finset (Fin 4096)).sup fun r => (Finset.univ : Finset (Fin 256)).sup fun k =>
    max (Net.rxn (brow x r) k) (-(Net.rxn (brow x r) k))

/-- The column of row sums divided by 256, as the body writes it. -/
abbrev meanCol (y : FVec Ideal S4096x256 .f32) : FVec Ideal S4096x1 .f32 :=
  divf (shapeCast S4096x1 (multiReduction (F := Ideal) .add [1] S4096 y 0x00000000#32 reduces_S4096x256_S4096 (.inl rfl) rfl)
      shapeCasts_S4096_S4096x1)
    (broadcast S4096x1 (FloatOps.ofBits .f32 0x43800000#32))

/-- The block less its rows' means. -/
abbrev cen (x : FVec Ideal S4096x256 .f32) : FVec Ideal S4096x256 .f32 :=
  subf x (broadcastTo S4096x256 (meanCol x) broadcasts_S4096x1_S4096x256)

/-- The column of row variances. -/
abbrev varCol (x : FVec Ideal S4096x256 .f32) : FVec Ideal S4096x1 .f32 := meanCol (mulf (cen x) (cen x))

/-- The normalised block. -/
abbrev xnBlock (x : FVec Ideal S4096x256 .f32) : FVec Ideal S4096x256 .f32 :=
  mulf (cen x) (broadcastTo S4096x256
    (rsqrt (addf (varCol x) (broadcast S4096x1 (FloatOps.ofBits .f32 0x3727C5AC#32)))) broadcasts_S4096x1_S4096x256)

theorem meanCol_apply (y : FVec Ideal S4096x256 .f32) (r : Fin 4096) (u : Fin 1) :
    meanCol y (ix2 r u) = Ideal.div (∑ k : Fin 256, y (ix2 r k)) Net.c256 :=
  congrArg (fun s => Ideal.div s Net.c256) (sumCol_apply y r u)

theorem cen_apply (x : FVec Ideal S4096x256 .f32) (r : Fin 4096) (k : Fin 256) :
    cen x (ix2 r k) = Net.rcen (brow x r) k :=
  congrArg (fun m => x (ix2 r k) - m) ((broadcastTo_a1_ab_apply _ _ r k).trans (meanCol_apply x r 0))

theorem varCol_apply (x : FVec Ideal S4096x256 .f32) (r : Fin 4096) (u : Fin 1) :
    varCol x (ix2 r u) = Net.rvar (brow x r) := by
  refine (meanCol_apply _ r u).trans ?_
  unfold Net.rvar
  refine congrArg (fun s => Ideal.div s Net.c256) (Finset.sum_congr rfl fun k _ => ?_)
  show cen x (ix2 r k) * cen x (ix2 r k) = _
  rw [cen_apply]

theorem xnBlock_apply (x : FVec Ideal S4096x256 .f32) (r : Fin 4096) (k : Fin 256) :
    xnBlock x (ix2 r k) = Net.rxn (brow x r) k := by
  show cen x (ix2 r k) * broadcastTo S4096x256
      (rsqrt (addf (varCol x) (broadcast S4096x1 (FloatOps.ofBits .f32 0x3727C5AC#32)))) broadcasts_S4096x1_S4096x256 (ix2 r k)
    = Net.rcen (brow x r) k * Ideal.rsqrt (Net.rvar (brow x r) + Net.cEps)
  rw [cen_apply]
  refine congrArg (fun m => Net.rcen (brow x r) k * m) ?_
  refine (broadcastTo_a1_ab_apply _ _ r k).trans ?_
  show Ideal.rsqrt (varCol x (ix2 r 0) + Net.cEps) = _
  rw [varCol_apply]

/-- The zero block the reset stores. -/
theorem pay1_apply (j : S1x1.Idx) : k2_pay1 (F := Ideal) j = 0 := ofBits_zero

/-- The update: the maximum of what the block held and the input block's largest |xn| (the body first casts the
    loaded block to its own shape, which changes nothing). -/
theorem pay2_apply (x : FVec Ideal S4096x256 .f32) (p : FVec Ideal S1x1 .f32) (u v : Fin 1) :
    k2_pay2 (F := Ideal) x p (ix2 u v) = max (p (ix2 u v)) (blockSup x) := by
  unfold k2_pay2
  show max (shapeCast S1x1 p shapeCasts_S1x1_S1x1 (ix2 u v))
      (shapeCast S1x1 (multiReduction (F := Ideal) .maximumf [0] S1
        (shapeCast S4096x1 (multiReduction (F := Ideal) .maximumf [1] S4096 (absf (xnBlock (shapeCast S4096x256 x shapeCasts_S4096x256_S4096x256))) 0xFF800000#32
          reduces_S4096x256_S4096 (.inl rfl) rfl) shapeCasts_S4096_S4096x1)
        0xFF800000#32 reduces_S4096x1_S1 (.inl rfl) rfl) shapeCasts_S1_S1x1 (ix2 u v)) = _
  rw [shapeCast_self x shapeCasts_S4096x256_S4096x256]
  refine congrArg₂ max (congrFun (shapeCast_self p _) _) ?_
  refine (maxRows_apply _ u v).trans ?_
  unfold blockSup
  refine Finset.sup_congr rfl fun r _ => ?_
  refine (maxCol_apply _ r 0).trans ?_
  refine Finset.sup_congr rfl fun k _ => ?_
  show max (xnBlock x (ix2 r k)) (-(xnBlock x (ix2 r k))) = _
  rw [xnBlock_apply]

end Payload

/-! ## The blocks of the input array, and the running maximum over the grid -/

section Blocks
variable (V : (c : Dev nD) → (b : Ref sig .tc) → Buf (Elt Ideal) ((c : Thread nD τ).loc b))

/-- The input array as the region finds it, and its block at a point, at their literal types. -/
abbrev xarr (c : Dev nD) : FVec Ideal S131072x256 .f32 := V c (Pipeline.arrRef spec2 0)
abbrev xblk (c : Dev nD) (t : Fin cfg2.N) : FVec Ideal S4096x256 .f32 := iblk2 V c 0 t

/-- The input window's block index at point `t` is `(t, 0)`. -/
theorem idx0 : ∀ t : Fin cfg2.N, win2_0.index t 0 = t.val ∧ win2_0.index t 1 = 0 :=
  (by decide +kernel : ∀ t : Fin grid2.N, win2_0.index t 0 = t.val ∧ win2_0.index t 1 = 0)

/-- Row `r` of the block at point `t` is row `4096 t + r` of the array. -/
theorem xblk_apply (c : Dev nD) (t : Fin cfg2.N) (r : Fin 4096) (k : Fin 256) (h : 4096 * t.val + r.val < 131072) :
    xblk V c t (ix2 r k) = xarr V c (ix2 ⟨4096 * t.val + r.val, h⟩ k) := by
  have hi := idx0 t
  show iblk2 V c 0 t (ix2 r k) = V c (Pipeline.arrRef spec2 0) _
  unfold iblk2
  rw [View.read_apply]
  show V c (Pipeline.arrRef spec2 0) _ = V c (Pipeline.arrRef spec2 0) _
  congr 1
  funext a
  apply Fin.ext
  match a with
  | ⟨0, _⟩ => show win2_0.index t 0 * 4096 + 1 * r.val = 4096 * t.val + r.val; rw [hi.1]; omega
  | ⟨1, _⟩ => show win2_0.index t 1 * 256 + 1 * k.val = k.val; rw [hi.2]; omega

theorem brow_eq (c : Dev nD) (t : Fin cfg2.N) (r : Fin 4096) (i : Fin 131072) (hi : i.val = 4096 * t.val + r.val) :
    brow (xblk V c t) r = Net.row (xarr V c) i := by
  funext k
  show xblk V c t (ix2 r k) = xarr V c (ix2 i k)
  rw [xblk_apply V c t r k (hi ▸ i.isLt)]
  exact congrArg (fun q => xarr V c (ix2 q k)) (Fin.ext hi.symm)

/-- The running maximum after point `n`: 0, then each block's largest |xn| in turn. -/
def runMax (c : Dev nD) : (n : ℕ) → n < cfg2.N → EReal
  | 0, h => max 0 (blockSup (xblk V c ⟨0, h⟩))
  | n + 1, h => max (runMax c n (Nat.lt_of_succ_lt h)) (blockSup (xblk V c ⟨n + 1, h⟩))

end Blocks

/-! ## The output block after each point is the running maximum -/

section Induction
variable (V : (c : Dev nD) → (b : Ref sig .tc) → Buf (Elt Ideal) ((c : Thread nD τ).loc b))

theorem outsAt_eq (c : Dev nD) : ∀ (n : ℕ) (h : n < cfg2.N), outsAt2 V c n h = fun _ => runMax V c n h
  | 0, h => by
    refine (outsAt2_A V c ⟨0, h⟩ rfl).trans ?_
    refine (out_A (F := Ideal) c (grid2.coords ⟨0, h⟩) (ms2_0 ⟨0, h⟩) (hs2_0 ⟨0, h⟩) (ms2_1 ⟨0, h⟩) (hs2_1 ⟨0, h⟩)
      ((hcond2_0 ⟨0, h⟩).mpr rfl) (xblk V c ⟨0, h⟩)).trans ?_
    funext j
    obtain ⟨u, v, rfl⟩ : ∃ u v : Fin 1, j = ix2 u v := ⟨j 0, j 1, eq_ix2 j⟩
    refine (pay2_apply (xblk V c ⟨0, h⟩) (k2_pay1 (F := Ideal)) u v).trans ?_
    rw [pay1_apply, runMax]
  | n + 1, h => by
    have hN : cfg2.N = 32 := N_2
    have hB : ¬(⟨n + 1, h⟩ : Fin cfg2.N).val % 32 = 0 := by dsimp only; omega
    refine (outsAt2_B V c ⟨n + 1, h⟩ hB).trans ?_
    refine (out_B (F := Ideal) c (grid2.coords ⟨n + 1, h⟩) (ms2_0 ⟨n + 1, h⟩) (hs2_0 ⟨n + 1, h⟩) (ms2_1 ⟨n + 1, h⟩) (hs2_1 ⟨n + 1, h⟩)
      (fun hh => hB ((hcond2_0 ⟨n + 1, h⟩).mp hh)) (xblk V c ⟨n + 1, h⟩) (outsAt2 V c n (Nat.lt_of_succ_lt h))).trans ?_
    funext j
    obtain ⟨u, v, rfl⟩ : ∃ u v : Fin 1, j = ix2 u v := ⟨j 0, j 1, eq_ix2 j⟩
    refine (pay2_apply (xblk V c ⟨n + 1, h⟩) (outsAt2 V c n (Nat.lt_of_succ_lt h)) u v).trans ?_
    rw [outsAt_eq c n (Nat.lt_of_succ_lt h), runMax]

end Induction

/-! ## The running maximum after the last point is the maximum of 0 and the array's largest |xn| -/

section Total
variable (V : (c : Dev nD) → (b : Ref sig .tc) → Buf (Elt Ideal) ((c : Thread nD τ).loc b))

/-- A block's largest |xn| is at most the array's: every block entry is an array entry. -/
theorem blockSup_le_amax (c : Dev nD) (t : Fin cfg2.N) : blockSup (xblk V c t) ≤ Net.amax (xarr V c) := by
  have hN : t.val < 32 := lt_of_lt_of_eq t.isLt (show cfg2.N = 32 from N_2)
  unfold blockSup
  refine Finset.sup_le fun r _ => Finset.sup_le fun k _ => ?_
  have hi : 4096 * t.val + r.val < 131072 := by have := r.isLt; omega
  rw [brow_eq V c t r ⟨4096 * t.val + r.val, hi⟩ rfl]
  exact Finset.le_sup (f := Net.absxn (xarr V c)) (Finset.mem_univ (ix2 (⟨4096 * t.val + r.val, hi⟩ : Fin 131072) k))

/-- The running maximum never falls below 0, -/
theorem zero_le_runMax (c : Dev nD) : ∀ (n : ℕ) (h : n < cfg2.N), 0 ≤ runMax V c n h
  | 0, h => by rw [runMax]; exact le_max_left _ _
  | n + 1, h => by rw [runMax]; exact le_trans (zero_le_runMax c n (Nat.lt_of_succ_lt h)) (le_max_left _ _)

/-- holds every earlier block's largest |xn|, -/
theorem blockSup_le_runMax (c : Dev nD) : ∀ (n : ℕ) (h : n < cfg2.N) (t : ℕ) (ht : t ≤ n),
    blockSup (xblk V c ⟨t, lt_of_le_of_lt ht h⟩) ≤ runMax V c n h
  | 0, h, t, ht => by
    obtain rfl : t = 0 := Nat.le_zero.mp ht
    rw [runMax]; exact le_max_right _ _
  | n + 1, h, t, ht => by
    rw [runMax]
    rcases Nat.lt_or_ge t (n + 1) with hlt | hge
    · exact le_trans (blockSup_le_runMax c n (Nat.lt_of_succ_lt h) t (Nat.le_of_lt_succ hlt)) (le_max_left _ _)
    · obtain rfl : t = n + 1 := le_antisymm ht hge
      exact le_max_right _ _

/-- and never exceeds the maximum of 0 and the array's largest |xn|. -/
theorem runMax_le (c : Dev nD) : ∀ (n : ℕ) (h : n < cfg2.N), runMax V c n h ≤ max 0 (Net.amax (xarr V c))
  | 0, h => by
    rw [runMax]; exact max_le_max le_rfl (blockSup_le_amax V c ⟨0, h⟩)
  | n + 1, h => by
    rw [runMax]
    exact max_le (runMax_le c n (Nat.lt_of_succ_lt h)) (le_trans (blockSup_le_amax V c ⟨n + 1, h⟩) (le_max_right _ _))

/-- Every array entry lies in a block: row `i` is row `i % 4096` of block `i / 4096`. -/
theorem amax_le_runMax (c : Dev nD) (h31 : 31 < cfg2.N) : Net.amax (xarr V c) ≤ runMax V c 31 h31 := by
  unfold Net.amax
  refine Finset.sup_le fun p _ => ?_
  obtain ⟨i, j, rfl⟩ : ∃ (i : Fin 131072) (j : Fin 256), p = ix2 i j := ⟨p 0, p 1, eq_ix2 p⟩
  have ht : i.val / 4096 ≤ 31 := by have := i.isLt; omega
  have hr : i.val % 4096 < 4096 := Nat.mod_lt _ (by decide)
  refine le_trans ?_ (blockSup_le_runMax V c 31 h31 (i.val / 4096) ht)
  show max (Net.rxn (Net.row (xarr V c) i) j) (-(Net.rxn (Net.row (xarr V c) i) j)) ≤ _
  rw [← brow_eq V c ⟨i.val / 4096, lt_of_le_of_lt ht h31⟩ ⟨i.val % 4096, hr⟩ i
    (by show i.val = 4096 * (i.val / 4096) + i.val % 4096; omega)]
  unfold blockSup
  exact Finset.le_sup_of_le (Finset.mem_univ (⟨i.val % 4096, hr⟩ : Fin 4096)) (Finset.le_sup_of_le (Finset.mem_univ j) le_rfl)

theorem runMax_last (c : Dev nD) (h31 : 31 < cfg2.N) : runMax V c 31 h31 = max 0 (Net.amax (xarr V c)) :=
  le_antisymm (runMax_le V c 31 h31) (max_le (zero_le_runMax V c 31 h31) (amax_le_runMax V c h31))

end Total

/-! ## The one write-back -/

variable (V : (c : Dev nD) → (b : Ref sig .tc) → Buf (Elt Ideal) ((c : Thread nD τ).loc b))

/-- The result: every entry of the (1,1) array at the maximum of 0 and the input array's largest |xn|. -/
abbrev resultBlk (c : Dev nD) : FVec Ideal S1x1 .f32 := fun _ => max 0 (Net.amax (xarr V c))
abbrev result (c : Dev nD) : Buf (Elt Ideal) ((cfg2.win 1).arr.view.loc (c.tc : Thread nD τ)) := resultBlk V c

/-- At a point that writes back — the last — the output block holds the result. -/
theorem outsAt_last (c : Dev nD) (t : Fin cfg2.N) (ht : t.val % 32 = 31) :
    outsAt2 V c t.val t.isLt = resultBlk V c := by
  obtain ⟨n, hn⟩ := t
  have h32 : n < 32 := lt_of_lt_of_eq hn (show cfg2.N = 32 from N_2)
  obtain rfl : n = 31 := by dsimp only at ht; omega
  rw [outsAt_eq, runMax_last]

/-- What a write-back writes is the result read through its block: a constant read through any block is that constant. -/
theorem flushed_eq (c : Dev nD) (t : Fin cfg2.N) (hf : (cfg2.win 1).flush t = true) :
    (dat2 (F := Ideal) V c).flushed 1 t = ((cfg2.win 1).blk t).view.read (Elt Ideal) (result V c) := by
  show (cfg2.win 1).cut (grid2.coords t) ((dat2 (F := Ideal) V c).after 1 t) = _
  rw [after2_1, outsAt_last V c t ((flush2_1 t).mp hf)]
  funext y
  rfl

/-- The (1,1) array has one index. -/
theorem idx11_eq (i j : S1x1.Idx) : i = j :=
  Shape.idx_ext₂ (by have := idx2_lt0 i; have := idx2_lt0 j; omega) (by have := idx2_lt1 i; have := idx2_lt1 j; omega)

/-- The last point. -/
abbrev tLast : Fin cfg2.N := ⟨31, by rw [show cfg2.N = 32 from N_2]; decide⟩

/-- So the (1,1) array ends holding the result: the last point writes back, and its block, holding some index of a
    one-index array, holds every index. -/
theorem final_eq (c : Dev nD) : (dat2 (F := Ideal) V c).arrAt 1 cfg2.N = result V c :=
  (dat2 (F := Ideal) V c).arrAt_eq_of_cover 1 (result V c) (flushed_eq V c) fun i =>
    ⟨tLast, (flush2_1 tLast).mpr rfl, by
      have hy := View.emb_mem_set ((cfg2.win 1).blk tLast).view (ix2 (0 : Fin 1) (0 : Fin 1))
      exact (idx11_eq (((cfg2.win 1).blk tLast).view.emb (ix2 (0 : Fin 1) (0 : Fin 1))) i) ▸ hy⟩

/-- The (1,1) output array after the region: the maximum of 0 and the largest |xn| of the input array. -/
theorem final (c : Dev nD) :
    (dat2 (F := Ideal) V c).arrAt 1 cfg2.N = fun _ => max 0 (Net.amax (V c (Pipeline.arrRef spec2 0))) :=
  final_eq V c

end Cert.KernelIdeal.AbsMax2

end
-- ==== Proof.KQuant3.lean ====
/-
  The fourth region of the program: the second layer's quantised product.  Each row of the incoming array is
  normalised (mean off, divided by the root of variance plus 1e-5), scaled by the quantisation scale, clipped to
  [-127, 127] and rounded to an integer; the rounded rows are contracted with the sign matrix, the result is scaled by
  the output scale, and the positive part is kept.  A point of the grid does this for 4096 consecutive rows, and a
  row's result depends on that row alone, so the 32 blocks written back make up exactly the layer's product of the
  four operand arrays, index by index.
-/
import proofs.«131569_j14456859918944_1_alg».proof.Proof.Gen.KernelIdeal.Frame
import proofs.«131569_j14456859918944_1_alg».proof.Proof.NetSpec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Quant3

open Idealize.ShloMosaic Idealize.ShloMosaic.TcCoe Idealize.ShloMosaic.ValueIdx Idealize.SL.Sem
open Idealize.ShloMosaic.Pipeline (Dat)
open Cert.KernelIdeal Cert.KernelIdeal.Gen

variable (V : (c : Dev nD) → (b : Ref sig .tc) → Buf (Elt Ideal) ((c : Thread nD τ).loc b))

/-! ## The body's arithmetic, read at an index

The body works on a block x of 4096 rows of 256 entries, the one-entry blocks s and q, and the 256 × 256 block w.
Every step but three acts entry by entry; the three are the sum along a row, the broadcast of a per-row number
along its row, and the matrix product. -/

/-- The zero offsets of a whole-block access. -/
theorem hz : (![0, 0] : Fin 2 → Nat) = fun _ => 0 := funext fun a => by fin_cases a <;> rfl

/-- The sum along the second axis, at row r, is the sum of the row's 256 entries. -/
theorem rowsum_apply (v : FVec Ideal S4096x256 .f32) (h : S4096x256.Reduces [1] S4096) (hφ : FKind.Formats .f32)
    (hacc : (0x00000000#32 : BitVec 32) = FKind.add.neutral .f32 hφ) (r : Fin 4096) :
    multiReduction .add [1] S4096 v 0x00000000#32 h hφ hacc (ix1 r) = ∑ k : Fin 256, v (ix2 r k) := by
  refine (Ideal.multiReduction_add_single v 0x00000000#32 h hφ hacc (ix1 r)).trans ?_
  exact Finset.sum_congr rfl fun k _ => congrArg v (funext fun a => Fin.ext (match a with | ⟨0, _⟩ => rfl | ⟨1, _⟩ => rfl))

/-- A vector of 4096 numbers viewed as a column: entry (r, 0) is entry r. -/
theorem col_apply (u : FVec Ideal S4096 .f32) (h : S4096.ShapeCasts S4096x1) (r : Fin 4096) (z : Fin 1) :
    shapeCast S4096x1 u h (ix2 r z) = u (ix1 r) := by
  refine shapeCast_apply u h (ix2 r z) (ix1 r) ?_
  rw [Shape.rowMajor_val_one, Shape.rowMajor_val_two]
  show r.val = r.val * 1 + z.val
  omega

/-- A column broadcast along the rows: entry (r, o) is the column's entry (r, 0). -/
theorem bcol_apply (u : FVec Ideal S4096x1 .f32) (h : S4096x1.Broadcasts S4096x256) (r : Fin 4096) (o : Fin 256) :
    broadcastTo S4096x256 u h (ix2 r o) = u (ix2 r (0 : Fin 1)) := by
  refine broadcastTo_apply u h (ix2 r o) (ix2 r (0 : Fin 1)) fun ax => ?_
  match ax with
  | ⟨0, _⟩ => rfl
  | ⟨1, _⟩ => rfl

/-- The one entry of a (1,1) block. -/
theorem one_apply (u : FVec Ideal S1x1 .f32) (h : ∀ a, (![0, 0] : Fin 2 → Nat) a < S1x1.size a) :
    extractAt ![0, 0] u h = u (ix2 0 0) :=
  congrArg u (funext fun a => Fin.ext (match a with | ⟨0, _⟩ => rfl | ⟨1, _⟩ => rfl))

/-- The per-row mean of a block, as a column: the row sums divided by 256. -/
def meanCol (v : FVec Ideal S4096x256 .f32) : FVec Ideal S4096x1 .f32 :=
  divf (shapeCast S4096x1 (multiReduction .add [1] S4096 v 0x00000000#32 Facts₀.reduces_S4096x256_S4096 (.inl rfl) rfl) Facts₀.shapeCasts_S4096_S4096x1)
    (broadcast S4096x1 (Scalar.ofBits .f32 0x43800000#32))

theorem meanCol_apply (v : FVec Ideal S4096x256 .f32) (r : Fin 4096) (z : Fin 1) :
    meanCol v (ix2 r z) = Ideal.div (∑ k : Fin 256, v (ix2 r k)) Net.c256 := by
  unfold meanCol
  show Ideal.div (shapeCast S4096x1 _ _ (ix2 r z)) _ = _
  exact congrArg (fun y => Ideal.div y Net.c256) ((col_apply _ _ r z).trans (rowsum_apply v _ _ _ r))

/-- The block with each row's mean taken off. -/
def centred (x : FVec Ideal S4096x256 .f32) : FVec Ideal S4096x256 .f32 :=
  subf x (broadcastTo S4096x256 (meanCol x) Facts₀.broadcasts_S4096x1_S4096x256)

theorem centred_apply (x : FVec Ideal S4096x256 .f32) (r : Fin 4096) (k : Fin 256) :
    centred x (ix2 r k) = Net.rcen (fun k' => x (ix2 r k')) k := by
  unfold centred
  show x (ix2 r k) - broadcastTo S4096x256 _ _ (ix2 r k) = _
  rw [bcol_apply, meanCol_apply]
  rfl

/-- The normalised block: centred, times the reciprocal square root of the row's variance plus 1e-5. -/
def normed (x : FVec Ideal S4096x256 .f32) : FVec Ideal S4096x256 .f32 :=
  mulf (centred x) (broadcastTo S4096x256
    (rsqrt (addf (meanCol (mulf (centred x) (centred x))) (broadcast S4096x1 (Scalar.ofBits .f32 0x3727C5AC#32))))
    Facts₀.broadcasts_S4096x1_S4096x256)

theorem normed_apply (x : FVec Ideal S4096x256 .f32) (r : Fin 4096) (k : Fin 256) :
    normed x (ix2 r k) = Net.rxn (fun k' => x (ix2 r k')) k := by
  unfold normed
  show centred x (ix2 r k) * broadcastTo S4096x256 _ _ (ix2 r k) = _
  rw [bcol_apply]
  show centred x (ix2 r k) * Ideal.rsqrt (meanCol (mulf (centred x) (centred x)) (ix2 r 0) + _) = _
  rw [meanCol_apply, centred_apply]
  show _ * Ideal.rsqrt (Ideal.div (∑ k' : Fin 256, centred x (ix2 r k') * centred x (ix2 r k')) Net.c256 + _) = _
  simp only [centred_apply]
  rfl

/-! The matrix product: the contraction runs over the block's second axis and the matrix's first. -/

theorem lhs_mm_0 (i : S4096x256.Idx) (q : dot_S4096x256_S256x256_S4096x256_1_0_0_1_n_n.contr.Idx) :
    (dot_S4096x256_S256x256_S4096x256_1_0_0_1_n_n.lhsIdx i q 0).val = (i 0).val := by
  unfold DotDims.lhsIdx
  rw [dif_neg (show ¬(0 : Fin S4096x256.rank) ∈ dot_S4096x256_S256x256_S4096x256_1_0_0_1_n_n.lhsBatch by decide), dif_pos (show (0 : Fin S4096x256.rank) ∈ dot_S4096x256_S256x256_S4096x256_1_0_0_1_n_n.lhsNonContracting by decide)]
  rfl
theorem lhs_mm_1 (i : S4096x256.Idx) (q : dot_S4096x256_S256x256_S4096x256_1_0_0_1_n_n.contr.Idx) :
    (dot_S4096x256_S256x256_S4096x256_1_0_0_1_n_n.lhsIdx i q 1).val = (q ⟨0, by decide⟩).val :=
  dot_S4096x256_S256x256_S4096x256_1_0_0_1_n_n.lhsIdx_val_of_single rfl i q
theorem rhs_mm_0 (i : S4096x256.Idx) (q : dot_S4096x256_S256x256_S4096x256_1_0_0_1_n_n.contr.Idx) :
    (dot_S4096x256_S256x256_S4096x256_1_0_0_1_n_n.rhsIdx i q 0).val = (q ⟨0, by decide⟩).val :=
  dot_S4096x256_S256x256_S4096x256_1_0_0_1_n_n.rhsIdx_val_of_single rfl i q
theorem rhs_mm_1 (i : S4096x256.Idx) (q : dot_S4096x256_S256x256_S4096x256_1_0_0_1_n_n.contr.Idx) :
    (dot_S4096x256_S256x256_S4096x256_1_0_0_1_n_n.rhsIdx i q 1).val = (i 1).val := by
  unfold DotDims.rhsIdx
  rw [dif_neg (show ¬(1 : Fin S256x256.rank) ∈ dot_S4096x256_S256x256_S4096x256_1_0_0_1_n_n.rhsBatch by decide), dif_pos (show (1 : Fin S256x256.rank) ∈ dot_S4096x256_S256x256_S4096x256_1_0_0_1_n_n.rhsNonContracting by decide)]
  rfl

/-- The product into a zero accumulator, at (r, o): the sum over k of the left block's (r, k) times the matrix's (k, o). -/
theorem mm_apply (l : FVec Ideal S4096x256 .bf16) (w : FVec Ideal S256x256 .bf16) (r : Fin 4096) (o : Fin 256) :
    matmul dot_S4096x256_S256x256_S4096x256_1_0_0_1_n_n none l w (constant S4096x256 .f32 0x00000000#32) (ix2 r o)
      = ∑ k : Fin 256, l (ix2 r k) * w (ix2 k o) := by
  simp only [matmul]
  rw [Ideal.matmul_constant_zero_apply, ← Equiv.sum_comp (ValueIdx.contrEquiv1 dot_S4096x256_S256x256_S4096x256_1_0_0_1_n_n 256 rfl rfl).symm]
  refine Finset.sum_congr rfl fun k _ => ?_
  have hk := ValueIdx.contrEquiv1_symm_val dot_S4096x256_S256x256_S4096x256_1_0_0_1_n_n 256 rfl rfl k
  have el : dot_S4096x256_S256x256_S4096x256_1_0_0_1_n_n.lhsIdx (ix2 r o) ((ValueIdx.contrEquiv1 dot_S4096x256_S256x256_S4096x256_1_0_0_1_n_n 256 rfl rfl).symm k) = ix2 r k := funext fun a => Fin.ext (by
    match a with
    | ⟨0, _⟩ => exact lhs_mm_0 _ _
    | ⟨1, _⟩ => exact (lhs_mm_1 _ _).trans hk)
  have er : dot_S4096x256_S256x256_S4096x256_1_0_0_1_n_n.rhsIdx (ix2 r o) ((ValueIdx.contrEquiv1 dot_S4096x256_S256x256_S4096x256_1_0_0_1_n_n 256 rfl rfl).symm k) = ix2 k o := funext fun a => Fin.ext (by
    match a with
    | ⟨0, _⟩ => exact (rhs_mm_0 _ _).trans hk
    | ⟨1, _⟩ => exact rhs_mm_1 _ _)
  rw [el, er]

/-! The whole body. -/

/-- The quantised block: the normalised block times the first scale, clipped to [-127, 127], rounded to the nearest
    integer (ties to even); the change of format is the identity on the extended reals. -/
def quantised (x : FVec Ideal S4096x256 .f32) (s : FVec Ideal S1x1 .f32) : FVec Ideal S4096x256 .bf16 :=
  truncf .bf16 (roundeven (minimumf (broadcast S4096x256 (Scalar.ofBits .f32 0x42FE0000#32))
    (maximumf (broadcast S4096x256 (Scalar.ofBits .f32 0xC2FE0000#32))
      (mulf (normed x) (broadcast S4096x256 (extractAt ![0, 0] s Facts₀.inpos_S1x1_p0_0)))))) Facts₀.bitsLt_bf16_f32

theorem quantised_apply (x : FVec Ideal S4096x256 .f32) (s : FVec Ideal S1x1 .f32) (r : Fin 4096) (k : Fin 256) :
    quantised x s (ix2 r k) = Net.quant (s (ix2 0 0)) (Net.rxn (fun k' => x (ix2 r k')) k) := by
  unfold quantised
  show Ideal.liftRound Ideal.roundHalfEven (min Net.c127 (max Net.cN127 (normed x (ix2 r k) * extractAt ![0, 0] s _))) = _
  rw [normed_apply, one_apply]
  rfl

/-- What the body computes before the positive part: the quantised block times the matrix, times the second scale. -/
def scaledProduct (x : FVec Ideal S4096x256 .f32) (s : FVec Ideal S1x1 .f32) (w : FVec Ideal S256x256 .bf16) (q : FVec Ideal S1x1 .f32) :
    FVec Ideal S4096x256 .f32 :=
  mulf (matmul dot_S4096x256_S256x256_S4096x256_1_0_0_1_n_n none (quantised x s)
      (shapeCast S256x256 w Facts₀.shapeCasts_S256x256_S256x256) (constant S4096x256 .f32 0x00000000#32))
    (broadcast S4096x256 (extractAt ![0, 0] q Facts₀.inpos_S1x1_p0_0))

theorem scaledProduct_apply (x : FVec Ideal S4096x256 .f32) (s : FVec Ideal S1x1 .f32) (w : FVec Ideal S256x256 .bf16) (q : FVec Ideal S1x1 .f32)
    (r : Fin 4096) (o : Fin 256) :
    scaledProduct x s w q (ix2 r o)
      = (∑ k : Fin 256, Net.quant (s (ix2 0 0)) (Net.rxn (fun k' => x (ix2 r k')) k) * w (ix2 k o)) * q (ix2 0 0) := by
  unfold scaledProduct
  show matmul _ none _ _ _ (ix2 r o) * extractAt ![0, 0] q _ = _
  rw [shapeCast_self, mm_apply, one_apply]
  simp only [quantised_apply]

/-- The positive part, entry by entry: the larger of the entry and zero. -/
theorem positive_apply (y : FVec Ideal S4096x256 .f32) (p : S4096x256.Idx) :
    maximumf y (broadcast S4096x256 (Scalar.ofBits .f32 0x00000000#32)) p = max (y p) 0 := by
  show max (y p) (Ideal.ofBits .f32 0x00000000#32) = _
  rw [Ideal.ofBits_zero_f32]

/-- The body's stored value is the positive part of that product of the rows' block (which the body first recasts to
    its own shape: the identity). -/
theorem pay_eq (x : FVec Ideal S4096x256 .f32) (s : FVec Ideal S1x1 .f32) (w : FVec Ideal S256x256 .bf16) (q : FVec Ideal S1x1 .f32) :
    k3_pay1 (F := Ideal) x s w q
      = maximumf (scaledProduct (shapeCast S4096x256 x Facts₀.shapeCasts_S4096x256_S4096x256) s w q)
          (broadcast S4096x256 (Scalar.ofBits .f32 0x00000000#32)) := rfl

/-- The body's stored value at (r, o). -/
theorem pay_apply (x : FVec Ideal S4096x256 .f32) (s : FVec Ideal S1x1 .f32) (w : FVec Ideal S256x256 .bf16) (q : FVec Ideal S1x1 .f32)
    (r : Fin 4096) (o : Fin 256) :
    k3_pay1 (F := Ideal) x s w q (ix2 r o)
      = max ((∑ k : Fin 256, Net.quant (s (ix2 0 0)) (Net.rxn (fun k' => x (ix2 r k')) k) * w (ix2 k o)) * q (ix2 0 0)) 0 := by
  rw [pay_eq, shapeCast_self, positive_apply, scaledProduct_apply]

/-! ## From the blocks to the array

Point t of the grid reads rows 4096·t … 4096·t + 4095 of the rows' array, the whole matrix and the two one-entry
arrays, and writes rows 4096·t … 4096·t + 4095 of the output. -/

/-- A block whose row r is row i of the array X, against a block that is the matrix W and one-entry blocks holding
    sq and so: the body's value at (r, o) is the layer's product at (i, o). -/
theorem block_value (x : FVec Ideal S4096x256 .f32) (s : FVec Ideal S1x1 .f32) (w : FVec Ideal S256x256 .bf16) (q : FVec Ideal S1x1 .f32)
    (X : Net.SX.Idx → EReal) (W : Net.SW.Idx → EReal) (sq so : EReal) (r : Fin 4096) (o : Fin 256) (i : Fin 131072)
    (hx : ∀ k : Fin 256, x (ix2 r k) = X (ix2 i k)) (hw : ∀ k : Fin 256, w (ix2 k o) = W (ix2 k o))
    (hs : s (ix2 0 0) = sq) (hq : q (ix2 0 0) = so) :
    k3_pay1 (F := Ideal) x s w q (ix2 r o) = Net.qmm true X W sq so (ix2 i o) := by
  rw [pay_apply, hs, hq]
  have hrow : (fun k' => x (ix2 r k')) = Net.row X i := funext hx
  rw [hrow]
  simp only [hw]
  rfl

/-- The printed index maps over the grid: the rows' window and the output's sit at block row t, the other three
    windows at their one block. -/
theorem idx_facts : ∀ t : Fin cfg3.N,
    win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = t.val ∧ win3_4.index t (1 : Fin 2) = 0 :=
  (by decide +kernel : ∀ t : Fin grid3.N, _)

set_option maxHeartbeats 2000000 in
/-- What point t writes back is block t of the layer's product of the four arrays as the region found them. -/
theorem flushed_eq (c : Dev nD) (t : Fin cfg3.N) :
    (dat3 (F := Ideal) V c).flushed 4 t = ((cfg3.win 4).blk t).view.read (Elt Ideal)
      (Net.qmm true (V c (Pipeline.arrRef spec3 0)) (V c (Pipeline.arrRef spec3 1))
        ((V c (Pipeline.arrRef spec3 2) : Net.S11.Idx → EReal) (ix2 0 0)) ((V c (Pipeline.arrRef spec3 3) : Net.S11.Idx → EReal) (ix2 0 0))) := by
  show (cfg3.win 4).cut (grid3.coords t) ((dat3 V c).after 4 t) = _
  rw [after3_4]
  unfold out3_4
  rw [View.canon_unit_zero hz]
  simp only [View.ld_unit_zero (S := S4096x256) hz, View.ld_unit_zero (S := S1x1) hz, View.ld_unit_zero (S := S256x256) hz]
  obtain ⟨e00, e01, e10, e11, e20, e21, e30, e31, e40, e41⟩ := idx_facts t
  have hN : cfg3.N = 32 := N_3
  have ht : t.val < 32 := hN ▸ t.isLt
  funext j
  obtain ⟨r, o, rfl⟩ : ∃ (r : Fin 4096) (o : Fin 256), j = ix2 r o := ⟨j 0, j 1, eq_ix2 j⟩
  refine (block_value (iblk3 V c 0 t) (iblk3 V c 2 t) (iblk3 V c 1 t) (iblk3 V c 3 t)
    (V c (Pipeline.arrRef spec3 0)) (V c (Pipeline.arrRef spec3 1))
    ((V c (Pipeline.arrRef spec3 2) : Net.S11.Idx → EReal) (ix2 0 0)) ((V c (Pipeline.arrRef spec3 3) : Net.S11.Idx → EReal) (ix2 0 0))
    r o ⟨t.val * 4096 + r.val, by omega⟩ ?_ ?_ ?_ ?_).trans ?_
  · intro k
    show V c (Pipeline.arrRef spec3 0) (((cfg3.win 0).blk t).view.emb (ix2 r k)) = _
    refine congrArg _ (funext fun a => Fin.ext ?_)
    match a with
    | ⟨0, _⟩ => show win3_0.index t (0 : Fin 2) * 4096 + 1 * r.val = t.val * 4096 + r.val; omega
    | ⟨1, _⟩ => show win3_0.index t (1 : Fin 2) * 256 + 1 * k.val = k.val; omega
  · intro k
    show V c (Pipeline.arrRef spec3 1) (((cfg3.win 1).blk t).view.emb (ix2 k o)) = _
    refine congrArg _ (funext fun a => Fin.ext ?_)
    match a with
    | ⟨0, _⟩ => show win3_1.index t (0 : Fin 2) * 256 + 1 * k.val = k.val; omega
    | ⟨1, _⟩ => show win3_1.index t (1 : Fin 2) * 256 + 1 * o.val = o.val; omega
  · show V c (Pipeline.arrRef spec3 2) (((cfg3.win 2).blk t).view.emb (ix2 0 0)) = _
    refine congrArg _ (funext fun a => Fin.ext ?_)
    match a with
    | ⟨0, _⟩ => show win3_2.index t (0 : Fin 2) * 1 + 1 * 0 = 0; omega
    | ⟨1, _⟩ => show win3_2.index t (1 : Fin 2) * 1 + 1 * 0 = 0; omega
  · show V c (Pipeline.arrRef spec3 3) (((cfg3.win 3).blk t).view.emb (ix2 0 0)) = _
    refine congrArg _ (funext fun a => Fin.ext ?_)
    match a with
    | ⟨0, _⟩ => show win3_3.index t (0 : Fin 2) * 1 + 1 * 0 = 0; omega
    | ⟨1, _⟩ => show win3_3.index t (1 : Fin 2) * 1 + 1 * 0 = 0; omega
  · refine congrArg _ (?_ : _ = ((cfg3.win 4).blk t).view.emb (ix2 r o))
    refine funext fun a => Fin.ext ?_
    match a with
    | ⟨0, _⟩ => show t.val * 4096 + r.val = win3_4.index t (0 : Fin 2) * 4096 + 1 * r.val; omega
    | ⟨1, _⟩ => show o.val = win3_4.index t (1 : Fin 2) * 256 + 1 * o.val; omega

/-- An index of the output array is in point t's block iff each coordinate is in the block's range on its axis. -/
theorem mem_blk (t : Fin cfg3.N) (i : S131072x256.Idx) :
    i ∈ ((cfg3.win 4).blk t).view.set ↔ ∀ a : Fin 2, win3_4.index t a * S4096x256.size a ≤ (i a).val ∧ (i a).val < win3_4.index t a * S4096x256.size a + S4096x256.size a := by
  show i ∈ ((View.whole (Pipeline.arrRef spec3 4)).slice (win3_4.rect t)).set ↔ _
  rw [View.set_slice_whole, Rect.mem_set_unit]
  exact Iff.rfl

/-- Row i of the output lies in the block of point i / 4096. -/
theorem cover (i : S131072x256.Idx) : ∃ t : Fin cfg3.N, (cfg3.win 4).flush t = true ∧ i ∈ ((cfg3.win 4).blk t).view.set := by
  have hN : cfg3.N = 32 := N_3
  have hi0 : (i 0).val < 131072 := (i 0).isLt
  have hi1 : (i 1).val < 256 := (i 1).isLt
  let t : Fin cfg3.N := ⟨(i 0).val / 4096, by rw [hN]; omega⟩
  have htv : t.val = (i 0).val / 4096 := rfl
  obtain ⟨-, -, -, -, -, -, -, -, e40, e41⟩ := idx_facts t
  refine ⟨t, flush3_4 t, ?_⟩
  rw [mem_blk]
  intro a
  match a with
  | ⟨0, _⟩ => show win3_4.index t (0 : Fin 2) * 4096 ≤ (i 0).val ∧ (i 0).val < win3_4.index t (0 : Fin 2) * 4096 + 4096; omega
  | ⟨1, _⟩ => show win3_4.index t (1 : Fin 2) * 256 ≤ (i 1).val ∧ (i 1).val < win3_4.index t (1 : Fin 2) * 256 + 256; omega

/-- The output array after the region, from the four operand arrays as the region found them: the rows, the sign
    matrix laid out input-major, the quantisation scale and the output scale (each a (1,1) array). -/
theorem final (c : Dev nD) :
    (dat3 (F := Ideal) V c).arrAt 4 cfg3.N
      = Net.qmm true (V c (Pipeline.arrRef spec3 0)) (V c (Pipeline.arrRef spec3 1))
          ((V c (Pipeline.arrRef spec3 2) : Net.S11.Idx → EReal) (ix2 0 0)) ((V c (Pipeline.arrRef spec3 3) : Net.S11.Idx → EReal) (ix2 0 0)) :=
  (dat3 (F := Ideal) V c).arrAt_eq_of_cover 4 _ (fun t _ => flushed_eq V c t) cover

end Cert.KernelIdeal.Quant3

end
-- ==== Proof.KHost3.lean ====
/-
  The host operations between the third and fourth regions, read as values of the buffers the second region takes:
  the sign matrix of the weight laid out input-major, 127 over the clamped maximum, and the weight's mean
  magnitude times the clamped maximum over 127; the arguments are not written.
-/
import proofs.«131569_j14456859918944_1_alg».proof.Proof.Gen.KernelIdeal.Launch
import proofs.«131569_j14456859918944_1_alg».proof.Proof.NetSpec
import Idealize.ShloMosaic.Lib.StableHlo.Run
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Host3

open Idealize.ShloMosaic Idealize.ShloMosaic.TcCoe Idealize.ShloMosaic.ValueIdx Idealize.SL.Sem
open Cert.KernelIdeal Cert.KernelIdeal.Gen

variable (Wi : Valuation τ sig (Elt Ideal))

/-- The buffers after the three stretches of host operations, from the buffers `Wi` before them. -/
abbrev after : Valuation τ sig (Elt Ideal) :=
  StableHlo.after hostOps3_2 (StableHlo.after hostOps3_1 (StableHlo.after hostOps3 Wi))

/-! ## What is not written

Each operation writes its one result reference; a reference that is none of these holds, after the three stretches,
what it held before them. -/

/-- Every reference the three stretches write, in order. -/
abbrev written : List (Ref sig .tc) :=
  [
   main_cst_10, main_v25, main_v26, main_cst_11, main_v27, main_cst_12, main_v28, main_v29, main_cst_13, main_v30, main_cst_14, main_v31, main_cst_15, main_v32, main_v33, main_v34, main_cst_16, main_v35, main_v36, main_cst_17, main_cst_18,
   main_call1_v0, main_call1_v1, main_v37,
   main_v38, main_v39, main_v40, main_cst_19, main_v41, main_v42, main_v43, main_v44, main_cst_20, main_v45, main_v46 ]

theorem writes0 : (hostOps3 : List (HloOp τ sig (Elt Ideal))).Forall fun op =>
    op.writes ⊆ (written.map (Proc.devRef (τ := τ) .tc)).toFinset := by
  simp only [hostOps3, List.Forall, StableHlo.nullary_writes, StableHlo.unary_writes, StableHlo.binary_writes,
    StableHlo.ternary_writes, Finset.singleton_subset_iff, List.mem_toFinset]
  repeat' apply And.intro
  all_goals exact List.mem_map_of_mem (by decide)

theorem writes1 : (hostOps3_1 : List (HloOp τ sig (Elt Ideal))).Forall fun op =>
    op.writes ⊆ (written.map (Proc.devRef (τ := τ) .tc)).toFinset := by
  simp only [hostOps3_1, List.Forall, StableHlo.nullary_writes, StableHlo.unary_writes, StableHlo.binary_writes,
    StableHlo.ternary_writes, Finset.singleton_subset_iff, List.mem_toFinset]
  repeat' apply And.intro
  all_goals exact List.mem_map_of_mem (by decide)

theorem writes2 : (hostOps3_2 : List (HloOp τ sig (Elt Ideal))).Forall fun op =>
    op.writes ⊆ (written.map (Proc.devRef (τ := τ) .tc)).toFinset := by
  simp only [hostOps3_2, List.Forall, StableHlo.nullary_writes, StableHlo.unary_writes, StableHlo.binary_writes,
    StableHlo.ternary_writes, Finset.singleton_subset_iff, List.mem_toFinset]
  repeat' apply And.intro
  all_goals exact List.mem_map_of_mem (by decide)

/-- A reference none of the three stretches writes holds what it held before them. -/
theorem kept {r : Ref sig .tc} (hr : r ∉ written) : after Wi (Proc.devRef .tc r) = Wi (Proc.devRef .tc r) := by
  show StableHlo.after hostOps3_2 (StableHlo.after hostOps3_1 (StableHlo.after hostOps3 Wi)) _ = _
  rw [StableHlo.after_of_writes_sub hostOps3_2 _ writes2 hr, StableHlo.after_of_writes_sub hostOps3_1 _ writes1 hr,
    StableHlo.after_of_writes_sub hostOps3 _ writes0 hr]

/-! ## The weight's statistics as the host operations compute them

The sum over both axes starts from the zero word, so it is the sum of all 65536 entries; the mean divides it by
65536. |w| is max(w, -w). -/

/-- The host's sum of a 256 × 256 array over both axes, started from the zero word: the sum of all its entries. -/
theorem total_apply (x : FVec Ideal S256x256 .f32) (k : S_.Idx) :
    Host.reduceAdd (F := Ideal) x (constant S_ .f32 0x00000000#32) reducesTo_S256x256_S_d0_1 h_S_ k = ∑ p : S256x256.Idx, x p := by
  show Ideal.hostReduceAdd reducesTo_S256x256_S_d0_1 x (Ideal.ofBits .f32 0x00000000#32) k = _
  rw [Ideal.hostReduceAdd_total reducesTo_S256x256_S_d0_1 (fun b => b.elim0) x _ k, Ideal.ofBits_zero_f32, zero_add]

/-- The mean magnitude of a 256 × 256 array, clamped below at 1e-8, as the host operations compute it. -/
def betaArr (W : FVec Ideal S256x256 .f32) : FVec Ideal S_ .f32 :=
  maximumf (Host.divf (Host.reduceAdd (Host.absf W) (constant S_ .f32 0x00000000#32) reducesTo_S256x256_S_d0_1 h_S_)
    (constant S_ .f32 0x47800000#32)) (constant S_ .f32 0x322BCC77#32)

theorem betaArr_apply (W : FVec Ideal S256x256 .f32) (k : S_.Idx) : betaArr W k = Net.beta W := by
  show max (Ideal.div (Host.reduceAdd (F := Ideal) (Host.absf W) (constant S_ .f32 0x00000000#32) reducesTo_S256x256_S_d0_1 h_S_ k)
    (Ideal.ofBits .f32 0x47800000#32)) (Ideal.ofBits .f32 0x322BCC77#32) = _
  rw [total_apply]
  rfl

/-- The signs of a 256 × 256 array about its mean, as the host operations compute them (output-major): the entry
    less the mean compared with zero selects +1 or -1. -/
def sgnArr (W : FVec Ideal S256x256 .f32) : FVec Ideal S256x256 .f32 :=
  select
    (cmpf .ogt
      (subf W (broadcastInDim S256x256 ![] bcast_S_S256x256
        (Host.divf (Host.reduceAdd W (constant S_ .f32 0x00000000#32) reducesTo_S256x256_S_d0_1 h_S_) (constant S_ .f32 0x47800000#32))))
      (broadcastInDim S256x256 ![] bcast_S_S256x256 (constant S_ .f32 0x00000000#32)))
    (broadcastInDim S256x256 ![] bcast_S_S256x256 (constant S_ .f32 0x3F800000#32))
    (broadcastInDim S256x256 ![] bcast_S_S256x256 (constant S_ .f32 0xBF800000#32))

theorem sgnArr_apply (W : FVec Ideal S256x256 .f32) (o k : Fin 256) : sgnArr W (ix2 o k) = Net.sgn W o k := by
  show Scalar.select (Ideal.cmp .ogt (W (ix2 o k)
      - Ideal.div (Host.reduceAdd (F := Ideal) W (constant S_ .f32 0x00000000#32) reducesTo_S256x256_S_d0_1 h_S_ _) (Ideal.ofBits .f32 0x47800000#32))
      (Ideal.ofBits .f32 0x00000000#32)) (Ideal.ofBits .f32 0x3F800000#32) (Ideal.ofBits .f32 0xBF800000#32) = _
  rw [total_apply, Ideal.ofBits_zero_f32]
  rfl

/-! ## The statements -/

theorem kept_arg0 : after Wi (Proc.devRef .tc main_arg0) = Wi (Proc.devRef .tc main_arg0) := by
  exact kept Wi (by decide)
theorem kept_arg1 : after Wi (Proc.devRef .tc main_arg1) = Wi (Proc.devRef .tc main_arg1) := by
  exact kept Wi (by decide)
theorem kept_arg2 : after Wi (Proc.devRef .tc main_arg2) = Wi (Proc.devRef .tc main_arg2) := by
  exact kept Wi (by decide)
theorem kept_arg3 : after Wi (Proc.devRef .tc main_arg3) = Wi (Proc.devRef .tc main_arg3) := by
  exact kept Wi (by decide)

theorem kept_x : after Wi (Proc.devRef .tc main_v23) = Wi (Proc.devRef .tc main_v23) := by
  exact kept Wi (by decide)

/-- The sign matrix, input-major. -/
theorem wT_eq : (after Wi (Proc.devRef .tc main_v40) : Net.SW.Idx → EReal) = Net.sgnT (Wi (Proc.devRef .tc main_arg2)) := by
  -- the transpose reads the output-major signs at the swapped index; the two conversions change nothing at the extended reals
  show StableHlo.after hostOps3_2 (StableHlo.after hostOps3_1 (StableHlo.after hostOps3 Wi)) (Proc.devRef .tc main_v40) = _
  after_results_simp
  funext p
  show transpose S256x256 [1, 0] (sgnArr (Wi (Proc.devRef .tc main_arg2))) transposes_S256x256_S256x256_1_0 p = _
  rw [transpose_apply [1, 0] _ transposes_S256x256_S256x256_1_0 p (ix2 (p 1) (p 0)) (fun b => match b with
    | ⟨0, _⟩ => rfl
    | ⟨1, _⟩ => rfl)]
  exact sgnArr_apply _ _ _

/-- The quantisation scale: 127 over the first region's maximum clamped below at 1e-8. -/
theorem sq_eq : (after Wi (Proc.devRef .tc main_v42) : Net.S11.Idx → EReal) (ix2 0 0)
    = Ideal.div Net.c127 (max ((Wi (Proc.devRef .tc main_v24) : Net.S11.Idx → EReal) (ix2 0 0)) Net.cTiny) := by
  show StableHlo.after hostOps3_2 (StableHlo.after hostOps3_1 (StableHlo.after hostOps3 Wi)) (Proc.devRef .tc main_v42) (ix2 0 0) = _
  after_results_simp
  rfl

/-- The output scale: mean |W| (at least 1e-8) times the clamped maximum, over 127. -/
theorem so_eq : (after Wi (Proc.devRef .tc main_v46) : Net.S11.Idx → EReal) (ix2 0 0)
    = Ideal.div (Net.beta (Wi (Proc.devRef .tc main_arg2)) * (max ((Wi (Proc.devRef .tc main_v24) : Net.S11.Idx → EReal) (ix2 0 0)) Net.cTiny : EReal)) Net.c127 := by
  show StableHlo.after hostOps3_2 (StableHlo.after hostOps3_1 (StableHlo.after hostOps3 Wi)) (Proc.devRef .tc main_v46) (ix2 0 0) = _
  after_results_simp
  show Ideal.div (betaArr (Wi (Proc.devRef .tc main_arg2)) _
      * (max ((Wi (Proc.devRef .tc main_v24) : Net.S11.Idx → EReal) (ix2 0 0)) (Ideal.ofBits .f32 0x322BCC77#32) : EReal))
      (Ideal.ofBits .f32 0x42FE0000#32) = _
  rw [betaArr_apply]
  rfl

end Cert.KernelIdeal.Host3

end
-- ==== Proof.KAbsMax4.lean ====
/-
  The fifth region (the running maximum of |xn| over the 32 row blocks of its input), read as a value.
  At the first grid point the (1,1) output block is reset to 0; at every point it becomes the maximum of what it held
  and the block's largest |xn|.  The block's index never moves and it is written back after the last point, so the
  (1,1) array ends at the maximum of 0 and every |xn| of the input array, whatever the region found in its buffers.
-/
import proofs.«131569_j14456859918944_1_alg».proof.Proof.Gen.KernelIdeal.Frame
import proofs.«131569_j14456859918944_1_alg».proof.Proof.NetSpec
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

noncomputable section

namespace Cert.KernelIdeal.AbsMax4

open Idealize.ShloMosaic Idealize.ShloMosaic.TcCoe Idealize.ShloMosaic.ValueIdx Idealize.SL.Sem
open Idealize.ShloMosaic.Pipeline (Dat)
open Cert.KernelIdeal Cert.KernelIdeal.Gen

/-! ## What each control case leaves in the output block, for any float values -/

section Pieces
variable {F : FTy → Type} [FloatOps F]

theorem hz : (![0, 0] : Fin 2 → Nat) = fun _ => 0 := funext fun a => by fin_cases a <;> rfl

/-- At a point other than the first the body stores once: the update of what the block held by the input block. -/
theorem out_B (c : Dev nD) (i : grid4.Coords) (a1 : Memref sig .tc .vmem S4096x256 .f32) (h1 : a1.IsWhole)
    (a2 : Memref sig .tc .vmem S1x1 .f32) (h2 : a2.IsWhole) (hc : ¬cond4_0 i) (x : Vec F S4096x256 .f32) (xo : Vec F S1x1 .f32) :
    out4_B_1 c i a1 h1 a2 h2 hc x xo = k4_pay2 x xo := by
  unfold out4_B_1
  rw [View.read_writes_eq_canon _ _ _ (cover4_B_1 c i a1 h1 a2 h2 hc x xo)]
  unfold kernelRun4_B
  dsimp only
  rw [View.canon_unit_zero hz]
  simp only [View.readAt_eq_ld, h1.read_unread, h2.read_unread, View.ld_unit_zero (S := S4096x256) hz,
    View.ld_unit_zero (S := S1x1) hz, shapeCast_self]

/-- At the first point the body stores the zero block, reads it back and stores the update of it by the input block. -/
theorem out_A (c : Dev nD) (i : grid4.Coords) (a1 : Memref sig .tc .vmem S4096x256 .f32) (h1 : a1.IsWhole)
    (a2 : Memref sig .tc .vmem S1x1 .f32) (h2 : a2.IsWhole) (hc : cond4_0 i) (x : Vec F S4096x256 .f32) :
    out4_A_1 c i a1 h1 a2 h2 hc x = k4_pay2 x (k4_pay1 (F := F)) := by
  unfold out4_A_1
  rw [View.read_writes_eq_canon _ _ _ (cover4_A_1 c i a1 h1 a2 h2 hc x)]
  unfold kernelRun4_A
  dsimp only
  sl_unfold_words
  rw [View.canon_cons_unit_zero (S := S1x1) hz, View.readCov_unit_zero (S := S1x1) _ hz]
  simp only [View.readAt_eq_ld, h1.read_unread, View.ld_unit_zero (S := S4096x256) hz, shapeCast_self]

end Pieces

/-! ## The keepdims layout forms read at an index -/

section Layout
variable {α : Type}

/-- An `[a]` array cast to the column `[a, 1]` reads, at `(i, u)`, the operand at `i`, whatever the unit coordinate. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Layout

/-! ## The body's reductions read at an index, on the extended reals -/

section Reductions

/-- The word of minus infinity denotes the least extended real. -/
theorem ofBits_neg_inf : Ideal.ofBits .f32 0xFF800000#32 = (⊥ : EReal) := by
  simp [Ideal.ofBits, Ideal.ieee]

/-- The word of zero denotes zero. -/
theorem ofBits_zero : Ideal.ofBits .f32 0x00000000#32 = (0 : EReal) := by
  simp [Ideal.ofBits, Ideal.ieee]

/-- A fold of `max` from the least element is the supremum. -/
theorem fold_max_bot {ι : Type} (s : Finset ι) (f : ι → EReal) : s.fold max ⊥ f = s.sup f := by
  classical
  refine Finset.induction_on s ?_ fun a s ha ih => ?_
  · rw [Finset.fold_empty, Finset.sup_empty]
  · rw [Finset.fold_insert ha, Finset.sup_insert, ih]

/-- A lane sum kept as a column: at `(r, u)` the sum of row `r`. -/
theorem sumCol_apply (y : FVec Ideal S4096x256 .f32) (r : Fin 4096) (u : Fin 1) :
    shapeCast S4096x1 (multiReduction (F := Ideal) .add [1] S4096 y 0x00000000#32 reduces_S4096x256_S4096 (.inl rfl) rfl)
        shapeCasts_S4096_S4096x1 (ix2 r u)
      = ∑ k : Fin 256, y (ix2 r k) := by
  refine (shapeCast_a_a1_apply _ shapeCasts_S4096_S4096x1 r u).trans ?_
  refine (Ideal.multiReduction_add_single y 0x00000000#32 reduces_S4096x256_S4096 (.inl rfl) rfl (ix1 r)).trans ?_
  exact Finset.sum_congr rfl fun k _ => congrArg y (funext fun ax => by match ax with | ⟨0, _⟩ => rfl | ⟨1, _⟩ => rfl)

/-- A lane maximum kept as a column: at `(r, u)` the supremum of row `r`. -/
theorem maxCol_apply (y : FVec Ideal S4096x256 .f32) (r : Fin 4096) (u : Fin 1) :
    shapeCast S4096x1 (multiReduction (F := Ideal) .maximumf [1] S4096 y 0xFF800000#32 reduces_S4096x256_S4096 (.inl rfl) rfl)
        shapeCasts_S4096_S4096x1 (ix2 r u)
      = (Finset.univ : Finset (Fin 256)).sup fun k => y (ix2 r k) := by
  refine (shapeCast_a_a1_apply _ shapeCasts_S4096_S4096x1 r u).trans ?_
  refine (Ideal.multiReduction_maximumf_single y 0xFF800000#32 reduces_S4096x256_S4096 (.inl rfl) rfl (ix1 r)).trans ?_
  refine (congrArg (fun b => (Finset.univ : Finset (Fin 256)).fold max b _) ofBits_neg_inf).trans ?_
  refine (fold_max_bot _ _).trans ?_
  exact Finset.sup_congr rfl fun k _ => congrArg y (funext fun ax => by match ax with | ⟨0, _⟩ => rfl | ⟨1, _⟩ => rfl)

/-- The maximum down a column, kept as a `(1,1)` block: the supremum of the column. -/
theorem maxRows_apply (z : FVec Ideal S4096x1 .f32) (u v : Fin 1) :
    shapeCast S1x1 (multiReduction (F := Ideal) .maximumf [0] S1 z 0xFF800000#32 reduces_S4096x1_S1 (.inl rfl) rfl)
        shapeCasts_S1_S1x1 (ix2 u v)
      = (Finset.univ : Finset (Fin 4096)).sup fun r => z (ix2 r (0 : Fin 1)) := by
  refine (shapeCast_a_1a_apply _ shapeCasts_S1_S1x1 u v).trans ?_
  refine (Ideal.multiReduction_maximumf_single z 0xFF800000#32 reduces_S4096x1_S1 (.inl rfl) rfl (ix1 v)).trans ?_
  refine (congrArg (fun b => (Finset.univ : Finset (Fin 4096)).fold max b _) ofBits_neg_inf).trans ?_
  refine (fold_max_bot _ _).trans ?_
  exact Finset.sup_congr rfl fun r _ => congrArg z (funext fun ax => by
    match ax with
    | ⟨0, _⟩ => rfl
    | ⟨1, _⟩ => exact Fin.ext (by have := v.isLt; show v.val = 0; omega))

end Reductions

/-! ## The body's arithmetic at an index: a block's largest |xn| -/

section Payload

/-- Row `r` of a block. -/
def brow (x : FVec Ideal S4096x256 .f32) (r : Fin 4096) : Fin 256 → EReal := fun k => x (ix2 r k)

/-- The largest |xn| of a block: over its rows, over each row's entries. -/
def blockSup (x : FVec Ideal S4096x256 .f32) : EReal :=
  (Finset.univ : Finset (Fin 4096)).sup fun r => (Finset.univ : Finset (Fin 256)).sup fun k =>
    max (Net.rxn (brow x r) k) (-(Net.rxn (brow x r) k))

/-- The column of row sums divided by 256, as the body writes it. -/
abbrev meanCol (y : FVec Ideal S4096x256 .f32) : FVec Ideal S4096x1 .f32 :=
  divf (shapeCast S4096x1 (multiReduction (F := Ideal) .add [1] S4096 y 0x00000000#32 reduces_S4096x256_S4096 (.inl rfl) rfl)
      shapeCasts_S4096_S4096x1)
    (broadcast S4096x1 (FloatOps.ofBits .f32 0x43800000#32))

/-- The block less its rows' means. -/
abbrev cen (x : FVec Ideal S4096x256 .f32) : FVec Ideal S4096x256 .f32 :=
  subf x (broadcastTo S4096x256 (meanCol x) broadcasts_S4096x1_S4096x256)

/-- The column of row variances. -/
abbrev varCol (x : FVec Ideal S4096x256 .f32) : FVec Ideal S4096x1 .f32 := meanCol (mulf (cen x) (cen x))

/-- The normalised block. -/
abbrev xnBlock (x : FVec Ideal S4096x256 .f32) : FVec Ideal S4096x256 .f32 :=
  mulf (cen x) (broadcastTo S4096x256
    (rsqrt (addf (varCol x) (broadcast S4096x1 (FloatOps.ofBits .f32 0x3727C5AC#32)))) broadcasts_S4096x1_S4096x256)

theorem meanCol_apply (y : FVec Ideal S4096x256 .f32) (r : Fin 4096) (u : Fin 1) :
    meanCol y (ix2 r u) = Ideal.div (∑ k : Fin 256, y (ix2 r k)) Net.c256 :=
  congrArg (fun s => Ideal.div s Net.c256) (sumCol_apply y r u)

theorem cen_apply (x : FVec Ideal S4096x256 .f32) (r : Fin 4096) (k : Fin 256) :
    cen x (ix2 r k) = Net.rcen (brow x r) k :=
  congrArg (fun m => x (ix2 r k) - m) ((broadcastTo_a1_ab_apply _ _ r k).trans (meanCol_apply x r 0))

theorem varCol_apply (x : FVec Ideal S4096x256 .f32) (r : Fin 4096) (u : Fin 1) :
    varCol x (ix2 r u) = Net.rvar (brow x r) := by
  refine (meanCol_apply _ r u).trans ?_
  unfold Net.rvar
  refine congrArg (fun s => Ideal.div s Net.c256) (Finset.sum_congr rfl fun k _ => ?_)
  show cen x (ix2 r k) * cen x (ix2 r k) = _
  rw [cen_apply]

theorem xnBlock_apply (x : FVec Ideal S4096x256 .f32) (r : Fin 4096) (k : Fin 256) :
    xnBlock x (ix2 r k) = Net.rxn (brow x r) k := by
  show cen x (ix2 r k) * broadcastTo S4096x256
      (rsqrt (addf (varCol x) (broadcast S4096x1 (FloatOps.ofBits .f32 0x3727C5AC#32)))) broadcasts_S4096x1_S4096x256 (ix2 r k)
    = Net.rcen (brow x r) k * Ideal.rsqrt (Net.rvar (brow x r) + Net.cEps)
  rw [cen_apply]
  refine congrArg (fun m => Net.rcen (brow x r) k * m) ?_
  refine (broadcastTo_a1_ab_apply _ _ r k).trans ?_
  show Ideal.rsqrt (varCol x (ix2 r 0) + Net.cEps) = _
  rw [varCol_apply]

/-- The zero block the reset stores. -/
theorem pay1_apply (j : S1x1.Idx) : k4_pay1 (F := Ideal) j = 0 := ofBits_zero

/-- The update: the maximum of what the block held and the input block's largest |xn| (the body first casts the
    loaded block to its own shape, which changes nothing). -/
theorem pay2_apply (x : FVec Ideal S4096x256 .f32) (p : FVec Ideal S1x1 .f32) (u v : Fin 1) :
    k4_pay2 (F := Ideal) x p (ix2 u v) = max (p (ix2 u v)) (blockSup x) := by
  unfold k4_pay2
  show max (shapeCast S1x1 p shapeCasts_S1x1_S1x1 (ix2 u v))
      (shapeCast S1x1 (multiReduction (F := Ideal) .maximumf [0] S1
        (shapeCast S4096x1 (multiReduction (F := Ideal) .maximumf [1] S4096 (absf (xnBlock (shapeCast S4096x256 x shapeCasts_S4096x256_S4096x256))) 0xFF800000#32
          reduces_S4096x256_S4096 (.inl rfl) rfl) shapeCasts_S4096_S4096x1)
        0xFF800000#32 reduces_S4096x1_S1 (.inl rfl) rfl) shapeCasts_S1_S1x1 (ix2 u v)) = _
  rw [shapeCast_self x shapeCasts_S4096x256_S4096x256]
  refine congrArg₂ max (congrFun (shapeCast_self p _) _) ?_
  refine (maxRows_apply _ u v).trans ?_
  unfold blockSup
  refine Finset.sup_congr rfl fun r _ => ?_
  refine (maxCol_apply _ r 0).trans ?_
  refine Finset.sup_congr rfl fun k _ => ?_
  show max (xnBlock x (ix2 r k)) (-(xnBlock x (ix2 r k))) = _
  rw [xnBlock_apply]

end Payload

/-! ## The blocks of the input array, and the running maximum over the grid -/

section Blocks
variable (V : (c : Dev nD) → (b : Ref sig .tc) → Buf (Elt Ideal) ((c : Thread nD τ).loc b))

/-- The input array as the region finds it, and its block at a point, at their literal types. -/
abbrev xarr (c : Dev nD) : FVec Ideal S131072x256 .f32 := V c (Pipeline.arrRef spec4 0)
abbrev xblk (c : Dev nD) (t : Fin cfg4.N) : FVec Ideal S4096x256 .f32 := iblk4 V c 0 t

/-- The input window's block index at point `t` is `(t, 0)`. -/
theorem idx0 : ∀ t : Fin cfg4.N, win4_0.index t 0 = t.val ∧ win4_0.index t 1 = 0 :=
  (by decide +kernel : ∀ t : Fin grid4.N, win4_0.index t 0 = t.val ∧ win4_0.index t 1 = 0)

/-- Row `r` of the block at point `t` is row `4096 t + r` of the array. -/
theorem xblk_apply (c : Dev nD) (t : Fin cfg4.N) (r : Fin 4096) (k : Fin 256) (h : 4096 * t.val + r.val < 131072) :
    xblk V c t (ix2 r k) = xarr V c (ix2 ⟨4096 * t.val + r.val, h⟩ k) := by
  have hi := idx0 t
  show iblk4 V c 0 t (ix2 r k) = V c (Pipeline.arrRef spec4 0) _
  unfold iblk4
  rw [View.read_apply]
  show V c (Pipeline.arrRef spec4 0) _ = V c (Pipeline.arrRef spec4 0) _
  congr 1
  funext a
  apply Fin.ext
  match a with
  | ⟨0, _⟩ => show win4_0.index t 0 * 4096 + 1 * r.val = 4096 * t.val + r.val; rw [hi.1]; omega
  | ⟨1, _⟩ => show win4_0.index t 1 * 256 + 1 * k.val = k.val; rw [hi.2]; omega

theorem brow_eq (c : Dev nD) (t : Fin cfg4.N) (r : Fin 4096) (i : Fin 131072) (hi : i.val = 4096 * t.val + r.val) :
    brow (xblk V c t) r = Net.row (xarr V c) i := by
  funext k
  show xblk V c t (ix2 r k) = xarr V c (ix2 i k)
  rw [xblk_apply V c t r k (hi ▸ i.isLt)]
  exact congrArg (fun q => xarr V c (ix2 q k)) (Fin.ext hi.symm)

/-- The running maximum after point `n`: 0, then each block's largest |xn| in turn. -/
def runMax (c : Dev nD) : (n : ℕ) → n < cfg4.N → EReal
  | 0, h => max 0 (blockSup (xblk V c ⟨0, h⟩))
  | n + 1, h => max (runMax c n (Nat.lt_of_succ_lt h)) (blockSup (xblk V c ⟨n + 1, h⟩))

end Blocks

/-! ## The output block after each point is the running maximum -/

section Induction
variable (V : (c : Dev nD) → (b : Ref sig .tc) → Buf (Elt Ideal) ((c : Thread nD τ).loc b))

theorem outsAt_eq (c : Dev nD) : ∀ (n : ℕ) (h : n < cfg4.N), outsAt4 V c n h = fun _ => runMax V c n h
  | 0, h => by
    refine (outsAt4_A V c ⟨0, h⟩ rfl).trans ?_
    refine (out_A (F := Ideal) c (grid4.coords ⟨0, h⟩) (ms4_0 ⟨0, h⟩) (hs4_0 ⟨0, h⟩) (ms4_1 ⟨0, h⟩) (hs4_1 ⟨0, h⟩)
      ((hcond4_0 ⟨0, h⟩).mpr rfl) (xblk V c ⟨0, h⟩)).trans ?_
    funext j
    obtain ⟨u, v, rfl⟩ : ∃ u v : Fin 1, j = ix2 u v := ⟨j 0, j 1, eq_ix2 j⟩
    refine (pay2_apply (xblk V c ⟨0, h⟩) (k4_pay1 (F := Ideal)) u v).trans ?_
    rw [pay1_apply, runMax]
  | n + 1, h => by
    have hN : cfg4.N = 32 := N_4
    have hB : ¬(⟨n + 1, h⟩ : Fin cfg4.N).val % 32 = 0 := by dsimp only; omega
    refine (outsAt4_B V c ⟨n + 1, h⟩ hB).trans ?_
    refine (out_B (F := Ideal) c (grid4.coords ⟨n + 1, h⟩) (ms4_0 ⟨n + 1, h⟩) (hs4_0 ⟨n + 1, h⟩) (ms4_1 ⟨n + 1, h⟩) (hs4_1 ⟨n + 1, h⟩)
      (fun hh => hB ((hcond4_0 ⟨n + 1, h⟩).mp hh)) (xblk V c ⟨n + 1, h⟩) (outsAt4 V c n (Nat.lt_of_succ_lt h))).trans ?_
    funext j
    obtain ⟨u, v, rfl⟩ : ∃ u v : Fin 1, j = ix2 u v := ⟨j 0, j 1, eq_ix2 j⟩
    refine (pay2_apply (xblk V c ⟨n + 1, h⟩) (outsAt4 V c n (Nat.lt_of_succ_lt h)) u v).trans ?_
    rw [outsAt_eq c n (Nat.lt_of_succ_lt h), runMax]

end Induction

/-! ## The running maximum after the last point is the maximum of 0 and the array's largest |xn| -/

section Total
variable (V : (c : Dev nD) → (b : Ref sig .tc) → Buf (Elt Ideal) ((c : Thread nD τ).loc b))

/-- A block's largest |xn| is at most the array's: every block entry is an array entry. -/
theorem blockSup_le_amax (c : Dev nD) (t : Fin cfg4.N) : blockSup (xblk V c t) ≤ Net.amax (xarr V c) := by
  have hN : t.val < 32 := lt_of_lt_of_eq t.isLt (show cfg4.N = 32 from N_4)
  unfold blockSup
  refine Finset.sup_le fun r _ => Finset.sup_le fun k _ => ?_
  have hi : 4096 * t.val + r.val < 131072 := by have := r.isLt; omega
  rw [brow_eq V c t r ⟨4096 * t.val + r.val, hi⟩ rfl]
  exact Finset.le_sup (f := Net.absxn (xarr V c)) (Finset.mem_univ (ix2 (⟨4096 * t.val + r.val, hi⟩ : Fin 131072) k))

/-- The running maximum never falls below 0, -/
theorem zero_le_runMax (c : Dev nD) : ∀ (n : ℕ) (h : n < cfg4.N), 0 ≤ runMax V c n h
  | 0, h => by rw [runMax]; exact le_max_left _ _
  | n + 1, h => by rw [runMax]; exact le_trans (zero_le_runMax c n (Nat.lt_of_succ_lt h)) (le_max_left _ _)

/-- holds every earlier block's largest |xn|, -/
theorem blockSup_le_runMax (c : Dev nD) : ∀ (n : ℕ) (h : n < cfg4.N) (t : ℕ) (ht : t ≤ n),
    blockSup (xblk V c ⟨t, lt_of_le_of_lt ht h⟩) ≤ runMax V c n h
  | 0, h, t, ht => by
    obtain rfl : t = 0 := Nat.le_zero.mp ht
    rw [runMax]; exact le_max_right _ _
  | n + 1, h, t, ht => by
    rw [runMax]
    rcases Nat.lt_or_ge t (n + 1) with hlt | hge
    · exact le_trans (blockSup_le_runMax c n (Nat.lt_of_succ_lt h) t (Nat.le_of_lt_succ hlt)) (le_max_left _ _)
    · obtain rfl : t = n + 1 := le_antisymm ht hge
      exact le_max_right _ _

/-- and never exceeds the maximum of 0 and the array's largest |xn|. -/
theorem runMax_le (c : Dev nD) : ∀ (n : ℕ) (h : n < cfg4.N), runMax V c n h ≤ max 0 (Net.amax (xarr V c))
  | 0, h => by
    rw [runMax]; exact max_le_max le_rfl (blockSup_le_amax V c ⟨0, h⟩)
  | n + 1, h => by
    rw [runMax]
    exact max_le (runMax_le c n (Nat.lt_of_succ_lt h)) (le_trans (blockSup_le_amax V c ⟨n + 1, h⟩) (le_max_right _ _))

/-- Every array entry lies in a block: row `i` is row `i % 4096` of block `i / 4096`. -/
theorem amax_le_runMax (c : Dev nD) (h31 : 31 < cfg4.N) : Net.amax (xarr V c) ≤ runMax V c 31 h31 := by
  unfold Net.amax
  refine Finset.sup_le fun p _ => ?_
  obtain ⟨i, j, rfl⟩ : ∃ (i : Fin 131072) (j : Fin 256), p = ix2 i j := ⟨p 0, p 1, eq_ix2 p⟩
  have ht : i.val / 4096 ≤ 31 := by have := i.isLt; omega
  have hr : i.val % 4096 < 4096 := Nat.mod_lt _ (by decide)
  refine le_trans ?_ (blockSup_le_runMax V c 31 h31 (i.val / 4096) ht)
  show max (Net.rxn (Net.row (xarr V c) i) j) (-(Net.rxn (Net.row (xarr V c) i) j)) ≤ _
  rw [← brow_eq V c ⟨i.val / 4096, lt_of_le_of_lt ht h31⟩ ⟨i.val % 4096, hr⟩ i
    (by show i.val = 4096 * (i.val / 4096) + i.val % 4096; omega)]
  unfold blockSup
  exact Finset.le_sup_of_le (Finset.mem_univ (⟨i.val % 4096, hr⟩ : Fin 4096)) (Finset.le_sup_of_le (Finset.mem_univ j) le_rfl)

theorem runMax_last (c : Dev nD) (h31 : 31 < cfg4.N) : runMax V c 31 h31 = max 0 (Net.amax (xarr V c)) :=
  le_antisymm (runMax_le V c 31 h31) (max_le (zero_le_runMax V c 31 h31) (amax_le_runMax V c h31))

end Total

/-! ## The one write-back -/

variable (V : (c : Dev nD) → (b : Ref sig .tc) → Buf (Elt Ideal) ((c : Thread nD τ).loc b))

/-- The result: every entry of the (1,1) array at the maximum of 0 and the input array's largest |xn|. -/
abbrev resultBlk (c : Dev nD) : FVec Ideal S1x1 .f32 := fun _ => max 0 (Net.amax (xarr V c))
abbrev result (c : Dev nD) : Buf (Elt Ideal) ((cfg4.win 1).arr.view.loc (c.tc : Thread nD τ)) := resultBlk V c

/-- At a point that writes back — the last — the output block holds the result. -/
theorem outsAt_last (c : Dev nD) (t : Fin cfg4.N) (ht : t.val % 32 = 31) :
    outsAt4 V c t.val t.isLt = resultBlk V c := by
  obtain ⟨n, hn⟩ := t
  have h32 : n < 32 := lt_of_lt_of_eq hn (show cfg4.N = 32 from N_4)
  obtain rfl : n = 31 := by dsimp only at ht; omega
  rw [outsAt_eq, runMax_last]

/-- What a write-back writes is the result read through its block: a constant read through any block is that constant. -/
theorem flushed_eq (c : Dev nD) (t : Fin cfg4.N) (hf : (cfg4.win 1).flush t = true) :
    (dat4 (F := Ideal) V c).flushed 1 t = ((cfg4.win 1).blk t).view.read (Elt Ideal) (result V c) := by
  show (cfg4.win 1).cut (grid4.coords t) ((dat4 (F := Ideal) V c).after 1 t) = _
  rw [after4_1, outsAt_last V c t ((flush4_1 t).mp hf)]
  funext y
  rfl

/-- The (1,1) array has one index. -/
theorem idx11_eq (i j : S1x1.Idx) : i = j :=
  Shape.idx_ext₂ (by have := idx2_lt0 i; have := idx2_lt0 j; omega) (by have := idx2_lt1 i; have := idx2_lt1 j; omega)

/-- The last point. -/
abbrev tLast : Fin cfg4.N := ⟨31, by rw [show cfg4.N = 32 from N_4]; decide⟩

/-- So the (1,1) array ends holding the result: the last point writes back, and its block, holding some index of a
    one-index array, holds every index. -/
theorem final_eq (c : Dev nD) : (dat4 (F := Ideal) V c).arrAt 1 cfg4.N = result V c :=
  (dat4 (F := Ideal) V c).arrAt_eq_of_cover 1 (result V c) (flushed_eq V c) fun i =>
    ⟨tLast, (flush4_1 tLast).mpr rfl, by
      have hy := View.emb_mem_set ((cfg4.win 1).blk tLast).view (ix2 (0 : Fin 1) (0 : Fin 1))
      exact (idx11_eq (((cfg4.win 1).blk tLast).view.emb (ix2 (0 : Fin 1) (0 : Fin 1))) i) ▸ hy⟩

/-- The (1,1) output array after the region: the maximum of 0 and the largest |xn| of the input array. -/
theorem final (c : Dev nD) :
    (dat4 (F := Ideal) V c).arrAt 1 cfg4.N = fun _ => max 0 (Net.amax (V c (Pipeline.arrRef spec4 0))) :=
  final_eq V c

end Cert.KernelIdeal.AbsMax4

end
-- ==== Proof.KQuant5.lean ====
/-
  The sixth region (quantise the normalised rows, contract with the sign matrix, rescale; no positive part on the last layer), read as a
  value: block t of the output is a function of block t of the input rows alone, the blocks tile the array, so the
  output array ends at the layer's quantised product of the region's four operand arrays.
-/
import proofs.«131569_j14456859918944_1_alg».proof.Proof.Gen.KernelIdeal.Frame
import proofs.«131569_j14456859918944_1_alg».proof.Proof.NetSpec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Quant5

open Idealize.ShloMosaic Idealize.ShloMosaic.TcCoe Idealize.ShloMosaic.ValueIdx Idealize.SL.Sem
open Idealize.ShloMosaic.Pipeline (Dat)
open Cert.KernelIdeal Cert.KernelIdeal.Gen

variable (V : (c : Dev nD) → (b : Ref sig .tc) → Buf (Elt Ideal) ((c : Thread nD τ).loc b))

/-! ## The body's arithmetic, read at an index

The body works on a block x of 4096 rows of 256 entries, the one-entry blocks s and q, and the 256 × 256 block w.
Every step but three acts entry by entry; the three are the sum along a row, the broadcast of a per-row number
along its row, and the matrix product. -/

/-- The zero offsets of a whole-block access. -/
theorem hz : (![0, 0] : Fin 2 → Nat) = fun _ => 0 := funext fun a => by fin_cases a <;> rfl

/-- The sum along the second axis, at row r, is the sum of the row's 256 entries. -/
theorem rowsum_apply (v : FVec Ideal S4096x256 .f32) (h : S4096x256.Reduces [1] S4096) (hφ : FKind.Formats .f32)
    (hacc : (0x00000000#32 : BitVec 32) = FKind.add.neutral .f32 hφ) (r : Fin 4096) :
    multiReduction .add [1] S4096 v 0x00000000#32 h hφ hacc (ix1 r) = ∑ k : Fin 256, v (ix2 r k) := by
  refine (Ideal.multiReduction_add_single v 0x00000000#32 h hφ hacc (ix1 r)).trans ?_
  exact Finset.sum_congr rfl fun k _ => congrArg v (funext fun a => Fin.ext (match a with | ⟨0, _⟩ => rfl | ⟨1, _⟩ => rfl))

/-- A vector of 4096 numbers viewed as a column: entry (r, 0) is entry r. -/
theorem col_apply (u : FVec Ideal S4096 .f32) (h : S4096.ShapeCasts S4096x1) (r : Fin 4096) (z : Fin 1) :
    shapeCast S4096x1 u h (ix2 r z) = u (ix1 r) := by
  refine shapeCast_apply u h (ix2 r z) (ix1 r) ?_
  rw [Shape.rowMajor_val_one, Shape.rowMajor_val_two]
  show r.val = r.val * 1 + z.val
  omega

/-- A column broadcast along the rows: entry (r, o) is the column's entry (r, 0). -/
theorem bcol_apply (u : FVec Ideal S4096x1 .f32) (h : S4096x1.Broadcasts S4096x256) (r : Fin 4096) (o : Fin 256) :
    broadcastTo S4096x256 u h (ix2 r o) = u (ix2 r (0 : Fin 1)) := by
  refine broadcastTo_apply u h (ix2 r o) (ix2 r (0 : Fin 1)) fun ax => ?_
  match ax with
  | ⟨0, _⟩ => rfl
  | ⟨1, _⟩ => rfl

/-- The one entry of a (1,1) block. -/
theorem one_apply (u : FVec Ideal S1x1 .f32) (h : ∀ a, (![0, 0] : Fin 2 → Nat) a < S1x1.size a) :
    extractAt ![0, 0] u h = u (ix2 0 0) :=
  congrArg u (funext fun a => Fin.ext (match a with | ⟨0, _⟩ => rfl | ⟨1, _⟩ => rfl))

/-- The per-row mean of a block, as a column: the row sums divided by 256. -/
def meanCol (v : FVec Ideal S4096x256 .f32) : FVec Ideal S4096x1 .f32 :=
  divf (shapeCast S4096x1 (multiReduction .add [1] S4096 v 0x00000000#32 Facts₀.reduces_S4096x256_S4096 (.inl rfl) rfl) Facts₀.shapeCasts_S4096_S4096x1)
    (broadcast S4096x1 (Scalar.ofBits .f32 0x43800000#32))

theorem meanCol_apply (v : FVec Ideal S4096x256 .f32) (r : Fin 4096) (z : Fin 1) :
    meanCol v (ix2 r z) = Ideal.div (∑ k : Fin 256, v (ix2 r k)) Net.c256 := by
  unfold meanCol
  show Ideal.div (shapeCast S4096x1 _ _ (ix2 r z)) _ = _
  exact congrArg (fun y => Ideal.div y Net.c256) ((col_apply _ _ r z).trans (rowsum_apply v _ _ _ r))

/-- The block with each row's mean taken off. -/
def centred (x : FVec Ideal S4096x256 .f32) : FVec Ideal S4096x256 .f32 :=
  subf x (broadcastTo S4096x256 (meanCol x) Facts₀.broadcasts_S4096x1_S4096x256)

theorem centred_apply (x : FVec Ideal S4096x256 .f32) (r : Fin 4096) (k : Fin 256) :
    centred x (ix2 r k) = Net.rcen (fun k' => x (ix2 r k')) k := by
  unfold centred
  show x (ix2 r k) - broadcastTo S4096x256 _ _ (ix2 r k) = _
  rw [bcol_apply, meanCol_apply]
  rfl

/-- The normalised block: centred, times the reciprocal square root of the row's variance plus 1e-5. -/
def normed (x : FVec Ideal S4096x256 .f32) : FVec Ideal S4096x256 .f32 :=
  mulf (centred x) (broadcastTo S4096x256
    (rsqrt (addf (meanCol (mulf (centred x) (centred x))) (broadcast S4096x1 (Scalar.ofBits .f32 0x3727C5AC#32))))
    Facts₀.broadcasts_S4096x1_S4096x256)

theorem normed_apply (x : FVec Ideal S4096x256 .f32) (r : Fin 4096) (k : Fin 256) :
    normed x (ix2 r k) = Net.rxn (fun k' => x (ix2 r k')) k := by
  unfold normed
  show centred x (ix2 r k) * broadcastTo S4096x256 _ _ (ix2 r k) = _
  rw [bcol_apply]
  show centred x (ix2 r k) * Ideal.rsqrt (meanCol (mulf (centred x) (centred x)) (ix2 r 0) + _) = _
  rw [meanCol_apply, centred_apply]
  show _ * Ideal.rsqrt (Ideal.div (∑ k' : Fin 256, centred x (ix2 r k') * centred x (ix2 r k')) Net.c256 + _) = _
  simp only [centred_apply]
  rfl

/-! The matrix product: the contraction runs over the block's second axis and the matrix's first. -/

theorem lhs_mm_0 (i : S4096x256.Idx) (q : dot_S4096x256_S256x256_S4096x256_1_0_0_1_n_n.contr.Idx) :
    (dot_S4096x256_S256x256_S4096x256_1_0_0_1_n_n.lhsIdx i q 0).val = (i 0).val := by
  unfold DotDims.lhsIdx
  rw [dif_neg (show ¬(0 : Fin S4096x256.rank) ∈ dot_S4096x256_S256x256_S4096x256_1_0_0_1_n_n.lhsBatch by decide), dif_pos (show (0 : Fin S4096x256.rank) ∈ dot_S4096x256_S256x256_S4096x256_1_0_0_1_n_n.lhsNonContracting by decide)]
  rfl
theorem lhs_mm_1 (i : S4096x256.Idx) (q : dot_S4096x256_S256x256_S4096x256_1_0_0_1_n_n.contr.Idx) :
    (dot_S4096x256_S256x256_S4096x256_1_0_0_1_n_n.lhsIdx i q 1).val = (q ⟨0, by decide⟩).val :=
  dot_S4096x256_S256x256_S4096x256_1_0_0_1_n_n.lhsIdx_val_of_single rfl i q
theorem rhs_mm_0 (i : S4096x256.Idx) (q : dot_S4096x256_S256x256_S4096x256_1_0_0_1_n_n.contr.Idx) :
    (dot_S4096x256_S256x256_S4096x256_1_0_0_1_n_n.rhsIdx i q 0).val = (q ⟨0, by decide⟩).val :=
  dot_S4096x256_S256x256_S4096x256_1_0_0_1_n_n.rhsIdx_val_of_single rfl i q
theorem rhs_mm_1 (i : S4096x256.Idx) (q : dot_S4096x256_S256x256_S4096x256_1_0_0_1_n_n.contr.Idx) :
    (dot_S4096x256_S256x256_S4096x256_1_0_0_1_n_n.rhsIdx i q 1).val = (i 1).val := by
  unfold DotDims.rhsIdx
  rw [dif_neg (show ¬(1 : Fin S256x256.rank) ∈ dot_S4096x256_S256x256_S4096x256_1_0_0_1_n_n.rhsBatch by decide), dif_pos (show (1 : Fin S256x256.rank) ∈ dot_S4096x256_S256x256_S4096x256_1_0_0_1_n_n.rhsNonContracting by decide)]
  rfl

/-- The product into a zero accumulator, at (r, o): the sum over k of the left block's (r, k) times the matrix's (k, o). -/
theorem mm_apply (l : FVec Ideal S4096x256 .bf16) (w : FVec Ideal S256x256 .bf16) (r : Fin 4096) (o : Fin 256) :
    matmul dot_S4096x256_S256x256_S4096x256_1_0_0_1_n_n none l w (constant S4096x256 .f32 0x00000000#32) (ix2 r o)
      = ∑ k : Fin 256, l (ix2 r k) * w (ix2 k o) := by
  simp only [matmul]
  rw [Ideal.matmul_constant_zero_apply, ← Equiv.sum_comp (ValueIdx.contrEquiv1 dot_S4096x256_S256x256_S4096x256_1_0_0_1_n_n 256 rfl rfl).symm]
  refine Finset.sum_congr rfl fun k _ => ?_
  have hk := ValueIdx.contrEquiv1_symm_val dot_S4096x256_S256x256_S4096x256_1_0_0_1_n_n 256 rfl rfl k
  have el : dot_S4096x256_S256x256_S4096x256_1_0_0_1_n_n.lhsIdx (ix2 r o) ((ValueIdx.contrEquiv1 dot_S4096x256_S256x256_S4096x256_1_0_0_1_n_n 256 rfl rfl).symm k) = ix2 r k := funext fun a => Fin.ext (by
    match a with
    | ⟨0, _⟩ => exact lhs_mm_0 _ _
    | ⟨1, _⟩ => exact (lhs_mm_1 _ _).trans hk)
  have er : dot_S4096x256_S256x256_S4096x256_1_0_0_1_n_n.rhsIdx (ix2 r o) ((ValueIdx.contrEquiv1 dot_S4096x256_S256x256_S4096x256_1_0_0_1_n_n 256 rfl rfl).symm k) = ix2 k o := funext fun a => Fin.ext (by
    match a with
    | ⟨0, _⟩ => exact (rhs_mm_0 _ _).trans hk
    | ⟨1, _⟩ => exact rhs_mm_1 _ _)
  rw [el, er]

/-! The whole body. -/

/-- The quantised block: the normalised block times the first scale, clipped to [-127, 127], rounded to the nearest
    integer (ties to even); the change of format is the identity on the extended reals. -/
def quantised (x : FVec Ideal S4096x256 .f32) (s : FVec Ideal S1x1 .f32) : FVec Ideal S4096x256 .bf16 :=
  truncf .bf16 (roundeven (minimumf (broadcast S4096x256 (Scalar.ofBits .f32 0x42FE0000#32))
    (maximumf (broadcast S4096x256 (Scalar.ofBits .f32 0xC2FE0000#32))
      (mulf (normed x) (broadcast S4096x256 (extractAt ![0, 0] s Facts₀.inpos_S1x1_p0_0)))))) Facts₀.bitsLt_bf16_f32

theorem quantised_apply (x : FVec Ideal S4096x256 .f32) (s : FVec Ideal S1x1 .f32) (r : Fin 4096) (k : Fin 256) :
    quantised x s (ix2 r k) = Net.quant (s (ix2 0 0)) (Net.rxn (fun k' => x (ix2 r k')) k) := by
  unfold quantised
  show Ideal.liftRound Ideal.roundHalfEven (min Net.c127 (max Net.cN127 (normed x (ix2 r k) * extractAt ![0, 0] s _))) = _
  rw [normed_apply, one_apply]
  rfl

/-- What the body computes: the quantised block times the matrix, times the second scale. -/
def scaledProduct (x : FVec Ideal S4096x256 .f32) (s : FVec Ideal S1x1 .f32) (w : FVec Ideal S256x256 .bf16) (q : FVec Ideal S1x1 .f32) :
    FVec Ideal S4096x256 .f32 :=
  mulf (matmul dot_S4096x256_S256x256_S4096x256_1_0_0_1_n_n none (quantised x s)
      (shapeCast S256x256 w Facts₀.shapeCasts_S256x256_S256x256) (constant S4096x256 .f32 0x00000000#32))
    (broadcast S4096x256 (extractAt ![0, 0] q Facts₀.inpos_S1x1_p0_0))

theorem scaledProduct_apply (x : FVec Ideal S4096x256 .f32) (s : FVec Ideal S1x1 .f32) (w : FVec Ideal S256x256 .bf16) (q : FVec Ideal S1x1 .f32)
    (r : Fin 4096) (o : Fin 256) :
    scaledProduct x s w q (ix2 r o)
      = (∑ k : Fin 256, Net.quant (s (ix2 0 0)) (Net.rxn (fun k' => x (ix2 r k')) k) * w (ix2 k o)) * q (ix2 0 0) := by
  unfold scaledProduct
  show matmul _ none _ _ _ (ix2 r o) * extractAt ![0, 0] q _ = _
  rw [shapeCast_self, mm_apply, one_apply]
  simp only [quantised_apply]

/-- The body's stored value is that product of the rows' block (which the body first recasts to its own shape: the
    identity); the last layer takes no positive part. -/
theorem pay_eq (x : FVec Ideal S4096x256 .f32) (s : FVec Ideal S1x1 .f32) (w : FVec Ideal S256x256 .bf16) (q : FVec Ideal S1x1 .f32) :
    k5_pay1 (F := Ideal) x s w q = scaledProduct (shapeCast S4096x256 x Facts₀.shapeCasts_S4096x256_S4096x256) s w q := rfl

/-- The body's stored value at (r, o). -/
theorem pay_apply (x : FVec Ideal S4096x256 .f32) (s : FVec Ideal S1x1 .f32) (w : FVec Ideal S256x256 .bf16) (q : FVec Ideal S1x1 .f32)
    (r : Fin 4096) (o : Fin 256) :
    k5_pay1 (F := Ideal) x s w q (ix2 r o)
      = (∑ k : Fin 256, Net.quant (s (ix2 0 0)) (Net.rxn (fun k' => x (ix2 r k')) k) * w (ix2 k o)) * q (ix2 0 0) := by
  rw [pay_eq, shapeCast_self, scaledProduct_apply]

/-! ## From the blocks to the array

Point t of the grid reads rows 4096·t … 4096·t + 4095 of the rows' array, the whole matrix and the two one-entry
arrays, and writes rows 4096·t … 4096·t + 4095 of the output. -/

/-- A block whose row r is row i of the array X, against a block that is the matrix W and one-entry blocks holding
    sq and so: the body's value at (r, o) is the layer's product at (i, o). -/
theorem block_value (x : FVec Ideal S4096x256 .f32) (s : FVec Ideal S1x1 .f32) (w : FVec Ideal S256x256 .bf16) (q : FVec Ideal S1x1 .f32)
    (X : Net.SX.Idx → EReal) (W : Net.SW.Idx → EReal) (sq so : EReal) (r : Fin 4096) (o : Fin 256) (i : Fin 131072)
    (hx : ∀ k : Fin 256, x (ix2 r k) = X (ix2 i k)) (hw : ∀ k : Fin 256, w (ix2 k o) = W (ix2 k o))
    (hs : s (ix2 0 0) = sq) (hq : q (ix2 0 0) = so) :
    k5_pay1 (F := Ideal) x s w q (ix2 r o) = Net.qmm false X W sq so (ix2 i o) := by
  rw [pay_apply, hs, hq]
  have hrow : (fun k' => x (ix2 r k')) = Net.row X i := funext hx
  rw [hrow]
  simp only [hw]
  rfl

/-- The printed index maps over the grid: the rows' window and the output's sit at block row t, the other three
    windows at their one block. -/
theorem idx_facts : ∀ t : Fin cfg5.N,
    win5_0.index t (0 : Fin 2) = t.val ∧ win5_0.index t (1 : Fin 2) = 0
    ∧ win5_1.index t (0 : Fin 2) = 0 ∧ win5_1.index t (1 : Fin 2) = 0
    ∧ win5_2.index t (0 : Fin 2) = 0 ∧ win5_2.index t (1 : Fin 2) = 0
    ∧ win5_3.index t (0 : Fin 2) = 0 ∧ win5_3.index t (1 : Fin 2) = 0
    ∧ win5_4.index t (0 : Fin 2) = t.val ∧ win5_4.index t (1 : Fin 2) = 0 :=
  (by decide +kernel : ∀ t : Fin grid5.N, _)

set_option maxHeartbeats 2000000 in
/-- What point t writes back is block t of the layer's product of the four arrays as the region found them. -/
theorem flushed_eq (c : Dev nD) (t : Fin cfg5.N) :
    (dat5 (F := Ideal) V c).flushed 4 t = ((cfg5.win 4).blk t).view.read (Elt Ideal)
      (Net.qmm false (V c (Pipeline.arrRef spec5 0)) (V c (Pipeline.arrRef spec5 1))
        ((V c (Pipeline.arrRef spec5 2) : Net.S11.Idx → EReal) (ix2 0 0)) ((V c (Pipeline.arrRef spec5 3) : Net.S11.Idx → EReal) (ix2 0 0))) := by
  show (cfg5.win 4).cut (grid5.coords t) ((dat5 V c).after 4 t) = _
  rw [after5_4]
  unfold out5_4
  rw [View.canon_unit_zero hz]
  simp only [View.ld_unit_zero (S := S4096x256) hz, View.ld_unit_zero (S := S1x1) hz, View.ld_unit_zero (S := S256x256) hz]
  obtain ⟨e00, e01, e10, e11, e20, e21, e30, e31, e40, e41⟩ := idx_facts t
  have hN : cfg5.N = 32 := N_5
  have ht : t.val < 32 := hN ▸ t.isLt
  funext j
  obtain ⟨r, o, rfl⟩ : ∃ (r : Fin 4096) (o : Fin 256), j = ix2 r o := ⟨j 0, j 1, eq_ix2 j⟩
  refine (block_value (iblk5 V c 0 t) (iblk5 V c 2 t) (iblk5 V c 1 t) (iblk5 V c 3 t)
    (V c (Pipeline.arrRef spec5 0)) (V c (Pipeline.arrRef spec5 1))
    ((V c (Pipeline.arrRef spec5 2) : Net.S11.Idx → EReal) (ix2 0 0)) ((V c (Pipeline.arrRef spec5 3) : Net.S11.Idx → EReal) (ix2 0 0))
    r o ⟨t.val * 4096 + r.val, by omega⟩ ?_ ?_ ?_ ?_).trans ?_
  · intro k
    show V c (Pipeline.arrRef spec5 0) (((cfg5.win 0).blk t).view.emb (ix2 r k)) = _
    refine congrArg _ (funext fun a => Fin.ext ?_)
    match a with
    | ⟨0, _⟩ => show win5_0.index t (0 : Fin 2) * 4096 + 1 * r.val = t.val * 4096 + r.val; omega
    | ⟨1, _⟩ => show win5_0.index t (1 : Fin 2) * 256 + 1 * k.val = k.val; omega
  · intro k
    show V c (Pipeline.arrRef spec5 1) (((cfg5.win 1).blk t).view.emb (ix2 k o)) = _
    refine congrArg _ (funext fun a => Fin.ext ?_)
    match a with
    | ⟨0, _⟩ => show win5_1.index t (0 : Fin 2) * 256 + 1 * k.val = k.val; omega
    | ⟨1, _⟩ => show win5_1.index t (1 : Fin 2) * 256 + 1 * o.val = o.val; omega
  · show V c (Pipeline.arrRef spec5 2) (((cfg5.win 2).blk t).view.emb (ix2 0 0)) = _
    refine congrArg _ (funext fun a => Fin.ext ?_)
    match a with
    | ⟨0, _⟩ => show win5_2.index t (0 : Fin 2) * 1 + 1 * 0 = 0; omega
    | ⟨1, _⟩ => show win5_2.index t (1 : Fin 2) * 1 + 1 * 0 = 0; omega
  · show V c (Pipeline.arrRef spec5 3) (((cfg5.win 3).blk t).view.emb (ix2 0 0)) = _
    refine congrArg _ (funext fun a => Fin.ext ?_)
    match a with
    | ⟨0, _⟩ => show win5_3.index t (0 : Fin 2) * 1 + 1 * 0 = 0; omega
    | ⟨1, _⟩ => show win5_3.index t (1 : Fin 2) * 1 + 1 * 0 = 0; omega
  · refine congrArg _ (?_ : _ = ((cfg5.win 4).blk t).view.emb (ix2 r o))
    refine funext fun a => Fin.ext ?_
    match a with
    | ⟨0, _⟩ => show t.val * 4096 + r.val = win5_4.index t (0 : Fin 2) * 4096 + 1 * r.val; omega
    | ⟨1, _⟩ => show o.val = win5_4.index t (1 : Fin 2) * 256 + 1 * o.val; omega

/-- An index of the output array is in point t's block iff each coordinate is in the block's range on its axis. -/
theorem mem_blk (t : Fin cfg5.N) (i : S131072x256.Idx) :
    i ∈ ((cfg5.win 4).blk t).view.set ↔ ∀ a : Fin 2, win5_4.index t a * S4096x256.size a ≤ (i a).val ∧ (i a).val < win5_4.index t a * S4096x256.size a + S4096x256.size a := by
  show i ∈ ((View.whole (Pipeline.arrRef spec5 4)).slice (win5_4.rect t)).set ↔ _
  rw [View.set_slice_whole, Rect.mem_set_unit]
  exact Iff.rfl

/-- Row i of the output lies in the block of point i / 4096. -/
theorem cover (i : S131072x256.Idx) : ∃ t : Fin cfg5.N, (cfg5.win 4).flush t = true ∧ i ∈ ((cfg5.win 4).blk t).view.set := by
  have hN : cfg5.N = 32 := N_5
  have hi0 : (i 0).val < 131072 := (i 0).isLt
  have hi1 : (i 1).val < 256 := (i 1).isLt
  let t : Fin cfg5.N := ⟨(i 0).val / 4096, by rw [hN]; omega⟩
  have htv : t.val = (i 0).val / 4096 := rfl
  obtain ⟨-, -, -, -, -, -, -, -, e40, e41⟩ := idx_facts t
  refine ⟨t, flush5_4 t, ?_⟩
  rw [mem_blk]
  intro a
  match a with
  | ⟨0, _⟩ => show win5_4.index t (0 : Fin 2) * 4096 ≤ (i 0).val ∧ (i 0).val < win5_4.index t (0 : Fin 2) * 4096 + 4096; omega
  | ⟨1, _⟩ => show win5_4.index t (1 : Fin 2) * 256 ≤ (i 1).val ∧ (i 1).val < win5_4.index t (1 : Fin 2) * 256 + 256; omega

/-- The output array after the region, from the four operand arrays as the region found them: the rows, the sign
    matrix laid out input-major, the quantisation scale and the output scale (each a (1,1) array). -/
theorem final (c : Dev nD) :
    (dat5 (F := Ideal) V c).arrAt 4 cfg5.N
      = Net.qmm false (V c (Pipeline.arrRef spec5 0)) (V c (Pipeline.arrRef spec5 1))
          ((V c (Pipeline.arrRef spec5 2) : Net.S11.Idx → EReal) (ix2 0 0)) ((V c (Pipeline.arrRef spec5 3) : Net.S11.Idx → EReal) (ix2 0 0)) :=
  (dat5 (F := Ideal) V c).arrAt_eq_of_cover 4 _ (fun t _ => flushed_eq V c t) cover

end Cert.KernelIdeal.Quant5

end
-- ==== Proof.KHost5.lean ====
/-
  The host operations between the fifth and sixth regions, read as values of the buffers the second region takes:
  the sign matrix of the weight laid out input-major, 127 over the clamped maximum, and the weight's mean
  magnitude times the clamped maximum over 127; the arguments are not written.
-/
import proofs.«131569_j14456859918944_1_alg».proof.Proof.Gen.KernelIdeal.Launch
import proofs.«131569_j14456859918944_1_alg».proof.Proof.NetSpec
import Idealize.ShloMosaic.Lib.StableHlo.Run
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Host5

open Idealize.ShloMosaic Idealize.ShloMosaic.TcCoe Idealize.ShloMosaic.ValueIdx Idealize.SL.Sem
open Cert.KernelIdeal Cert.KernelIdeal.Gen

variable (Wi : Valuation τ sig (Elt Ideal))

/-- The buffers after the three stretches of host operations, from the buffers `Wi` before them. -/
abbrev after : Valuation τ sig (Elt Ideal) :=
  StableHlo.after hostOps5_2 (StableHlo.after hostOps5_1 (StableHlo.after hostOps5 Wi))

/-! ## What is not written

Each operation writes its one result reference; a reference that is none of these holds, after the three stretches,
what it held before them. -/

/-- Every reference the three stretches write, in order. -/
abbrev written : List (Ref sig .tc) :=
  [
   main_cst_21, main_v49, main_v50, main_cst_22, main_v51, main_cst_23, main_v52, main_v53, main_cst_24, main_v54, main_cst_25, main_v55, main_cst_26, main_v56, main_v57, main_v58, main_cst_27, main_v59, main_v60, main_cst_28, main_cst_29,
   main_call2_v0, main_call2_v1, main_v61,
   main_v62, main_v63, main_v64, main_cst_30, main_v65, main_v66, main_v67, main_v68, main_cst_31, main_v69, main_v70 ]

theorem writes0 : (hostOps5 : List (HloOp τ sig (Elt Ideal))).Forall fun op =>
    op.writes ⊆ (written.map (Proc.devRef (τ := τ) .tc)).toFinset := by
  simp only [hostOps5, List.Forall, StableHlo.nullary_writes, StableHlo.unary_writes, StableHlo.binary_writes,
    StableHlo.ternary_writes, Finset.singleton_subset_iff, List.mem_toFinset]
  repeat' apply And.intro
  all_goals exact List.mem_map_of_mem (by decide)

theorem writes1 : (hostOps5_1 : List (HloOp τ sig (Elt Ideal))).Forall fun op =>
    op.writes ⊆ (written.map (Proc.devRef (τ := τ) .tc)).toFinset := by
  simp only [hostOps5_1, List.Forall, StableHlo.nullary_writes, StableHlo.unary_writes, StableHlo.binary_writes,
    StableHlo.ternary_writes, Finset.singleton_subset_iff, List.mem_toFinset]
  repeat' apply And.intro
  all_goals exact List.mem_map_of_mem (by decide)

theorem writes2 : (hostOps5_2 : List (HloOp τ sig (Elt Ideal))).Forall fun op =>
    op.writes ⊆ (written.map (Proc.devRef (τ := τ) .tc)).toFinset := by
  simp only [hostOps5_2, List.Forall, StableHlo.nullary_writes, StableHlo.unary_writes, StableHlo.binary_writes,
    StableHlo.ternary_writes, Finset.singleton_subset_iff, List.mem_toFinset]
  repeat' apply And.intro
  all_goals exact List.mem_map_of_mem (by decide)

/-- A reference none of the three stretches writes holds what it held before them. -/
theorem kept {r : Ref sig .tc} (hr : r ∉ written) : after Wi (Proc.devRef .tc r) = Wi (Proc.devRef .tc r) := by
  show StableHlo.after hostOps5_2 (StableHlo.after hostOps5_1 (StableHlo.after hostOps5 Wi)) _ = _
  rw [StableHlo.after_of_writes_sub hostOps5_2 _ writes2 hr, StableHlo.after_of_writes_sub hostOps5_1 _ writes1 hr,
    StableHlo.after_of_writes_sub hostOps5 _ writes0 hr]

/-! ## The weight's statistics as the host operations compute them

The sum over both axes starts from the zero word, so it is the sum of all 65536 entries; the mean divides it by
65536. |w| is max(w, -w). -/

/-- The host's sum of a 256 × 256 array over both axes, started from the zero word: the sum of all its entries. -/
theorem total_apply (x : FVec Ideal S256x256 .f32) (k : S_.Idx) :
    Host.reduceAdd (F := Ideal) x (constant S_ .f32 0x00000000#32) reducesTo_S256x256_S_d0_1 h_S_ k = ∑ p : S256x256.Idx, x p := by
  show Ideal.hostReduceAdd reducesTo_S256x256_S_d0_1 x (Ideal.ofBits .f32 0x00000000#32) k = _
  rw [Ideal.hostReduceAdd_total reducesTo_S256x256_S_d0_1 (fun b => b.elim0) x _ k, Ideal.ofBits_zero_f32, zero_add]

/-- The mean magnitude of a 256 × 256 array, clamped below at 1e-8, as the host operations compute it. -/
def betaArr (W : FVec Ideal S256x256 .f32) : FVec Ideal S_ .f32 :=
  maximumf (Host.divf (Host.reduceAdd (Host.absf W) (constant S_ .f32 0x00000000#32) reducesTo_S256x256_S_d0_1 h_S_)
    (constant S_ .f32 0x47800000#32)) (constant S_ .f32 0x322BCC77#32)

theorem betaArr_apply (W : FVec Ideal S256x256 .f32) (k : S_.Idx) : betaArr W k = Net.beta W := by
  show max (Ideal.div (Host.reduceAdd (F := Ideal) (Host.absf W) (constant S_ .f32 0x00000000#32) reducesTo_S256x256_S_d0_1 h_S_ k)
    (Ideal.ofBits .f32 0x47800000#32)) (Ideal.ofBits .f32 0x322BCC77#32) = _
  rw [total_apply]
  rfl

/-- The signs of a 256 × 256 array about its mean, as the host operations compute them (output-major): the entry
    less the mean compared with zero selects +1 or -1. -/
def sgnArr (W : FVec Ideal S256x256 .f32) : FVec Ideal S256x256 .f32 :=
  select
    (cmpf .ogt
      (subf W (broadcastInDim S256x256 ![] bcast_S_S256x256
        (Host.divf (Host.reduceAdd W (constant S_ .f32 0x00000000#32) reducesTo_S256x256_S_d0_1 h_S_) (constant S_ .f32 0x47800000#32))))
      (broadcastInDim S256x256 ![] bcast_S_S256x256 (constant S_ .f32 0x00000000#32)))
    (broadcastInDim S256x256 ![] bcast_S_S256x256 (constant S_ .f32 0x3F800000#32))
    (broadcastInDim S256x256 ![] bcast_S_S256x256 (constant S_ .f32 0xBF800000#32))

theorem sgnArr_apply (W : FVec Ideal S256x256 .f32) (o k : Fin 256) : sgnArr W (ix2 o k) = Net.sgn W o k := by
  show Scalar.select (Ideal.cmp .ogt (W (ix2 o k)
      - Ideal.div (Host.reduceAdd (F := Ideal) W (constant S_ .f32 0x00000000#32) reducesTo_S256x256_S_d0_1 h_S_ _) (Ideal.ofBits .f32 0x47800000#32))
      (Ideal.ofBits .f32 0x00000000#32)) (Ideal.ofBits .f32 0x3F800000#32) (Ideal.ofBits .f32 0xBF800000#32) = _
  rw [total_apply, Ideal.ofBits_zero_f32]
  rfl

/-! ## The statements -/

theorem kept_arg0 : after Wi (Proc.devRef .tc main_arg0) = Wi (Proc.devRef .tc main_arg0) := by
  exact kept Wi (by decide)
theorem kept_arg1 : after Wi (Proc.devRef .tc main_arg1) = Wi (Proc.devRef .tc main_arg1) := by
  exact kept Wi (by decide)
theorem kept_arg2 : after Wi (Proc.devRef .tc main_arg2) = Wi (Proc.devRef .tc main_arg2) := by
  exact kept Wi (by decide)
theorem kept_arg3 : after Wi (Proc.devRef .tc main_arg3) = Wi (Proc.devRef .tc main_arg3) := by
  exact kept Wi (by decide)

theorem kept_x : after Wi (Proc.devRef .tc main_v47) = Wi (Proc.devRef .tc main_v47) := by
  exact kept Wi (by decide)

/-- The sign matrix, input-major. -/
theorem wT_eq : (after Wi (Proc.devRef .tc main_v64) : Net.SW.Idx → EReal) = Net.sgnT (Wi (Proc.devRef .tc main_arg3)) := by
  -- the transpose reads the output-major signs at the swapped index; the two conversions change nothing at the extended reals
  show StableHlo.after hostOps5_2 (StableHlo.after hostOps5_1 (StableHlo.after hostOps5 Wi)) (Proc.devRef .tc main_v64) = _
  after_results_simp
  funext p
  show transpose S256x256 [1, 0] (sgnArr (Wi (Proc.devRef .tc main_arg3))) transposes_S256x256_S256x256_1_0 p = _
  rw [transpose_apply [1, 0] _ transposes_S256x256_S256x256_1_0 p (ix2 (p 1) (p 0)) (fun b => match b with
    | ⟨0, _⟩ => rfl
    | ⟨1, _⟩ => rfl)]
  exact sgnArr_apply _ _ _

/-- The quantisation scale: 127 over the first region's maximum clamped below at 1e-8. -/
theorem sq_eq : (after Wi (Proc.devRef .tc main_v66) : Net.S11.Idx → EReal) (ix2 0 0)
    = Ideal.div Net.c127 (max ((Wi (Proc.devRef .tc main_v48) : Net.S11.Idx → EReal) (ix2 0 0)) Net.cTiny) := by
  show StableHlo.after hostOps5_2 (StableHlo.after hostOps5_1 (StableHlo.after hostOps5 Wi)) (Proc.devRef .tc main_v66) (ix2 0 0) = _
  after_results_simp
  rfl

/-- The output scale: mean |W| (at least 1e-8) times the clamped maximum, over 127. -/
theorem so_eq : (after Wi (Proc.devRef .tc main_v70) : Net.S11.Idx → EReal) (ix2 0 0)
    = Ideal.div (Net.beta (Wi (Proc.devRef .tc main_arg3)) * (max ((Wi (Proc.devRef .tc main_v48) : Net.S11.Idx → EReal) (ix2 0 0)) Net.cTiny : EReal)) Net.c127 := by
  show StableHlo.after hostOps5_2 (StableHlo.after hostOps5_1 (StableHlo.after hostOps5 Wi)) (Proc.devRef .tc main_v70) (ix2 0 0) = _
  after_results_simp
  show Ideal.div (betaArr (Wi (Proc.devRef .tc main_arg3)) _
      * (max ((Wi (Proc.devRef .tc main_v48) : Net.S11.Idx → EReal) (ix2 0 0)) (Ideal.ofBits .f32 0x322BCC77#32) : EReal))
      (Ideal.ofBits .f32 0x42FE0000#32) = _
  rw [betaArr_apply]
  rfl

end Cert.KernelIdeal.Host5

end
-- ==== Proof.KValue.lean ====
/-
  The kernel program's result as a value: the contents of each segment boundary are followed from the launch memory to
  the last region.  Per layer: the first region leaves max(0, largest |xn|) of its input in a (1,1) array; the host
  operations turn it and the weight into the sign matrix and the two scales; the second region leaves the layer's value.
  Clamping the maximum below at 1e-8 absorbs the max with 0, so each layer's value is the layer function of the
  previous layer's value and its weight, and the result buffer ends at the network function of the four arguments.
-/
import proofs.«131569_j14456859918944_1_alg».proof.Proof.Gen.KernelIdeal.Frame
import proofs.«131569_j14456859918944_1_alg».proof.Proof.NetSpec
import proofs.«131569_j14456859918944_1_alg».proof.Proof.NetLaws
import proofs.«131569_j14456859918944_1_alg».proof.Proof.KAbsMax0
import proofs.«131569_j14456859918944_1_alg».proof.Proof.KQuant1
import proofs.«131569_j14456859918944_1_alg».proof.Proof.KHost1
import proofs.«131569_j14456859918944_1_alg».proof.Proof.KAbsMax2
import proofs.«131569_j14456859918944_1_alg».proof.Proof.KQuant3
import proofs.«131569_j14456859918944_1_alg».proof.Proof.KHost3
import proofs.«131569_j14456859918944_1_alg».proof.Proof.KAbsMax4
import proofs.«131569_j14456859918944_1_alg».proof.Proof.KQuant5
import proofs.«131569_j14456859918944_1_alg».proof.Proof.KHost5

noncomputable section

namespace Cert.KernelIdeal.NetValue

open Idealize.ShloMosaic Idealize.ShloMosaic.TcCoe Idealize.ShloMosaic.ValueIdx Idealize.SL.Sem
open Idealize.ShloMosaic.Pipeline (Dat)
open Cert.KernelIdeal Cert.KernelIdeal.Gen

variable (m : (ℓ : Loc nD τ sig) → Buf (Elt Ideal) ℓ) (ρ : Dev nD → PrngReg)

/-- The four arguments as launched, on core `c`. -/
abbrev ax (c : Dev nD) : Net.SX.Idx → EReal := m ((c : Thread nD τ).loc main_arg0)
abbrev aw1 (c : Dev nD) : Net.SW.Idx → EReal := m ((c : Thread nD τ).loc main_arg1)
abbrev aw2 (c : Dev nD) : Net.SW.Idx → EReal := m ((c : Thread nD τ).loc main_arg2)
abbrev aw3 (c : Dev nD) : Net.SW.Idx → EReal := m ((c : Thread nD τ).loc main_arg3)

/-- The clamped maximum as the host computes it from a region's (1,1) result is the layer's gamma. -/
theorem clamp_eq (a : EReal) : (max ((fun _ : Net.S11.Idx => max 0 a) (ix2 0 0)) Net.cTiny : EReal) = max a Net.cTiny :=
  Net.max_zero_max_tiny a

/-! ## Layer 1 -/

/-- After the first region: its (1,1) result. -/
theorem g1 (c : Dev nD) : (W1 m ρ c (Proc.devRef .tc main_v0) : Net.S11.Idx → EReal) = fun _ => max 0 (Net.amax (ax m c)) :=
  (W1_arr m ρ c 1).trans (AbsMax0.final (V0 m ρ) c)

theorem W1_arg0 (c : Dev nD) : W1 m ρ c (Proc.devRef .tc main_arg0) = ax m c :=
  (W1_arr m ρ c 0).trans (((dat0 (V0 m ρ) c).arrAt_in 0 rfl _).trans (A_eq0 (V0 m ρ) c 0))
theorem W1_arg1 (c : Dev nD) : W1 m ρ c (Proc.devRef .tc main_arg1) = aw1 m c := W1_of_ne m ρ c main_arg1 (by decide)
theorem W1_arg2 (c : Dev nD) : W1 m ρ c (Proc.devRef .tc main_arg2) = aw2 m c := W1_of_ne m ρ c main_arg2 (by decide)
theorem W1_arg3 (c : Dev nD) : W1 m ρ c (Proc.devRef .tc main_arg3) = aw3 m c := W1_of_ne m ρ c main_arg3 (by decide)

/-- The second region's four operands, as it finds them. -/
theorem V4_x (c : Dev nD) : V4 m ρ c (Pipeline.arrRef spec1 0) = ax m c :=
  (Host1.kept_arg0 (W1 m ρ c)).trans (W1_arg0 m ρ c)
theorem V4_wT (c : Dev nD) : (V4 m ρ c (Pipeline.arrRef spec1 1) : Net.SW.Idx → EReal) = Net.sgnT (aw1 m c) :=
  (Host1.wT_eq (W1 m ρ c)).trans (congrArg Net.sgnT (W1_arg1 m ρ c))
theorem V4_sq (c : Dev nD) : (V4 m ρ c (Pipeline.arrRef spec1 2) : Net.S11.Idx → EReal) (ix2 0 0) = Ideal.div Net.c127 (Net.gamma (ax m c)) := by
  refine (Host1.sq_eq (W1 m ρ c)).trans ?_
  rw [g1 m ρ c]
  exact congrArg (Ideal.div Net.c127) (Net.max_zero_max_tiny _)
theorem V4_so (c : Dev nD) : (V4 m ρ c (Pipeline.arrRef spec1 3) : Net.S11.Idx → EReal) (ix2 0 0)
    = Ideal.div (Net.beta (aw1 m c) * Net.gamma (ax m c)) Net.c127 := by
  refine (Host1.so_eq (W1 m ρ c)).trans ?_
  rw [g1 m ρ c, W1_arg1 m ρ c]
  exact congrArg (fun g => Ideal.div (Net.beta (aw1 m c) * g) Net.c127) (Net.max_zero_max_tiny _)

/-- The first layer's value, in the second region's output array. -/
theorem h1_eq (c : Dev nD) : (W5 m ρ c (Proc.devRef .tc main_v23) : Net.SX.Idx → EReal) = Net.layer true (ax m c) (aw1 m c) := by
  refine (W5_arr m ρ c 4).trans ((Quant1.final (V4 m ρ) c).trans ?_)
  rw [V4_x m ρ c, V4_wT m ρ c, V4_sq m ρ c, V4_so m ρ c]
  rfl

/-- The first layer's value. -/
abbrev h1 (c : Dev nD) : Net.SX.Idx → EReal := Net.layer true (ax m c) (aw1 m c)
/-- The second layer's value. -/
abbrev h2 (c : Dev nD) : Net.SX.Idx → EReal := Net.layer true (h1 m c) (aw2 m c)

theorem W5_arg2 (c : Dev nD) : W5 m ρ c (Proc.devRef .tc main_arg2) = aw2 m c :=
  (W5_of_ne m ρ c main_arg2 (by decide)).trans ((Host1.kept_arg2 (W1 m ρ c)).trans (W1_arg2 m ρ c))
theorem W5_arg3 (c : Dev nD) : W5 m ρ c (Proc.devRef .tc main_arg3) = aw3 m c :=
  (W5_of_ne m ρ c main_arg3 (by decide)).trans ((Host1.kept_arg3 (W1 m ρ c)).trans (W1_arg3 m ρ c))

/-! ## Layer 2 -/

/-- After the third region: its (1,1) result, the maximum over the first layer's value. -/
theorem g2 (c : Dev nD) : (W6 m ρ c (Proc.devRef .tc main_v24) : Net.S11.Idx → EReal) = fun _ => max 0 (Net.amax (h1 m c)) :=
  (W6_arr m ρ c 1).trans ((AbsMax2.final (V5 m ρ) c).trans
    (congrArg (fun a : Net.SX.Idx → EReal => fun _ : Net.S11.Idx => max 0 (Net.amax a)) (h1_eq m ρ c)))

theorem W6_x (c : Dev nD) : (W6 m ρ c (Proc.devRef .tc main_v23) : Net.SX.Idx → EReal) = h1 m c :=
  (W6_arr m ρ c 0).trans (((dat2 (V5 m ρ) c).arrAt_in 0 rfl _).trans ((A_eq2 (V5 m ρ) c 0).trans (h1_eq m ρ c)))
theorem W6_arg2 (c : Dev nD) : W6 m ρ c (Proc.devRef .tc main_arg2) = aw2 m c :=
  (W6_of_ne m ρ c main_arg2 (by decide)).trans (W5_arg2 m ρ c)
theorem W6_arg3 (c : Dev nD) : W6 m ρ c (Proc.devRef .tc main_arg3) = aw3 m c :=
  (W6_of_ne m ρ c main_arg3 (by decide)).trans (W5_arg3 m ρ c)

theorem V9_x (c : Dev nD) : (V9 m ρ c (Pipeline.arrRef spec3 0) : Net.SX.Idx → EReal) = h1 m c :=
  (Host3.kept_x (W6 m ρ c)).trans (W6_x m ρ c)
theorem V9_wT (c : Dev nD) : (V9 m ρ c (Pipeline.arrRef spec3 1) : Net.SW.Idx → EReal) = Net.sgnT (aw2 m c) :=
  (Host3.wT_eq (W6 m ρ c)).trans (congrArg Net.sgnT (W6_arg2 m ρ c))
theorem V9_sq (c : Dev nD) : (V9 m ρ c (Pipeline.arrRef spec3 2) : Net.S11.Idx → EReal) (ix2 0 0) = Ideal.div Net.c127 (Net.gamma (h1 m c)) := by
  refine (Host3.sq_eq (W6 m ρ c)).trans ?_
  rw [g2 m ρ c]
  exact congrArg (Ideal.div Net.c127) (Net.max_zero_max_tiny _)
theorem V9_so (c : Dev nD) : (V9 m ρ c (Pipeline.arrRef spec3 3) : Net.S11.Idx → EReal) (ix2 0 0)
    = Ideal.div (Net.beta (aw2 m c) * Net.gamma (h1 m c)) Net.c127 := by
  refine (Host3.so_eq (W6 m ρ c)).trans ?_
  rw [g2 m ρ c, W6_arg2 m ρ c]
  exact congrArg (fun g => Ideal.div (Net.beta (aw2 m c) * g) Net.c127) (Net.max_zero_max_tiny _)

/-- The second layer's value, in the fourth region's output array. -/
theorem h2_eq (c : Dev nD) : (W10 m ρ c (Proc.devRef .tc main_v47) : Net.SX.Idx → EReal) = h2 m c := by
  refine (W10_arr m ρ c 4).trans ((Quant3.final (V9 m ρ) c).trans ?_)
  rw [V9_x m ρ c, V9_wT m ρ c, V9_sq m ρ c, V9_so m ρ c]
  rfl

theorem W10_arg3 (c : Dev nD) : W10 m ρ c (Proc.devRef .tc main_arg3) = aw3 m c :=
  (W10_of_ne m ρ c main_arg3 (by decide)).trans ((Host3.kept_arg3 (W6 m ρ c)).trans (W6_arg3 m ρ c))

/-! ## Layer 3 -/

/-- After the fifth region: its (1,1) result, the maximum over the second layer's value. -/
theorem g3 (c : Dev nD) : (W11 m ρ c (Proc.devRef .tc main_v48) : Net.S11.Idx → EReal) = fun _ => max 0 (Net.amax (h2 m c)) :=
  (W11_arr m ρ c 1).trans ((AbsMax4.final (V10 m ρ) c).trans
    (congrArg (fun a : Net.SX.Idx → EReal => fun _ : Net.S11.Idx => max 0 (Net.amax a)) (h2_eq m ρ c)))

theorem W11_x (c : Dev nD) : (W11 m ρ c (Proc.devRef .tc main_v47) : Net.SX.Idx → EReal) = h2 m c :=
  (W11_arr m ρ c 0).trans (((dat4 (V10 m ρ) c).arrAt_in 0 rfl _).trans ((A_eq4 (V10 m ρ) c 0).trans (h2_eq m ρ c)))
theorem W11_arg3 (c : Dev nD) : W11 m ρ c (Proc.devRef .tc main_arg3) = aw3 m c :=
  (W11_of_ne m ρ c main_arg3 (by decide)).trans (W10_arg3 m ρ c)

theorem V14_x (c : Dev nD) : (V14 m ρ c (Pipeline.arrRef spec5 0) : Net.SX.Idx → EReal) = h2 m c :=
  (Host5.kept_x (W11 m ρ c)).trans (W11_x m ρ c)
theorem V14_wT (c : Dev nD) : (V14 m ρ c (Pipeline.arrRef spec5 1) : Net.SW.Idx → EReal) = Net.sgnT (aw3 m c) :=
  (Host5.wT_eq (W11 m ρ c)).trans (congrArg Net.sgnT (W11_arg3 m ρ c))
theorem V14_sq (c : Dev nD) : (V14 m ρ c (Pipeline.arrRef spec5 2) : Net.S11.Idx → EReal) (ix2 0 0) = Ideal.div Net.c127 (Net.gamma (h2 m c)) := by
  refine (Host5.sq_eq (W11 m ρ c)).trans ?_
  rw [g3 m ρ c]
  exact congrArg (Ideal.div Net.c127) (Net.max_zero_max_tiny _)
theorem V14_so (c : Dev nD) : (V14 m ρ c (Pipeline.arrRef spec5 3) : Net.S11.Idx → EReal) (ix2 0 0)
    = Ideal.div (Net.beta (aw3 m c) * Net.gamma (h2 m c)) Net.c127 := by
  refine (Host5.so_eq (W11 m ρ c)).trans ?_
  rw [g3 m ρ c, W11_arg3 m ρ c]
  exact congrArg (fun g => Ideal.div (Net.beta (aw3 m c) * g) Net.c127) (Net.max_zero_max_tiny _)

/-- The result buffer at the last segment boundary holds the network function of the four arguments as launched. -/
theorem result_eq (c : Dev nD) : (W15 m ρ c (Proc.devRef .tc main_v71) : Net.SX.Idx → EReal)
    = Net.net (ax m c) (aw1 m c) (aw2 m c) (aw3 m c) := by
  refine (W15_arr m ρ c 4).trans ((Quant5.final (V14 m ρ) c).trans ?_)
  rw [V14_x m ρ c, V14_wT m ρ c, V14_sq m ρ c, V14_so m ρ c]
  rfl

end Cert.KernelIdeal.NetValue

end
-- ==== Proof.RefLayer.lean ====
/-
  One layer of the reference, read index by index: on real inputs its operations compute the layer function.
  The reference adds back what it subtracts around the rounding and around the sign (a + (b - a)); on real
  numbers that is b.
-/
import proofs.«131569_j14456859918944_1_alg».proof.Proof.RefRead
import proofs.«131569_j14456859918944_1_alg».proof.Proof.NetLaws

noncomputable section

namespace Cert.RefNet

open Idealize.ShloMosaic Idealize.ShloMosaic.ValueIdx Cert.ReferenceIdeal Cert.ReferenceIdeal.ReadP

/-! ## Indices and one constant -/

/-- A rank-2 index is determined by the values of its two coordinates. -/
theorem eq_ix2_of_val {n0 n1 : Nat} (p : (⟨2, ![n0, n1]⟩ : Shape).Idx) (a : Fin n0) (b : Fin n1)
    (h0 : (p 0).val = a.val) (h1 : (p 1).val = b.val) : p = ix2 a b :=
  funext fun d => Fin.ext (by match d with | ⟨0, _⟩ => exact h0 | ⟨1, _⟩ => exact h1)

/-- The word of minus infinity denotes the least extended real. -/
theorem ofBits_neg_inf : Ideal.ofBits .f32 0xFF800000#32 = ⊥ := by simp [Ideal.ofBits, Ideal.ieee]

/-! ## The statistics of a row -/

section Rows
variable (x0 : Net.SX.Idx → EReal)

/-- The row's mean: the row's sum from 0, divided by 256. It depends only on the row the index lies in. -/
theorem mean_at (i : Fin 131072) (q : S131072x1.Idx) (hq : (q 0).val = i.val) :
    val_main_v3 (F := Ideal) x0 q = Net.rmean (Net.row x0 i) := by
  rw [val_main_v3_apply, val_main_v1_apply, val_main_v2_apply, val_main_v0_apply, val_main_cst_apply,
    val_main_cst_0_apply]
  simp only [Ideal.hostDivf_def, Ideal.ofBits_def, Ideal.ofBits_zero_f32, zero_add]
  unfold Net.rmean Net.row Net.c256
  refine congrArg (Ideal.div · _) (Finset.sum_congr rfl fun k _ => ?_)
  exact congrArg x0 (eq_ix2_of_val (idx_main_v0 (idx_main_v1 q) k) i k hq rfl)

/-- The entry less its row's mean. -/
theorem cen_at (i : Fin 131072) (j : Fin 256) :
    val_main_v5 (F := Ideal) x0 (ix2 i j) = Net.rcen (Net.row x0 i) j := by
  rw [val_main_v5_apply, val_main_v4_apply, mean_at x0 i (idx_main_v4 (ix2 i j)) rfl]
  rfl

/-- The row's variance: the sum of the squared centred entries from 0, divided by 256. -/
theorem var_at (i : Fin 131072) (q : S131072x1.Idx) (hq : (q 0).val = i.val) :
    val_main_v10 (F := Ideal) x0 q = Net.rvar (Net.row x0 i) := by
  rw [val_main_v10_apply, val_main_v8_apply, val_main_v9_apply, val_main_v7_apply, val_main_cst_1_apply,
    val_main_cst_2_apply]
  simp only [Ideal.hostDivf_def, Ideal.ofBits_def, Ideal.ofBits_zero_f32, zero_add]
  unfold Net.rvar Net.c256
  refine congrArg (Ideal.div · _) (Finset.sum_congr rfl fun k _ => ?_)
  rw [eq_ix2_of_val (idx_main_v7 (idx_main_v8 q) k) i k hq rfl, val_main_v6_apply, cen_at]
  rfl

/-- The reciprocal square root of the row's variance plus 1e-5. -/
theorem rstd_at (i : Fin 131072) (q : S131072x1.Idx) (hq : (q 0).val = i.val) :
    val_main_v15 (F := Ideal) x0 q = Ideal.rsqrt (Net.rvar (Net.row x0 i) + Net.cEps) := by
  rw [val_main_v15_apply, val_main_v14_apply, val_main_v13_apply, val_main_cst_3_apply, var_at x0 i q hq]
  rfl

/-- The normalised entry. -/
theorem xn_at (i : Fin 131072) (j : Fin 256) :
    val_main_v17 (F := Ideal) x0 (ix2 i j) = Net.xn x0 i j := by
  rw [val_main_v17_apply, val_main_v12_apply, val_main_v11_apply, val_main_v16_apply,
    mean_at x0 i (idx_main_v11 (ix2 i j)) rfl, rstd_at x0 i (idx_main_v16 (ix2 i j)) rfl]
  rfl

/-- The absolute values of the normalised entries, as an array. -/
theorem abs_eq : val_main_v18 (F := Ideal) x0 = Net.absxn x0 := by
  funext p
  obtain ⟨i, j, rfl⟩ : ∃ (i : Fin 131072) (j : Fin 256), p = ix2 i j := ⟨p 0, p 1, eq_ix2 p⟩
  rw [val_main_v18_apply, xn_at]
  rfl

/-! ## The quantisation range and the quantised entry -/

/-- The maximum over both axes: the result has no axes, so every index of the array drops to its one index, and
    the fold of the maximum from the least element over all of them is the supremum. -/
theorem amax_at (ι : S_.Idx) : val_main_v19 (F := Ideal) x0 ι = Net.amax x0 := by
  unfold val_main_v19
  rw [Host.reduce_eq_fold, abs_eq, val_main_cst_4_apply, Ideal.ofBits_def, ofBits_neg_inf,
    Finset.filter_true_of_mem fun i _ => by funext b; exact b.elim0]
  rfl

/-- The range: the largest absolute value, at least 1e-8. -/
theorem gamma_at (ι : S_.Idx) : val_main_v20 (F := Ideal) x0 ι = Net.gamma x0 := by
  rw [val_main_v20_apply, amax_at, val_main_cst_5_apply]
  rfl

/-- The quantisation scale 127 / range. -/
theorem sq_at (ι : S_.Idx) : val_main_v21 (F := Ideal) x0 ι = Ideal.div Net.c127 (Net.gamma x0) := by
  rw [val_main_v21_apply, gamma_at, val_main_cst_6_apply]
  rfl

/-- Scaled, clipped from below at -127 and from above at 127, rounded to even. -/
theorem quant_at (i : Fin 131072) (j : Fin 256) :
    val_main_v25 (F := Ideal) x0 (ix2 i j)
      = Net.quant (Ideal.div Net.c127 (Net.gamma x0)) (Net.xn x0 i j) := by
  rw [val_main_v25_apply, val_main_v24_apply, val_main_call0_v2_apply, val_main_call0_v1_apply,
    val_main_call0_v0_apply, val_main_v23_apply, val_main_v22_apply, xn_at, sq_at, val_main_cst_7_apply,
    val_main_cst_8_apply]
  rfl

/-- The normalised entry plus (the quantised entry less the normalised entry): the normalised entry is real, so
    this is the quantised entry. -/
theorem qx_at (hx : Net.AllReal x0) (i : Fin 131072) (j : Fin 256) :
    val_main_v27 (F := Ideal) x0 (ix2 i j)
      = Net.quant (Ideal.div Net.c127 (Net.gamma x0)) (Net.xn x0 i j) := by
  rw [val_main_v27_apply, val_main_v26_apply, quant_at, xn_at]
  exact Net.add_sub_cancel_of_real (Net.xn_real hx i j) _

end Rows

/-! ## The weight's mean, scale and signs -/

section Weights
variable (x1 : Net.SW.Idx → EReal)

/-- The mean of the weight: the sum over every index from 0, divided by 65536. -/
theorem wmean_at (ι : S_.Idx) : val_main_v29 (F := Ideal) x1 ι = Net.wmean x1 := by
  rw [val_main_v29_apply, val_main_v28_apply, val_main_cst_9_apply, val_main_cst_10_apply]
  simp only [Ideal.hostDivf_def, Ideal.ofBits_def, Ideal.ofBits_zero_f32, zero_add]
  rfl

/-- The mean of the absolute values of the weight, at least 1e-8. -/
theorem beta_at (ι : S_.Idx) : val_main_v33 (F := Ideal) x1 ι = Net.beta x1 := by
  rw [val_main_v33_apply, val_main_v32_apply, val_main_v31_apply, val_main_cst_11_apply, val_main_cst_12_apply,
    val_main_cst_13_apply]
  simp only [Ideal.hostDivf_def, Ideal.ofBits_def, Ideal.ofBits_zero_f32, zero_add]
  rfl

/-- The weight less its mean. -/
theorem wcen_at (p : S256x256.Idx) : val_main_v35 (F := Ideal) x1 p = x1 p - Net.wmean x1 := by
  rw [val_main_v35_apply, val_main_v34_apply, wmean_at]
  rfl

/-- +1 where the centred weight exceeds 0, else -1. -/
theorem sgn_at (o k : Fin 256) : val_main_v38 (F := Ideal) x1 (ix2 o k) = Net.sgn x1 o k := by
  rw [val_main_v38_apply, val_main_v37_apply, wcen_at, val_main_v36_apply, val_main_cst_14_apply,
    val_main_call2_v0_apply, val_main_call2_v1_apply, val_main_cst_15_apply, val_main_cst_16_apply]
  simp only [Ideal.ofBits_def, Ideal.ofBits_zero_f32, Ideal.cmpf_def]
  rfl

/-- The centred weight plus (the sign less the centred weight): the centred weight is real, so this is the sign. -/
theorem ws_at (hW : Net.AllReal x1) (o k : Fin 256) :
    val_main_v41 (F := Ideal) x1 (ix2 o k) = Net.sgn x1 o k := by
  rw [val_main_v41_apply, val_main_v40_apply, val_main_v39_apply, sgn_at, wcen_at]
  exact Net.add_sub_cancel_of_real (Net.wcen_real hW (ix2 o k)) _

/-- The transposed signs: entry (k, o) is the sign of the weight at (o, k). -/
theorem wT_at (hW : Net.AllReal x1) (k o : Fin 256) :
    val_main_v42 (F := Ideal) x1 (ix2 k o) = Net.sgn x1 o k := by
  rw [val_main_v42_apply, eq_ix2_of_val (idx_main_v42 (ix2 k o)) o k rfl rfl, ws_at x1 hW]

end Weights

/-! ## The contraction, the output scale and the layer -/

section Layer
variable (x0 : Net.SX.Idx → EReal) (x1 : Net.SW.Idx → EReal)

/-- The contraction: over the input axis, the quantised entry of the row times the sign of the weight at (o, k). -/
theorem dot_at (hx : Net.AllReal x0) (hW : Net.AllReal x1) (i : Fin 131072) (o : Fin 256) :
    val_main_v43 (F := Ideal) x0 x1 (ix2 i o)
      = ∑ k : Fin 256, Net.quant (Ideal.div Net.c127 (Net.gamma x0)) (Net.xn x0 i k) * Net.sgn x1 o k := by
  rw [val_main_v43_apply]
  refine Finset.sum_congr rfl fun k _ => ?_
  rw [eq_ix2_of_val (lidx_main_v43 (ix2 i o) k) i k rfl rfl, eq_ix2_of_val (ridx_main_v43 (ix2 i o) k) k o rfl rfl,
    qx_at x0 hx, wT_at x1 hW]

/-- The output scale: (weight scale times range) / 127. -/
theorem so_at (ι : S_.Idx) :
    val_main_v45 (F := Ideal) x0 x1 ι = Ideal.div (Net.beta x1 * Net.gamma x0) Net.c127 := by
  rw [val_main_v45_apply, val_main_v44_apply, beta_at, gamma_at, val_main_cst_17_apply]
  rfl

end Layer

/-- The first layer's value before the positive part is taken. -/
theorem layer_pre (x0 : Net.SX.Idx → EReal) (x1 : Net.SW.Idx → EReal) (hx : Net.AllReal x0) (hW : Net.AllReal x1) :
    val_main_v47 (F := Ideal) x0 x1 = Net.layer false x0 x1 := by
  funext p
  obtain ⟨i, o, rfl⟩ : ∃ (i : Fin 131072) (o : Fin 256), p = ix2 i o := ⟨p 0, p 1, eq_ix2 p⟩
  rw [val_main_v47_apply, val_main_v46_apply, dot_at x0 x1 hx hW, so_at]
  rfl

/-- The first layer's value with the positive part taken. -/
theorem layer_relu (x0 : Net.SX.Idx → EReal) (x1 : Net.SW.Idx → EReal) (hx : Net.AllReal x0) (hW : Net.AllReal x1) :
    val_main_v48 (F := Ideal) x0 x1 = Net.layer true x0 x1 := by
  funext p
  rw [val_main_v48_apply, layer_pre x0 x1 hx hW, val_main_call3_v0_apply, val_main_call3_cst_apply, Ideal.ofBits_def,
    Ideal.ofBits_zero_f32]
  rfl

end Cert.RefNet

end
-- ==== Proof.RefNet.lean ====
/-
  The reference's three layers composed.  Its second and third layers are the same operations as the first, applied
  to the previous layer's value and the next weight, so the stage that holds the result is the first layer's stage
  function applied three times; on real arguments each application is the layer function, and a layer maps real
  arrays to a real array, so the result is the network function of the four arguments.
-/
import proofs.«131569_j14456859918944_1_alg».proof.Proof.RefLayer

noncomputable section

namespace Cert.RefNet

open Idealize.ShloMosaic Cert.ReferenceIdeal Cert.ReferenceIdeal.ReadP

section
variable {F : FTy → Type} [FloatOps F]

/-- The second layer's last stage is the first layer's last stage of the first layer's value and the second weight. -/
theorem stage2 (x0 : (⟨S131072x256, .f32⟩ : BufTy).Contents (Elt F)) (x1 x2 : (⟨S256x256, .f32⟩ : BufTy).Contents (Elt F)) :
    val_main_v97 (F := F) x0 x1 x2 = val_main_v48 (F := F) (val_main_v48 (F := F) x0 x1) x2 := rfl

/-- The result's stage is the first layer's stage before the positive part, of the second layer's value and the third weight. -/
theorem stage3 (x0 : (⟨S131072x256, .f32⟩ : BufTy).Contents (Elt F)) (x1 x2 x3 : (⟨S256x256, .f32⟩ : BufTy).Contents (Elt F)) :
    val_main_v145 (F := F) x0 x1 x2 x3 = val_main_v47 (F := F) (val_main_v97 (F := F) x0 x1 x2) x3 := rfl
end

/-- On real arguments the reference's result is the network function. -/
theorem net_eq (x0 : Net.SX.Idx → EReal) (x1 x2 x3 : Net.SW.Idx → EReal)
    (hx : Net.AllReal x0) (h1 : Net.AllReal x1) (h2 : Net.AllReal x2) (h3 : Net.AllReal x3) :
    val_main_v145 (F := Ideal) x0 x1 x2 x3 = Net.net x0 x1 x2 x3 := by
  have r1 := Net.layer_real true hx h1
  have r2 := Net.layer_real true r1 h2
  rw [stage3 (F := Ideal) x0 x1 x2 x3, stage2 (F := Ideal) x0 x1 x2, layer_relu x0 x1 hx h1, layer_relu _ x2 r1 h2,
    layer_pre _ x3 r2 h3]
  rfl

end Cert.RefNet

end
-- ==== Proof.PreReal.lean ====
/-
  The precondition read: every entry of the four argument arrays is a real number.

  The predicate is the conjunction, over the four arrays, of "all entries satisfy |x| < +∞".  A conjunction of one-bit
  words that is 1 has every conjunct 1; a reduction by "and" over all axes that is 1 met a 1 at every index; and
  |x| < +∞ fails exactly at x = +∞ and x = -∞, where |x| = +∞.
-/
import proofs.«131569_j14456859918944_1_alg».proof.Defs
import proofs.«131569_j14456859918944_1_alg».proof.Proof.Gen.Pre_finite_inputs
import proofs.«131569_j14456859918944_1_alg».proof.Proof.NetLaws
import Idealize.ShloMosaic.Lib.ReduceAll

noncomputable section

namespace Cert.PreReal

open Idealize.ShloMosaic Idealize.SL.Sem

/-- The shape of rank 0 has exactly one index. -/
instance : Subsingleton Cert.Pre_finite_inputs.S_.Idx := ⟨fun a b => funext fun d => d.elim0⟩

/-- The word 0x7F800000 denotes +∞. -/
theorem inf_word : Ideal.ofBits .f32 0x7F800000#32 = (⊤ : EReal) := by
  simp [Ideal.ofBits, Ideal.ieee]

/-- |x| < +∞ fails at both infinities (there |x| = +∞), so an x that passes the test is a real number. -/
theorem real_of_abs_lt (x : EReal)
    (h : Ideal.cmp .olt (max x (-x)) (Ideal.ofBits .f32 0x7F800000#32) = 1#1) : x ≠ ⊤ ∧ x ≠ ⊥ := by
  rw [inf_word] at h
  constructor
  · rintro rfl
    simp [Ideal.cmp] at h
  · rintro rfl
    simp [Ideal.cmp] at h

/-- One conjunct of the predicate: the test |x| < +∞, taken at every index and reduced by "and" to one word that is 1,
    says every entry of the array is a real number. -/
theorem allReal_of_all {s : Shape} {axes : List (Fin s.rank)} (x : s.Idx → EReal)
    (hb : Cert.Pre_finite_inputs.S_.BroadcastsInDim s (![] : Fin 0 → Fin s.rank))
    (hr : s.ReducesTo axes Cert.Pre_finite_inputs.S_) (hu : 0 < Cert.Pre_finite_inputs.S_.numel)
    (e : Host.reduce IntOp.andi
        (cmpf (F := Ideal) (φ := .f32) .olt (Host.absf (F := Ideal) (φ := .f32) x)
          (broadcastInDim s ![] hb (constant (F := Ideal) Cert.Pre_finite_inputs.S_ .f32 0x7F800000#32)))
        (constantI Cert.Pre_finite_inputs.S_ 1 1#1) hr hu ValueIdx.ix0 = 1#1) :
    Net.AllReal x := by
  intro i
  have hi := Host.reduce_andi_all _ _ hr hu ValueIdx.ix0 e i
  exact real_of_abs_lt (x i) hi

/-- Under the precondition each argument array, on every device, holds real numbers only. -/
theorem args_real (m : (ℓ : Loc Cert.KernelIdeal.nD Cert.KernelIdeal.τ Cert.KernelIdeal.sig) → Buf (Elt Ideal) ℓ)
    (h : Cert.Pre_KernelIdeal (hPre_finite_inputs := Cert.Pre_finite_inputs.Gen.facts) m) (c : Dev Cert.KernelIdeal.nD) :
    Net.AllReal (m ((c.tc : Thread Cert.KernelIdeal.nD Cert.KernelIdeal.τ).loc Cert.KernelIdeal.main_arg0) : Net.SX.Idx → EReal)
    ∧ Net.AllReal (m ((c.tc : Thread Cert.KernelIdeal.nD Cert.KernelIdeal.τ).loc Cert.KernelIdeal.main_arg1) : Net.SW.Idx → EReal)
    ∧ Net.AllReal (m ((c.tc : Thread Cert.KernelIdeal.nD Cert.KernelIdeal.τ).loc Cert.KernelIdeal.main_arg2) : Net.SW.Idx → EReal)
    ∧ Net.AllReal (m ((c.tc : Thread Cert.KernelIdeal.nD Cert.KernelIdeal.τ).loc Cert.KernelIdeal.main_arg3) : Net.SW.Idx → EReal) := by
  -- the predicate's one word, written out as the conjunction of the four reductions
  have h0 := congrFun (h c) ValueIdx.ix0
  dsimp only [Cert.Pre_finite_inputs.fn, Cert.Pre_finite_inputs.fn_part1] at h0
  -- the word is ((a0 ∧ a1) ∧ a2) ∧ a3; each conjunct is 1
  obtain ⟨h012, h3⟩ := IntOp.andi_eq_one.1 h0
  obtain ⟨h01, h2⟩ := IntOp.andi_eq_one.1 h012
  obtain ⟨h0', h1⟩ := IntOp.andi_eq_one.1 h01
  exact ⟨allReal_of_all _ _ _ _ h0', allReal_of_all _ _ _ _ h1, allReal_of_all _ _ _ _ h2, allReal_of_all _ _ _ _ h3⟩

end Cert.PreReal

end
-- ==== Proof.lean ====
/-
  The certificate of a three-layer network with binary weights and 8-bit activations: each layer normalises the rows
  of its input, finds the largest normalised magnitude gamma over the whole array, scales by 127/gamma, clips to
  [-127, 127], rounds to nearest-even, multiplies by the matrix of signs of the weight about its mean, rescales by
  mean|W|·gamma/127 and (except on the last layer) takes the positive part.

  The kernel program does this in six regions: per layer one region that accumulates the maximum block by block from 0
  and one that recomputes the normalisation, quantises, contracts and rescales block by block.  The reference does it
  with whole-array host operations, adding back what it subtracts around the rounding and around the sign.

  On the extended reals the two agree when the arguments are real numbers: a real a satisfies a + (b - a) = b, which
  removes the reference's add-backs; every value a layer produces from real inputs is real, so this holds at each of
  the three layers; the maximum accumulated from 0 and then clamped below at the positive 1e-8 is the clamped maximum;
  a block's rows are normalised exactly as the array's rows are; and the two contractions are the same sum.
  The precondition says exactly that the arguments are real numbers.
-/
import proofs.«131569_j14456859918944_1_alg».proof.Defs
import proofs.«131569_j14456859918944_1_alg».proof.Proof.Gen.Kernel
import proofs.«131569_j14456859918944_1_alg».proof.Proof.Gen.Kernel.Skeleton
import proofs.«131569_j14456859918944_1_alg».proof.Proof.Gen.Kernel.Launch
import proofs.«131569_j14456859918944_1_alg».proof.Proof.Gen.Kernel.Points
import proofs.«131569_j14456859918944_1_alg».proof.Proof.Gen.Kernel.Frame
import proofs.«131569_j14456859918944_1_alg».proof.Proof.Gen.KernelIdeal
import proofs.«131569_j14456859918944_1_alg».proof.Proof.Gen.KernelIdeal.Skeleton
import proofs.«131569_j14456859918944_1_alg».proof.Proof.Gen.KernelIdeal.Launch
import proofs.«131569_j14456859918944_1_alg».proof.Proof.Gen.KernelIdeal.Points
import proofs.«131569_j14456859918944_1_alg».proof.Proof.Gen.KernelIdeal.Frame
import proofs.«131569_j14456859918944_1_alg».proof.Proof.Gen.ReferenceIdeal
import proofs.«131569_j14456859918944_1_alg».proof.Proof.Gen.Pre_finite_inputs
import proofs.«131569_j14456859918944_1_alg».proof.Proof.KRun
import proofs.«131569_j14456859918944_1_alg».proof.Proof.KValue
import proofs.«131569_j14456859918944_1_alg».proof.Proof.RefRun
import proofs.«131569_j14456859918944_1_alg».proof.Proof.RefNet
import proofs.«131569_j14456859918944_1_alg».proof.Proof.PreReal
import Idealize.ShloMosaic.Adequacy
import Idealize.ShloMosaic.Init

noncomputable section

namespace Cert.Proof

open Idealize.ShloMosaic Idealize.SL.Sem

/-- The kernel program runs to its end without a fault and leaves its arguments as launched. -/
theorem frame_k : Cert.frame_Kernel (hKernel := Cert.Kernel.Gen.facts) (hPre_finite_inputs := Cert.Pre_finite_inputs.Gen.facts) :=
  fun m ρ _ => Cert.Kernel.Gen.frame m ρ

/-- So does its reading on the extended reals. -/
theorem frame_ki : Cert.frame_KernelIdeal (hKernelIdeal := Cert.KernelIdeal.Gen.facts) (hPre_finite_inputs := Cert.Pre_finite_inputs.Gen.facts) :=
  fun m ρ _ => Cert.KernelIdeal.Gen.frame m ρ

/-- The reference is host operations only: its run, with the result dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.ValueP.run (F := Ideal) m ρ)

/-- Both programs end with the network function of the arguments in their result buffer: the kernel program
    whatever the arguments are, the reference because the precondition makes them real numbers. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  refine ⟨fun c => Net.net (Cert.KernelIdeal.NetValue.ax m c) (Cert.KernelIdeal.NetValue.aw1 m c)
    (Cert.KernelIdeal.NetValue.aw2 m c) (Cert.KernelIdeal.NetValue.aw3 m c), ?_, ?_⟩
  · exact (θ_run Cert.KernelIdeal.defs _ _).mono
      (fun _ h c => ⟨(h c).1.trans (Cert.KernelIdeal.NetValue.result_eq m ρ c), (h c).2⟩)
      (Cert.KernelIdeal.RunValue.run (F := Ideal) m ρ)
  · refine (θ_run Cert.ReferenceIdeal.defs _ _).mono (fun _ h c => ⟨(h c).1.trans ?_, (h c).2⟩)
      (Cert.ReferenceIdeal.ValueP.run (F := Ideal) m' ρ')
    rw [(hagree c).1, (hagree c).2.1, (hagree c).2.2.1, (hagree c).2.2.2]
    obtain ⟨r0, r1, r2, r3⟩ := Cert.PreReal.args_real m hpre c
    exact Cert.RefNet.net_eq _ _ _ _ r0 r1 r2 r3

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
